-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S131072x256 : Shape := ⟨2, ![131072, 256]⟩
abbrev S1024 : Shape := ⟨1, ![1024]⟩
abbrev S131072 : Shape := ⟨1, ![131072]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S1024x256 .f32) (main_arg1 : FVec F S131072x256 .f32) (main_arg2 : IVec S1024 32) (main_arg3 : IVec S131072 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg3 main_v9
  let main_c_3 : IVec S_ 32 := constantI S_ 32 8192#32
  let main_v11 : IVec S131072 32 := broadcastInDim S131072 ![] bcast_S_S131072 main_c_3
  let main_v12 : IVec S131072 1 := cmpi .slt main_arg3 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S1024x256 : Shape := ⟨2, ![1024, 256]⟩
abbrev S131072x256 : Shape := ⟨2, ![131072, 256]⟩
abbrev S1024 : Shape := ⟨1, ![1024]⟩
abbrev S131072 : Shape := ⟨1, ![131072]⟩
abbrev S131072x1 : Shape := ⟨2, ![131072, 1]⟩
abbrev S8192x256 : Shape := ⟨2, ![8192, 256]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S1x8192 : Shape := ⟨2, ![1, 8192]⟩
abbrev S1x1 : Shape := ⟨2, ![1, 1]⟩
abbrev S128x256 : Shape := ⟨2, ![128, 256]⟩
abbrev S128x1 : Shape := ⟨2, ![128, 1]⟩
abbrev S128 : Shape := ⟨1, ![128]⟩
abbrev S128x8192 : Shape := ⟨2, ![128, 8192]⟩
abbrev S1 : Shape := ⟨1, ![1]⟩

abbrev nBuf : Space → Nat
  | .hbm => 38
  | .vmem => 15
  | .smem => 0
  | _ => 0

abbrev bufTy : (tb : Table) → Fin (tcTables nBuf tb) → BufTy
  | .hbm, ⟨0, _⟩ => ⟨S1024x256, .f32⟩
  | .hbm, ⟨1, _⟩ => ⟨S131072x256, .f32⟩
  | .hbm, ⟨2, _⟩ => ⟨S1024, .i32⟩
  | .hbm, ⟨3, _⟩ => ⟨S131072, .i32⟩
  | .hbm, ⟨4, _⟩ => ⟨S131072x1, .i32⟩
  | .hbm, ⟨5, _⟩ => ⟨S8192x256, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S8192, .f32⟩
  | .hbm, ⟨10, _⟩ => ⟨S131072x1, .i32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .i1⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S1x8192, .f32⟩
  | .hbm, ⟨25, _⟩ => ⟨S1x8192, .f32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024, .i32⟩
  | .hbm, ⟨35, _⟩ => ⟨S1024x1, .i32⟩
  | .hbm, ⟨36, _⟩ => ⟨S1x1, .f32⟩
  | .hbm, ⟨37, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S8192x256, .f32⟩
  | .local _ .vmem, ⟨5, _⟩ => ⟨S8192x256, .f32⟩
  | .local _ .vmem, ⟨6, _⟩ => ⟨S128x256, .f32⟩
  | .local _ .vmem, ⟨7, _⟩ => ⟨S128x256, .f32⟩
  | .local _ .vmem, ⟨8, _⟩ => ⟨S8192x256, .f32⟩
  | .local _ .vmem, ⟨9, _⟩ => ⟨S1x8192, .f32⟩
  | .local _ .vmem, ⟨10, _⟩ => ⟨S1x8192, .f32⟩
  | .local _ .vmem, ⟨11, _⟩ => ⟨S128x1, .i32⟩
  | .local _ .vmem, ⟨12, _⟩ => ⟨S128x1, .i32⟩
  | .local _ .vmem, ⟨13, _⟩ => ⟨S1x1, .f32⟩
  | .local _ .vmem, ⟨14, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v137 : BitVec 1 := Scalar.cmpi .eq arg0 c127_i32
  let v138 : BitVec 32 := Scalar.extui v137
  let c0_i32_40 : BitVec 32 := 0#32
  let v139 : BitVec 1 := Scalar.cmpi .ne v138 c0_i32_40
  v139

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_25 : BitVec 32 := 0#32
  let v58 : BitVec 1 := Scalar.cmpi .ne v57 c0_i32_25
  v58

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S131072_S131072x1 : S131072.ShapeCasts S131072x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  inb_S8192x256_S1024x256_0_0 : ∀ a, (![0, 0] : Fin 2 → Nat) a + S1024x256.size a ≤ S8192x256.size a
  shapeCasts_S1024x256_S1024x256 : S1024x256.ShapeCasts S1024x256
  inb_S8192x256_S1024x256_1024_0 : ∀ a, (![1024, 0] : Fin 2 → Nat) a + S1024x256.size a ≤ S8192x256.size a
  inb_S8192x256_S1024x256_2048_0 : ∀ a, (![2048, 0] : Fin 2 → Nat) a + S1024x256.size a ≤ S8192x256.size a
  inb_S8192x256_S1024x256_3072_0 : ∀ a, (![3072, 0] : Fin 2 → Nat) a + S1024x256.size a ≤ S8192x256.size a
  inb_S8192x256_S1024x256_4096_0 : ∀ a, (![4096, 0] : Fin 2 → Nat) a + S1024x256.size a ≤ S8192x256.size a
  inb_S8192x256_S1024x256_5120_0 : ∀ a, (![5120, 0] : Fin 2 → Nat) a + S1024x256.size a ≤ S8192x256.size a
  inb_S8192x256_S1024x256_6144_0 : ∀ a, (![6144, 0] : Fin 2 → Nat) a + S1024x256.size a ≤ S8192x256.size a
  inb_S8192x256_S1024x256_7168_0 : ∀ a, (![7168, 0] : Fin 2 → Nat) a + S1024x256.size a ≤ S8192x256.size a
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  shapeCasts_S8192_S1x8192 : S8192.ShapeCasts S1x8192
  bcast_S_S1024 : S_.BroadcastsInDim S1024 (![] : Fin 0 → Fin S1024.rank)
  bcast_S1024_S1024x1_0 : S1024.BroadcastsInDim S1024x1 (![0] : Fin 1 → Fin S1024x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  broadcasts_S128x1_S128x256 : S128x1.Broadcasts S128x256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x8192_d1_w32 : S128x8192.Iotas .tc 32 [1]
  broadcasts_S128x1_S128x8192 : S128x1.Broadcasts S128x8192
  reduces_S128x1_S1 : S128x1.Reduces [0] S1
  shapeCasts_S1_S1x1 : S1.ShapeCasts S1x1
  shapeCasts_S1x1_S_ : S1x1.ShapeCasts S_
  dot_S1024x1024_S1024x256_S1024x256_0_0_1_1_n_n_wf : DotDims.WF S1024x1024 S1024x256 S1024x256 [0] [0] [1] [1] [] []
  scatter_S8192_S131072x1_S131072_n_0_0_1_wf : ScatterDims.WF S8192 S131072x1 S131072 [] [0] [0] 1
  gather_S131072_S1024x1_S1024_n_0_n_n_0_1_1_wf : GatherDims.WF S131072 S1024x1 S1024 [] [0] [] [0] [] 1 ![1]
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .f32 = 32 ∨ (Rect.block (s := S8192x256) S8192x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S1024x256.size a
  hwx1_0 : ∀ i : grid1.Coords, EltTy.bits .f32 = 32 ∨ (Rect.block (s := S1024x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S1024x1.size a
  hwx1_4 : ∀ i : grid1.Coords, EltTy.bits .i32 = 32 ∨ (Rect.block (s := S1024x1) S128x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S131072_S1024x1_S1024_n_0_n_n_0_1_1 : GatherDims S131072 S1024x1 S1024 where
  offsetDims := []
  collapsedSliceDims := [0]
  operandBatchingDims := []
  startIndicesBatchingDims := []
  startIndexMap := [0]
  indexVectorDim := 1
  sliceSizes := ![1]
  wf := gather_S131072_S1024x1_S1024_n_0_n_n_0_1_1_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1024x256 : Shape := ⟨2, ![1024, 256]⟩
abbrev S131072x256 : Shape := ⟨2, ![131072, 256]⟩
abbrev S1024 : Shape := ⟨1, ![1024]⟩
abbrev S131072 : Shape := ⟨1, ![131072]⟩
abbrev S_ : Shape := ⟨0, ![]⟩
abbrev S1024x1 : Shape := ⟨2, ![1024, 1]⟩
abbrev S131072x1 : Shape := ⟨2, ![131072, 1]⟩
abbrev S256x131072 : Shape := ⟨2, ![256, 131072]⟩
abbrev S1024x131072 : Shape := ⟨2, ![1024, 131072]⟩
abbrev S131072x1024 : Shape := ⟨2, ![131072, 1024]⟩
abbrev S8192x1024 : Shape := ⟨2, ![8192, 1024]⟩
abbrev S8192 : Shape := ⟨1, ![8192]⟩
abbrev S8192x1 : Shape := ⟨2, ![8192, 1]⟩
abbrev S1024x8192 : Shape := ⟨2, ![1024, 8192]⟩
abbrev S1x8192 : Shape := ⟨2, ![1, 8192]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S131072x256, .f32⟩
  | .hbm, ⟨2, _⟩ => ⟨S1024, .i32⟩
  | .hbm, ⟨3, _⟩ => ⟨S131072, .i32⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x256, .f32⟩
  | .hbm, ⟨13, _⟩ => ⟨S1024x256, .f32⟩
  | .hbm, ⟨14, _⟩ => ⟨S131072x256, .f32⟩
  | .hbm, ⟨15, _⟩ => ⟨S_, .f32⟩
  | .hbm, ⟨16, _⟩ => ⟨S131072, .f32⟩
  | .hbm, ⟨17, _⟩ => ⟨S131072x1, .f32⟩
  | .hbm, ⟨18, _⟩ => ⟨S131072x1, .f32⟩
  | .hbm, ⟨19, _⟩ => ⟨S_, .f32⟩
  | .hbm, ⟨20, _⟩ => ⟨S131072x1, .f32⟩
  | .hbm, ⟨21, _⟩ => ⟨S131072x1, .f32⟩
  | .hbm, ⟨22, _⟩ => ⟨S131072x256, .f32⟩
  | .hbm, ⟨23, _⟩ => ⟨S131072x256, .f32⟩
  | .hbm, ⟨24, _⟩ => ⟨S256x131072, .f32⟩
  | .hbm, ⟨25, _⟩ => ⟨S1024x131072, .f32⟩
  | .hbm, ⟨26, _⟩ => ⟨S_, .f32⟩
  | .hbm, ⟨27, _⟩ => ⟨S1024x131072, .f32⟩
  | .hbm, ⟨28, _⟩ => ⟨S1024x131072, .f32⟩
  | .hbm, ⟨29, _⟩ => ⟨S131072x1024, .f32⟩
  | .hbm, ⟨30, _⟩ => ⟨S_, .f32⟩
  | .hbm, ⟨31, _⟩ => ⟨S8192x1024, .f32⟩
  | .hbm, ⟨32, _⟩ => ⟨S131072x1, .i32⟩
  | .hbm, ⟨33, _⟩ => ⟨S8192x1024, .f32⟩
  | .hbm, ⟨34, _⟩ => ⟨S_, .f32⟩
  | .hbm, ⟨35, _⟩ => ⟨S131072, .f32⟩
  | .hbm, ⟨36, _⟩ => ⟨S_, .f32⟩
  | .hbm, ⟨37, _⟩ => ⟨S8192, .f32⟩
  | .hbm, ⟨38, _⟩ => ⟨S131072x1, .i32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .i1⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S1024x8192, .f32⟩
  | .hbm, ⟨53, _⟩ => ⟨S1024x8192, .f32⟩
  | .hbm, ⟨54, _⟩ => ⟨S1x8192, .f32⟩
  | .hbm, ⟨55, _⟩ => ⟨S1024x8192, .f32⟩
  | .hbm, ⟨56, _⟩ => ⟨S1024x8192, .f32⟩
  | .hbm, ⟨57, _⟩ => ⟨S_, .f32⟩
  | .hbm, ⟨58, _⟩ => ⟨S1024, .f32⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024x8192, .f32⟩
  | .hbm, ⟨64, _⟩ => ⟨S1024x8192, .f32⟩
  | .hbm, ⟨65, _⟩ => ⟨S_, .f32⟩
  | .hbm, ⟨66, _⟩ => ⟨S1024x8192, .f32⟩
  | .hbm, ⟨67, _⟩ => ⟨S1024x8192, .f32⟩
  | .hbm, ⟨68, _⟩ => ⟨S1024x8192, .f32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1024x1, .i32⟩
  | .hbm, ⟨77, _⟩ => ⟨S1024, .i32⟩
  | .hbm, ⟨78, _⟩ => ⟨S1024x1, .i32⟩
  | .hbm, ⟨79, _⟩ => ⟨S_, .i32⟩
  | .hbm, ⟨80, _⟩ => ⟨S1024x1, .i32⟩
  | .hbm, ⟨81, _⟩ => ⟨S1024x1, .i1⟩
  | .hbm, ⟨82, _⟩ => ⟨S_, .i32⟩
  | .hbm, ⟨83, _⟩ => ⟨S1024x1, .i32⟩
  | .hbm, ⟨84, _⟩ => ⟨S1024x1, .i32⟩
  | .hbm, ⟨85, _⟩ => ⟨S1024x1, .i32⟩
  | .hbm, ⟨86, _⟩ => ⟨S1024x1x1, .i32⟩
  | .hbm, ⟨87, _⟩ => ⟨S1, .i32⟩
  | .hbm, ⟨88, _⟩ => ⟨S_, .i32⟩
  | .hbm, ⟨89, _⟩ => ⟨S1024x1x1, .i32⟩
  | .hbm, ⟨90, _⟩ => ⟨S1024x1x1, .i1⟩
  | .hbm, ⟨91, _⟩ => ⟨S1x1x1, .i32⟩
  | .hbm, ⟨92, _⟩ => ⟨S1024x1x1, .i32⟩
  | .hbm, ⟨93, _⟩ => ⟨S1024x1x1, .i1⟩
  | .hbm, ⟨94, _⟩ => ⟨S1024x1x1, .i1⟩
  | .hbm, ⟨95, _⟩ => ⟨S_, .i1⟩
  | .hbm, ⟨96, _⟩ => ⟨S1024x1, .i1⟩
  | .hbm, ⟨97, _⟩ => ⟨S1024x1, .f32⟩
  | .hbm, ⟨98, _⟩ => ⟨S_, .f32⟩
  | .hbm, ⟨99, _⟩ => ⟨S1024x1, .f32⟩
  | .hbm, ⟨100, _⟩ => ⟨S1024x1, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_cst : Ref sig .tc := ⟨.hbm, 98, rfl⟩
abbrev main_call2_v14 : Ref sig .tc := ⟨.hbm, 99, rfl⟩
abbrev main_v54 : Ref sig .tc := ⟨.hbm, 100, rfl⟩
abbrev main_cst_11 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩

abbrev nD : Nat := 1
abbrev τ : Topo := Topo.v7x

variable {F : FTy → Type} [FloatOps F]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  reducesTo_S131072x256_S131072_d1 : S131072x256.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  transposes_S131072x256_S256x131072_1_0 : S131072x256.Transposes [1, 0] S256x131072
  bcast_S_S1024x131072 : S_.BroadcastsInDim S1024x131072 (![] : Fin 0 → Fin S1024x131072.rank)
  transposes_S1024x131072_S131072x1024_1_0 : S1024x131072.Transposes [1, 0] S131072x1024
  bcast_S_S8192x1024 : S_.BroadcastsInDim S8192x1024 (![] : Fin 0 → Fin S8192x1024.rank)
  bcast_S_S131072 : S_.BroadcastsInDim S131072 (![] : Fin 0 → Fin S131072.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  reducesTo_S1024x8192_S1024_d1 : S1024x8192.ReducesTo [1] S1024
  bcast_S1024x1_S1024x8192_0_1 : S1024x1.BroadcastsInDim S1024x8192 (![0, 1] : Fin 2 → Fin S1024x8192.rank)
  bcast_S_S1024x8192 : S_.BroadcastsInDim S1024x8192 (![] : Fin 0 → Fin S1024x8192.rank)
  bcast_S_S1024 : S_.BroadcastsInDim S1024 (![] : Fin 0 → Fin S1024.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  reducesTo_S1024x1_S_d0_1 : S1024x1.ReducesTo [0, 1] S_
  dot_S1024x256_S256x131072_S1024x131072_1_0_0_1_n_n_wf : DotDims.WF S1024x256 S256x131072 S1024x131072 [1] [0] [0] [1] [] []
  scatter_S8192x1024_S131072x1_S131072x1024_1_0_0_1_wf : ScatterDims.WF S8192x1024 S131072x1 S131072x1024 [1] [0] [0] 1
  scatter_S8192_S131072x1_S131072_n_0_0_1_wf : ScatterDims.WF S8192 S131072x1 S131072 [] [0] [0] 1
  gather_S131072_S1024x1_S1024_n_0_n_n_0_1_1_wf : GatherDims.WF S131072 S1024x1 S1024 [] [0] [] [0] [] 1 ![1]
  gather_S1024x8192_S1024x1x1_S1024x1_n_1_0_0_1_2_11_wf : GatherDims.WF S1024x8192 S1024x1x1 S1024x1 [] [1] [0] [1] [0] 2 ![1, 1]

variable [Facts₀]

def dot_S1024x256_S256x131072_S1024x131072_1_0_0_1_n_n : DotDims S1024x256 S256x131072 S1024x131072 where
  lhsContracting := [1]
  rhsContracting := [0]
  lhsNonContracting := [0]
  rhsNonContracting := [1]
  lhsBatch := []
  rhsBatch := []
  wf := dot_S1024x256_S256x131072_S1024x131072_1_0_0_1_n_n_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S131072_S1024x1_S1024_n_0_n_n_0_1_1 : GatherDims S131072 S1024x1 S1024 where
  offsetDims := []
  collapsedSliceDims := [0]
  operandBatchingDims := []
  startIndicesBatchingDims := []
  startIndexMap := [0]
  indexVectorDim := 1
  sliceSizes := ![1]
  wf := gather_S131072_S1024x1_S1024_n_0_n_n_0_1_1_wf
def gather_S1024x8192_S1024x1x1_S1024x1_n_1_0_0_1_2_11 : GatherDims S1024x8192 S1024x1x1 S1024x1 where
  offsetDims := []
  collapsedSliceDims := [1]
  operandBatchingDims := [0]
  startIndicesBatchingDims := [0]
  startIndexMap := [1]
  indexVectorDim := 2
  sliceSizes := ![1, 1]
  wf := gather_S1024x8192_S1024x1x1_S1024x1_n_1_0_0_1_2_11_wf

class Facts : Prop extends Facts₀ where

variable [Facts]
-- ==== Proof.K.Region0.lean ====
import proofs.«414420_j57999238365647_3_alg».proof.Proof.Gen.Kernel.Launch
import proofs.«414420_j57999238365647_3_alg».proof.Proof.Gen.Kernel.Skeleton
import proofs.«414420_j57999238365647_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# Kernel region 0 (the group-sum kernel): the frame half, at any float family

The kernel runs on a grid of 128 points. It keeps a scratch accumulator of 8192 rows between points: at the
first point the accumulator is zeroed whole; at every point each of its eight slabs of 1024 rows is loaded, added
a one-hot product of the point's labels block with the point's normalised features block, and stored back; at the
last point the whole accumulator is copied into the output window, which is written back there and nowhere else.

So the body has three control cases over the grid: the first point (A), the points strictly between (B), the
last point (C). For each case the body's triple is found by running the body symbolically: what each buffer ends
with is a list of stored pieces, found by the run. From the three runs: what the output window's staging buffer and
the accumulator hold after each point (by recursion on the point), the pipeline's proof data over them, the body
obligation at every point, and the two entailments that hand the region's invariant in and take it back.

Everything is stated at a parameter `V`: the TensorCore's buffer contents when the region is entered.
-/

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions, over the grid -/

/-- The condition of the body's first conditional (zero the accumulator), from the grid coordinate: the scalar
    chain the body computes, substituted. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (copy the accumulator out). -/
abbrev cond0_1 (i : grid0.Coords) : Prop := k0_cond2 i = 1#1
/-- It holds at the last point only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

/-- The two input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
/-- Where the second condition fails the output window is idle: nothing is stored into it, -/
theorem idleAt_2 : ∀ t : Fin cfg0.N, ¬cond0_1 (grid0.coords t) → cfg0.idle 2 (grid0.coords t) = true := by decide +kernel
/-- and the pipeline does not write it back there. -/
theorem noFlush_2 : ∀ t : Fin cfg0.N, ¬cond0_1 (grid0.coords t) → (cfg0.win 2).flush t = false := by decide +kernel
/-- Where it holds the output window is live: the body stores into it. -/
theorem liveAt_2 : ∀ t : Fin cfg0.N, cond0_1 (grid0.coords t) → cfg0.idle 2 (grid0.coords t) = false := by decide +kernel

/-! ## The memrefs the body is called with -/

/-- The output window's one staging buffer as a view: its contents are stated through it. -/
abbrev VO : View sig .tc .vmem S8192x256 .f32 := (Memref.whole cc0_stg2_0 : Memref sig .tc .vmem S8192x256 .f32).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x256 .f32 := win0_2.stage (cfg0.slots t 2)
abbrev hs2 (t : Fin cfg0.N) : (ms2 t).IsWhole := hstage0_2 ((cfg0.slots t 2).cast nbuf0_2)
/-- The accumulator: a whole scoped buffer of the kernel's own, passed beside the windows, -/
abbrev scM : Memref sig .tc .vmem S8192x256 .f32 := Memref.whole cc0_scratch0
/-- and as a view, through which what it holds is stated. -/
abbrev VS : View sig .tc .vmem S8192x256 .f32 := scM.view

/-- The region's invariant with the accumulator as a memref owned at some contents, the other scoped buffers
    (those of the second kernel) at some contents each, and the generator register at some state. -/
abbrev restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄)
      = iprop(iprop((∃ d, owns (c : Thread nD τ) scM fullShare d) ∗ restOf (F := F) c) ∗ (∃ r, prngReg c r)) := by
  unfold Pipeline.ΦA; rw [scopedRest0_eq]; simp only [scM, owns_whole]; try rfl

/-! ## The body's three runs -/

set_option maxHeartbeats 4000000 in
/-- CASE A (the first point: the accumulator is zeroed, the output window untouched). On whole memrefs — the two
    input windows' at their contents, the output window's at contents handed back untouched, the accumulator at
    anything — the body runs to the continuation holding the inputs and the output as they were and the
    accumulator with its stored pieces written (`LS`, last first): the pieces are the witness the run finds. -/
noncomputable def kernelRun_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) :
    Σ' (L2 : List (View.Piece (Elt F) S8192x256 .f32)), { LS : List (View.Piece (Elt F) S8192x256 .f32) //
      ∀ (xi2 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨[], ?_, fun xi2 E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- CASE B (a point strictly between the first and the last: neither conditional taken). As case A, the
    accumulator now at the contents `xs` the point before left. -/
noncomputable def kernelRun_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) :
    Σ' (L2 : List (View.Piece (Elt F) S8192x256 .f32)), { LS : List (View.Piece (Elt F) S8192x256 .f32) //
      ∀ (xi2 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨[], ?_, fun xi2 E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- CASE C (the last point: the accumulator, updated, is copied whole into the output window). The output
    window's memref is taken at anything and handed on with its stored pieces written (`L2`). -/
noncomputable def kernelRun_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) :
    Σ' (L2 : List (View.Piece (Elt F) S8192x256 .f32)), { LS : List (View.Piece (Elt F) S8192x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨?_, ?_, fun E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

/-! ## What each case leaves in the output window's buffer and in the accumulator -/

/-- Case A stores nothing into the output window (idle at its point and not written back there): no pieces — a
    placeholder (junk read back) that nothing consults. -/
def out_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) : Vec F S8192x256 .f32 :=
  VO.read (Elt F) (VO.writes (Elt F) VO.junk (kernelRun_A c i arg1 harg1 arg2 harg2 arg3 harg3 arg4 harg4 hc0 hc1 x0 x1).1)

/-- Case A's pieces for the accumulator cover it: the eight slabs of 1024 rows tile it (the zeroing store of the
    whole lies under them). -/
theorem scover_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) (y : S8192x256.Idx) :
    ∃ pc ∈ (kernelRun_A c i arg1 harg1 arg2 harg2 arg3 harg3 arg4 harg4 hc0 hc1 x0 x1).2.1, y ∈ pc.1.set :=
  View.cover_of_tiledL (kernelRun_A c i arg1 harg1 arg2 harg2 arg3 harg3 arg4 harg4 hc0 hc1 x0 x1).2.1 S1024x256.size (by sl_kernel_rfl) y

/-- What case A leaves in the accumulator: its pieces read back over junk. -/
def sout_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) : Vec F S8192x256 .f32 :=
  VS.read (Elt F) (VS.writes (Elt F) VS.junk (kernelRun_A c i arg1 harg1 arg2 harg2 arg3 harg3 arg4 harg4 hc0 hc1 x0 x1).2.1)

/-- Case B stores nothing into the output window either: a placeholder as in case A. -/
def out_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) : Vec F S8192x256 .f32 :=
  VO.read (Elt F) (VO.writes (Elt F) VO.junk (kernelRun_B c i arg1 harg1 arg2 harg2 arg3 harg3 arg4 harg4 hc0 hc1 x0 x1 xs).1)

/-- Case B's pieces for the accumulator cover it: the eight slabs tile it. -/
theorem scover_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) (y : S8192x256.Idx) :
    ∃ pc ∈ (kernelRun_B c i arg1 harg1 arg2 harg2 arg3 harg3 arg4 harg4 hc0 hc1 x0 x1 xs).2.1, y ∈ pc.1.set :=
  View.cover_of_tiledL (kernelRun_B c i arg1 harg1 arg2 harg2 arg3 harg3 arg4 harg4 hc0 hc1 x0 x1 xs).2.1 S1024x256.size (by sl_kernel_rfl) y

/-- What case B leaves in the accumulator: its pieces read back over junk. -/
def sout_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) : Vec F S8192x256 .f32 :=
  VS.read (Elt F) (VS.writes (Elt F) VS.junk (kernelRun_B c i arg1 harg1 arg2 harg2 arg3 harg3 arg4 harg4 hc0 hc1 x0 x1 xs).2.1)

/-- Case C's one piece for the output window is the whole block: it covers it. -/
theorem cover_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) (y : S8192x256.Idx) :
    ∃ pc ∈ (kernelRun_C c i arg1 harg1 arg2 harg2 arg3 harg3 arg4 harg4 hc0 hc1 x0 x1 xs).1, y ∈ pc.1.set :=
  View.cover_of_tiledL (kernelRun_C c i arg1 harg1 arg2 harg2 arg3 harg3 arg4 harg4 hc0 hc1 x0 x1 xs).1 S8192x256.size (by sl_kernel_rfl) y

/-- What case C leaves in the output window's buffer: its piece read back over junk. -/
def out_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) : Vec F S8192x256 .f32 :=
  VO.read (Elt F) (VO.writes (Elt F) VO.junk (kernelRun_C c i arg1 harg1 arg2 harg2 arg3 harg3 arg4 harg4 hc0 hc1 x0 x1 xs).1)

/-- Case C's pieces for the accumulator cover it: the eight slabs tile it. -/
theorem scover_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) (y : S8192x256.Idx) :
    ∃ pc ∈ (kernelRun_C c i arg1 harg1 arg2 harg2 arg3 harg3 arg4 harg4 hc0 hc1 x0 x1 xs).2.1, y ∈ pc.1.set :=
  View.cover_of_tiledL (kernelRun_C c i arg1 harg1 arg2 harg2 arg3 harg3 arg4 harg4 hc0 hc1 x0 x1 xs).2.1 S1024x256.size (by sl_kernel_rfl) y

/-- What case C leaves in the accumulator: its pieces read back over junk. -/
def sout_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) : Vec F S8192x256 .f32 :=
  VS.read (Elt F) (VS.writes (Elt F) VS.junk (kernelRun_C c i arg1 harg1 arg2 harg2 arg3 harg3 arg4 harg4 hc0 hc1 x0 x1 xs).2.1)

/-! ## What the output window's buffer and the accumulator hold after each point -/

/-- THE ACCUMULATION. What the output window's staging buffer and the accumulator hold after the body at position
    `n` (a pair, in that order): the case the closed forms select at `n`, run at the point's memrefs and input
    blocks, the accumulator entering cases B and C at what this leaves at `n - 1`. -/
def outsAt (c : Dev nD) : (n : ℕ) → n < cfg0.N → Vec F S8192x256 .f32 × Vec F S8192x256 .f32
  | 0, hn =>
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0_0 ⟨0, hn⟩).mpr rfl) (fun h => absurd ((hcond0_1 ⟨0, hn⟩).mp h) (by dsimp only; omega)) (iblk V c 0 ⟨0, hn⟩) (iblk V c 1 ⟨0, hn⟩),
     sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0_0 ⟨0, hn⟩).mpr rfl) (fun h => absurd ((hcond0_1 ⟨0, hn⟩).mp h) (by dsimp only; omega)) (iblk V c 0 ⟨0, hn⟩) (iblk V c 1 ⟨0, hn⟩))
  | n + 1, hn =>
    if h1 : n + 1 = 127 then
      (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) ((hcond0_1 ⟨n + 1, hn⟩).mpr h1) (iblk V c 0 ⟨n + 1, hn⟩) (iblk V c 1 ⟨n + 1, hn⟩) (outsAt c n (Nat.lt_of_succ_lt hn)).2,
       sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) ((hcond0_1 ⟨n + 1, hn⟩).mpr h1) (iblk V c 0 ⟨n + 1, hn⟩) (iblk V c 1 ⟨n + 1, hn⟩) (outsAt c n (Nat.lt_of_succ_lt hn)).2)
    else
      (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) (fun h => h1 ((hcond0_1 ⟨n + 1, hn⟩).mp h)) (iblk V c 0 ⟨n + 1, hn⟩) (iblk V c 1 ⟨n + 1, hn⟩) (outsAt c n (Nat.lt_of_succ_lt hn)).2,
       sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) (fun h => h1 ((hcond0_1 ⟨n + 1, hn⟩).mp h)) (iblk V c 0 ⟨n + 1, hn⟩) (iblk V c 1 ⟨n + 1, hn⟩) (outsAt c n (Nat.lt_of_succ_lt hn)).2)

/-- `outsAt` at the first point: case A's contents. -/
theorem outsAt_A (c : Dev nD) (t : Fin cfg0.N) (h0 : t.val = 0) (h1 : ¬t.val = 127) :
    outsAt V c t.val t.isLt =
      (out_A c (grid0.coords t) (ms0 t) (hs0 t) (ms1 t) (hs1 t) (ms2 t) (hs2 t) scM (Memref.isWhole_whole _) ((hcond0_0 t).mpr h0) (fun h => h1 ((hcond0_1 t).mp h)) (iblk V c 0 t) (iblk V c 1 t),
       sout_A c (grid0.coords t) (ms0 t) (hs0 t) (ms1 t) (hs1 t) (ms2 t) (hs2 t) scM (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact absurd h0 (Nat.succ_ne_zero n)

/-- `outsAt` at a point strictly between the first and the last: case B's contents, over what the point before
    left in the accumulator. -/
theorem outsAt_B (c : Dev nD) (t : Fin cfg0.N) (h0 : ¬t.val = 0) (h1 : ¬t.val = 127) :
    outsAt V c t.val t.isLt =
      (out_B c (grid0.coords t) (ms0 t) (hs0 t) (ms1 t) (hs1 t) (ms2 t) (hs2 t) scM (Memref.isWhole_whole _) (fun h => h0 ((hcond0_0 t).mp h)) (fun h => h1 ((hcond0_1 t).mp h)) (iblk V c 0 t) (iblk V c 1 t) (outsAt V c (t.val - 1) (Nat.lt_of_le_of_lt (Nat.sub_le _ _) t.isLt)).2,
       sout_B c (grid0.coords t) (ms0 t) (hs0 t) (ms1 t) (hs1 t) (ms2 t) (hs2 t) scM (Memref.isWhole_whole _) (fun h => h0 ((hcond0_0 t).mp h)) (fun h => h1 ((hcond0_1 t).mp h)) (iblk V c 0 t) (iblk V c 1 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: case C's contents, over what the point before left in the accumulator. -/
theorem outsAt_C (c : Dev nD) (t : Fin cfg0.N) (h0 : ¬t.val = 0) (h1 : t.val = 127) :
    outsAt V c t.val t.isLt =
      (out_C c (grid0.coords t) (ms0 t) (hs0 t) (ms1 t) (hs1 t) (ms2 t) (hs2 t) scM (Memref.isWhole_whole _) (fun h => h0 ((hcond0_0 t).mp h)) ((hcond0_1 t).mpr h1) (iblk V c 0 t) (iblk V c 1 t) (outsAt V c (t.val - 1) (Nat.lt_of_le_of_lt (Nat.sub_le _ _) t.isLt)).2,
       sout_C c (grid0.coords t) (ms0 t) (hs0 t) (ms1 t) (hs1 t) (ms2 t) (hs2 t) scM (Memref.isWhole_whole _) (fun h => h0 ((hcond0_0 t).mp h)) ((hcond0_1 t).mpr h1) (iblk V c 0 t) (iblk V c 1 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant, point by point -/

/-- The invariant before position `n`: before the first point what the launch hands the region (every scoped
    buffer that is no staging buffer at anything, the generator register at some state); afterwards the same
    with the accumulator at what the point before left in it (`outsAt`'s second component). -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restOf (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM fullShare ((outsAt V c n hn).2) ∗ restOf (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM fullShare ((outsAt V c (n - 1) (by omega)).2) ∗ restOf (F := F) c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]

/-- Each input's current staging buffer holds its block at every point, fetched there or not: the body leaves the
    block in place, the window is uncut and never idle. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in,
    so that case's run applies. The invariant hands the body the accumulator at what the point before left (at
    anything at the first point), the other scoped buffers and the generator register untouched, and takes the
    accumulator back at this point's contents (its pieces cover it). Where the output window is idle its buffer
    goes back as it came; at the last point it goes back at the copied accumulator. The core owes nothing
    throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  have hN : t.val < 128 := lt_of_lt_of_eq t.isLt (show cfg0.N = 128 from N_0)
  by_cases h1 : t.val = 127
  · have h0 : ¬t.val = 0 := by omega
    rw [show (dat V c).leavesExact 2 t = owns (c : Thread nD τ) (ms2 t) fullShare ((dat V c).after 2 t) from by
      unfold Dat.leavesExact; rw [liveAt_2 t ((hcond0_1 t).mpr h1)], after_out]
    rw [outsAt_C V c t h0 h1]
    unfold out_C sout_C; (try dsimp only)
    rw [PhiS_castSucc V c t, PhiS_pos V c _ _ h0]
    iintro ⟨⟨⟨HS, Hr⟩, Hg⟩, Ho, ⟨%d0, H0⟩, ⟨%d1, H1⟩, ⟨%d2, H2⟩⟩
    iapply ((kernelRun_C c (grid0.coords t) _ _ _ _ _ _ _ _ (fun h => h0 ((hcond0_0 t).mp h)) ((hcond0_1 t).mpr h1) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover_C c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover_C c _ _ _ _ _ _ _ _ _ _ _ _ _ _)
  · rw [Dat.leavesExact_idle (dat V c) 2 t (idleAt_2 t (fun h => h1 ((hcond0_1 t).mp h))) (noFlush_2 t (fun h => h1 ((hcond0_1 t).mp h)))]
    by_cases h0 : t.val = 0
    · rw [outsAt_A V c t h0 h1]
      unfold sout_A; (try dsimp only)
      rw [PhiS_castSucc V c t, PhiS_zero V c _ _ h0, PhiA_eq]
      iintro ⟨⟨⟨HS, Hr⟩, Hg⟩, Ho, ⟨%d0, H0⟩, ⟨%d1, H1⟩, ⟨%d2, H2⟩⟩
      iapply ((kernelRun_A c (grid0.coords t) _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover_A c _ _ _ _ _ _ _ _ _ _ _ _ _)
          iexact Hr
        iexact Hg
      isplitl [Ho]; · iexact Ho
      isplitl [H0]; · iexact H0
      isplitl [H1]; · iexact H1
      iexists _; iexact H2
    · rw [outsAt_B V c t h0 h1]
      unfold sout_B; (try dsimp only)
      rw [PhiS_castSucc V c t, PhiS_pos V c _ _ h0]
      iintro ⟨⟨⟨HS, Hr⟩, Hg⟩, Ho, ⟨%d0, H0⟩, ⟨%d1, H1⟩, ⟨%d2, H2⟩⟩
      iapply ((kernelRun_B c (grid0.coords t) _ _ _ _ _ _ _ _ (fun h => h0 ((hcond0_0 t).mp h)) (fun h => h1 ((hcond0_1 t).mp h)) (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- What the launch hands the region — the generator register at some state beside the scoped buffers that are no
    staging buffer, at anything — is the invariant before the first point. -/
theorem hin (c : Dev nD) : (iprop((∃ r, prngReg c r) ∗ Pipeline.scopedRest spec0 c) : sProp 𝕄) ⊢ (dat V c).Φ 0 := by
  rw [show (dat V c).Φ 0 = PhiS V c 0 (Nat.zero_le _) from rfl, PhiS_zero V c 0 _ rfl]
  unfold Pipeline.ΦA
  iintro ⟨Hg, Hs⟩
  isplitl [Hs]; · iexact Hs
  iexact Hg

/-- After any point but the first the invariant gives that back: the accumulator's named contents are forgotten. -/
theorem Phi_out (c : Dev nD) (t : Fin (cfg0.N + 1)) (ht : t.val ≠ 0) :
    (dat V c).Φ t ⊢ (iprop((∃ r, prngReg c r) ∗ Pipeline.scopedRest spec0 c) : sProp 𝕄) := by
  have h : (dat V c).Φ t ⊢ (Pipeline.ΦA spec0 c : sProp 𝕄) := by
    rw [show (dat V c).Φ t = PhiS V c t.val (Nat.le_of_lt_succ t.isLt) from rfl, PhiS_pos V c _ _ ht, PhiA_eq]
    iintro ⟨⟨HS, Hr⟩, Hg⟩
    isplitl [HS Hr]
    · isplitl [HS]; · iexists _; iexact HS
      iexact Hr
    iexact Hg
  refine h.trans ?_
  unfold Pipeline.ΦA
  iintro ⟨Hs, Hg⟩
  isplitl [Hg]; · iexact Hg
  iexact Hs

/-- The same after the last point. -/
theorem hout (c : Dev nD) : (dat V c).Φ (Fin.last cfg0.N) ⊢ (iprop((∃ r, prngReg c r) ∗ Pipeline.scopedRest spec0 c) : sProp 𝕄) :=
  Phi_out V c _ (by rw [Fin.val_last]; have : cfg0.N = 128 := N_0; omega)

end Cert.Kernel.Region0

end
-- ==== Proof.K.Region1.lean ====
/-
  Kernel region 1 (the final-loss kernel over a grid of 8 points), its frame half, at any float family and
  at a parameter `V`: the TensorCore's buffer contents when the region is entered.

  This file: the blocks the windows read, the two conditionals of the body decided over the grid, where the
  output window is idle, the memrefs the body is called with, and the region invariant spelt over the
  carried 1x1 accumulator.
-/
import proofs.«414420_j57999238365647_3_alg».proof.Proof.Gen.Kernel.Launch
import proofs.«414420_j57999238365647_3_alg».proof.Proof.Gen.Kernel.Skeleton
import proofs.«414420_j57999238365647_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Region

/-! ## The two conditionals, over the grid -/

/-- The first conditional (zero the accumulator): the point's coordinate is 0. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (scale the accumulator into the output): the point's coordinate is 7. -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the body stores nothing into the output window: it is idle there, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the last point the output window is live. -/
theorem liveAt1_5 : ∀ t : Fin cfg1.N, cond1_1 (grid1.coords t) → cfg1.idle 5 (grid1.coords t) = false := by decide +kernel

/-! ## The memrefs the body is called with -/

/-- The output window's one staging buffer, as a view: its contents are stated through it. -/
abbrev VO1_5 : View sig .tc .vmem S1x1 .f32 := (Memref.whole cc1_stg5_0 : Memref sig .tc .vmem S1x1 .f32).view
/-- Each window's current staging memref at point `t`, and its wholeness. -/
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
/-- The accumulator: a whole scoped 1x1 buffer of the kernel's own, passed beside the windows. -/
abbrev scM1_0 : Memref sig .tc .vmem S1x1 .f32 := Memref.whole cc1_scratch0
/-- The same as a view. -/
abbrev VS1_0 : View sig .tc .vmem S1x1 .f32 := scM1_0.view

/-! ## The region invariant, spelt out -/

/-- The scoped buffers that are neither a staging buffer of this region nor its accumulator (the other region's
    staging buffers and its accumulator), each at some contents: carried through the region untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f))

/-- The scoped rest of this region is those six buffers and the accumulator. -/
theorem scopedRest1_split (c : Dev nD) :
    (Pipeline.scopedRest (Ix := Unit) (Name := ℕ) (U := UR sig nD τ) (Lvl := ℕ) (Val := Elt F) spec1 c : sProp 𝕄)
      = iprop(others (F := F) c ∗ (∃ d, owns (c : Thread nD τ) scM1_0 fullShare d)) := by
  rw [scopedRest1_eq]; unfold others; simp only [scM1_0, owns_whole]
  refine Idealize.SL.BI.Entails.antisymm ?_ ?_
  · show (_ : sProp 𝕄) ⊢ _
    iintro ⟨H0, H1, H2, H3, H4, H5, H6⟩
    isplitr [H6]
    · isplitl [H0]; · iexact H0
      isplitl [H1]; · iexact H1
      isplitl [H2]; · iexact H2
      isplitl [H3]; · iexact H3
      isplitl [H4]; · iexact H4
      iexact H5
    · iexact H6
  · show (_ : sProp 𝕄) ⊢ _
    iintro ⟨⟨H0, H1, H2, H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- The class's invariant with the accumulator as a memref owned at some contents: what the body obligation hands
    the run at the first point. -/
theorem PhiA1_eq (c : Dev nD) :
    (Pipeline.ΦA spec1 c : sProp 𝕄)
      = iprop((others (F := F) c ∗ (∃ d, owns (c : Thread nD τ) scM1_0 fullShare d)) ∗ (∃ r, prngReg c r)) := by
  unfold Pipeline.ΦA; rw [scopedRest1_split (F := F) c]

set_option maxHeartbeats 4000000 in
/-- CASE A (the first point: the first conditional taken, the second not). On whole memrefs — the five inputs at
    their contents, the output window at contents `xi5` it hands back untouched, the accumulator at anything — the
    body runs to the continuation holding the inputs and the output window as they were and the accumulator with
    the pieces `LS0` written: the zero store, then the update. The pieces are found by running the body. -/
noncomputable def kernelRun_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨[], ?_, fun xi5 E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- CASE B (points 1 to 6: neither conditional taken). As case A, but the accumulator is handed over at the
    contents `xs0` the point before left, which the update reads. -/
noncomputable def kernelRun_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨[], ?_, fun xi5 E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- CASE C (the last point: the second conditional taken). The accumulator is handed over at the contents `xs0`
    the point before left; the output window at anything. The body runs to the continuation holding the inputs
    as they were, the output window with the pieces `L5` written (the scaled accumulator) and the accumulator with
    the pieces `LS0` written (the update). -/
noncomputable def kernelRun_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨?_, ?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves in the output window and in the accumulator -/

/-- Case A stores nothing into the output window (idle at the first point and not written back there): no pieces; a
    placeholder nothing consults. -/
def out_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) : Vec F S1x1 .f32 :=
  VO1_5.read (Elt F) (VO1_5.writes (Elt F) VO1_5.junk (kernelRun_A c i arg1 harg1 arg2 harg2 arg3 harg3 arg4 harg4 arg5 harg5 arg6 harg6 arg7 harg7 hc0 hc1 x0 x1 x2 x3 x4).1)

/-- Case A's pieces for the accumulator (the zero store, the update) cover the 1x1 buffer. -/
theorem scover_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) (y : S1x1.Idx) :
    ∃ pc ∈ (kernelRun_A c i arg1 harg1 arg2 harg2 arg3 harg3 arg4 harg4 arg5 harg5 arg6 harg6 arg7 harg7 hc0 hc1 x0 x1 x2 x3 x4).2.1, y ∈ pc.1.set :=
  View.cover_of_tiledL (kernelRun_A c i arg1 harg1 arg2 harg2 arg3 harg3 arg4 harg4 arg5 harg5 arg6 harg6 arg7 harg7 hc0 hc1 x0 x1 x2 x3 x4).2.1 S1x1.size (by sl_kernel_rfl) y

/-- What case A leaves in the accumulator: its pieces read back. -/
def sout_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) : Vec F S1x1 .f32 :=
  VS1_0.read (Elt F) (VS1_0.writes (Elt F) VS1_0.junk (kernelRun_A c i arg1 harg1 arg2 harg2 arg3 harg3 arg4 harg4 arg5 harg5 arg6 harg6 arg7 harg7 hc0 hc1 x0 x1 x2 x3 x4).2.1)

/-- Case B stores nothing into the output window either. -/
def out_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VO1_5.read (Elt F) (VO1_5.writes (Elt F) VO1_5.junk (kernelRun_B c i arg1 harg1 arg2 harg2 arg3 harg3 arg4 harg4 arg5 harg5 arg6 harg6 arg7 harg7 hc0 hc1 x0 x1 x2 x3 x4 xs0).1)

/-- Case B's piece for the accumulator (the update) covers it. -/
theorem scover_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_B c i arg1 harg1 arg2 harg2 arg3 harg3 arg4 harg4 arg5 harg5 arg6 harg6 arg7 harg7 hc0 hc1 x0 x1 x2 x3 x4 xs0).2.1, y ∈ pc.1.set :=
  View.cover_of_tiledL (kernelRun_B c i arg1 harg1 arg2 harg2 arg3 harg3 arg4 harg4 arg5 harg5 arg6 harg6 arg7 harg7 hc0 hc1 x0 x1 x2 x3 x4 xs0).2.1 S1x1.size (by sl_kernel_rfl) y

/-- What case B leaves in the accumulator. -/
def sout_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VS1_0.read (Elt F) (VS1_0.writes (Elt F) VS1_0.junk (kernelRun_B c i arg1 harg1 arg2 harg2 arg3 harg3 arg4 harg4 arg5 harg5 arg6 harg6 arg7 harg7 hc0 hc1 x0 x1 x2 x3 x4 xs0).2.1)

/-- Case C's piece for the output window (the scaled accumulator) covers its 1x1 block. -/
theorem cover_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_C c i arg1 harg1 arg2 harg2 arg3 harg3 arg4 harg4 arg5 harg5 arg6 harg6 arg7 harg7 hc0 hc1 x0 x1 x2 x3 x4 xs0).1, y ∈ pc.1.set :=
  View.cover_of_tiledL (kernelRun_C c i arg1 harg1 arg2 harg2 arg3 harg3 arg4 harg4 arg5 harg5 arg6 harg6 arg7 harg7 hc0 hc1 x0 x1 x2 x3 x4 xs0).1 S1x1.size (by sl_kernel_rfl) y

/-- What case C leaves in the output window's staging buffer. -/
def out_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VO1_5.read (Elt F) (VO1_5.writes (Elt F) VO1_5.junk (kernelRun_C c i arg1 harg1 arg2 harg2 arg3 harg3 arg4 harg4 arg5 harg5 arg6 harg6 arg7 harg7 hc0 hc1 x0 x1 x2 x3 x4 xs0).1)

/-- Case C's piece for the accumulator (the update) covers it. -/
theorem scover_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_C c i arg1 harg1 arg2 harg2 arg3 harg3 arg4 harg4 arg5 harg5 arg6 harg6 arg7 harg7 hc0 hc1 x0 x1 x2 x3 x4 xs0).2.1, y ∈ pc.1.set :=
  View.cover_of_tiledL (kernelRun_C c i arg1 harg1 arg2 harg2 arg3 harg3 arg4 harg4 arg5 harg5 arg6 harg6 arg7 harg7 hc0 hc1 x0 x1 x2 x3 x4 xs0).2.1 S1x1.size (by sl_kernel_rfl) y

/-- What case C leaves in the accumulator. -/
def sout_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VS1_0.read (Elt F) (VS1_0.writes (Elt F) VS1_0.junk (kernelRun_C c i arg1 harg1 arg2 harg2 arg3 harg3 arg4 harg4 arg5 harg5 arg6 harg6 arg7 harg7 hc0 hc1 x0 x1 x2 x3 x4 xs0).2.1)

/-! ## The conditionals at a point, from its position -/

theorem cond1_0_of (t : Fin cfg1.N) (h : t.val = 0) : cond1_0 (grid1.coords t) := (hcond1_0 t).mpr h
theorem not_cond1_0_of (t : Fin cfg1.N) (h : ¬t.val = 0) : ¬cond1_0 (grid1.coords t) := fun h' => h ((hcond1_0 t).mp h')
theorem cond1_1_of (t : Fin cfg1.N) (h : t.val = 7) : cond1_1 (grid1.coords t) := (hcond1_1 t).mpr h
theorem not_cond1_1_of (t : Fin cfg1.N) (h : ¬t.val = 7) : ¬cond1_1 (grid1.coords t) := fun h' => h ((hcond1_1 t).mp h')

section Region
variable (V : (c : Dev nD) → (b : Ref sig .tc) → Buf (Elt F) ((c : Thread nD τ).loc b))

/-! ## What the output window and the accumulator hold after each point -/

/-- THE ACCUMULATION. What the output window's staging buffer and the accumulator hold after the body at position
    `n`: case A at the first point; afterwards case C at position 7 and case B elsewhere, each over what the point
    before left in the accumulator; the cases run at the point's memrefs and input blocks. -/
def outsAt (c : Dev nD) : (n : ℕ) → n < cfg1.N → Vec F S1x1 .f32 × Vec F S1x1 .f32
  | 0, hn => (out_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_of ⟨0, hn⟩ rfl) (not_cond1_1_of ⟨0, hn⟩ (show ¬((0 : ℕ) = 7) by decide)) (iblk V c 0 ⟨0, hn⟩) (iblk V c 1 ⟨0, hn⟩) (iblk V c 2 ⟨0, hn⟩) (iblk V c 3 ⟨0, hn⟩) (iblk V c 4 ⟨0, hn⟩), sout_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_of ⟨0, hn⟩ rfl) (not_cond1_1_of ⟨0, hn⟩ (show ¬((0 : ℕ) = 7) by decide)) (iblk V c 0 ⟨0, hn⟩) (iblk V c 1 ⟨0, hn⟩) (iblk V c 2 ⟨0, hn⟩) (iblk V c 3 ⟨0, hn⟩) (iblk V c 4 ⟨0, hn⟩))
  | n + 1, hn =>
    if h1 : n + 1 = 7 then
      (out_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
    else
      (out_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (not_cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (not_cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at the first point: case A's contents. -/
theorem outsAt_A (c : Dev nD) (t : Fin cfg1.N) (h0 : t.val = 0) (h1 : ¬t.val = 7) :
    outsAt V c t.val t.isLt = (out_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (cond1_0_of t h0) (not_cond1_1_of t h1) (iblk V c 0 t) (iblk V c 1 t) (iblk V c 2 t) (iblk V c 3 t) (iblk V c 4 t), sout_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (cond1_0_of t h0) (not_cond1_1_of t h1) (iblk V c 0 t) (iblk V c 1 t) (iblk V c 2 t) (iblk V c 3 t) (iblk V c 4 t)) := by
  obtain ⟨n, hn⟩ := t
  cases n with
  | zero => exact rfl
  | succ n => exact absurd h0 (Nat.succ_ne_zero n)

/-- `outsAt` at a point of case B: that case's contents, over what the point before left. -/
theorem outsAt_B (c : Dev nD) (t : Fin cfg1.N) (h0 : ¬t.val = 0) (h1 : ¬t.val = 7) :
    outsAt V c t.val t.isLt = (out_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (not_cond1_1_of t h1) (iblk V c 0 t) (iblk V c 1 t) (iblk V c 2 t) (iblk V c 3 t) (iblk V c 4 t) (outsAt V c (t.val - 1) (Nat.lt_of_le_of_lt (Nat.sub_le _ _) t.isLt)).2, sout_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (not_cond1_1_of t h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: case C's contents, over what the point before left. -/
theorem outsAt_C (c : Dev nD) (t : Fin cfg1.N) (h0 : ¬t.val = 0) (h1 : t.val = 7) :
    outsAt V c t.val t.isLt = (out_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (cond1_1_of t h1) (iblk V c 0 t) (iblk V c 1 t) (iblk V c 2 t) (iblk V c 3 t) (iblk V c 4 t) (outsAt V c (t.val - 1) (Nat.lt_of_le_of_lt (Nat.sub_le _ _) t.isLt)).2, sout_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (cond1_1_of t h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The region invariant before position `n`: before the first point every scoped buffer that is no staging buffer
    at anything and the generator register at some state; afterwards the accumulator at what the point before
    left in it, the other region's scoped buffers at anything, the generator register at some state. -/
def PhiS (c : Dev nD) : (n : ℕ) → n ≤ cfg1.N → sProp 𝕄
  | 0, _ => Pipeline.ΦA spec1 c
  | n + 1, hn => iprop((others (F := F) c ∗ owns (c : Thread nD τ) scM1_0 fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others (F := F) c ∗ owns (c : Thread nD τ) scM1_0 fullShare ((outsAt V c n hn).2)) ∗ (∃ r, prngReg c r)) := rfl

theorem PhiS_pos (c : Dev nD) (n : ℕ) (h : n ≤ cfg1.N) (hz : n ≠ 0) :
    PhiS V c n h = iprop((others (F := F) c ∗ owns (c : Thread nD τ) scM1_0 fullShare ((outsAt V c (n - 1) (by omega)).2)) ∗ (∃ r, prngReg c r)) := by
  cases n with
  | zero => exact absurd rfl hz
  | succ n => rfl

/-! ## The pipeline's proof data -/

/-- The proof data of this region's pipeline on core `c`: the arrays as the region finds them; after the body at
    point `t` each input's buffer at its block and the output's at `outsAt`'s first component; the invariant
    `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

/-- Each input window's current staging buffer holds its block at every point, fetched there or not: where it
    is not fetched the block index has not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the point's position says which case it is in;
    the invariant hands the body the accumulator (at anything at the first point, at what the point before left
    afterwards) and takes it back at this point's contents, the pieces the case wrote covering it; off the last
    point the output window is handed back untouched, at the last point its piece covers it; the core owes
    nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  by_cases h0 : t.val = 0
  · have h1 : ¬t.val = 7 := by omega
    rw [Dat.leavesExact_idle (dat V c) 5 t (idleAt1_5 t (not_cond1_1_of t h1)) (noFlush1_5 t (not_cond1_1_of t h1))]
    rw [outsAt_A V c t h0 h1]
    unfold sout_A; (try dsimp only)
    rw [PhiS_castSucc V c t, PhiS_zero V c _ _ h0, PhiA1_eq]
    iintro ⟨⟨⟨Hoth, HS0⟩, Hg⟩, Ho, ⟨%d0, H0⟩, ⟨%d1, H1⟩, ⟨%d2, H2⟩, ⟨%d3, H3⟩, ⟨%d4, H4⟩, ⟨%d5, H5⟩⟩
    iapply ((kernelRun_A c (grid1.coords t) _ _ _ _ _ _ _ _ _ _ _ _ _ _ (cond1_0_of t h0) (not_cond1_1_of t h1) (iblk V c 0 t) (iblk V c 1 t) (iblk V c 2 t) (iblk V c 3 t) (iblk V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [Hoth HS0 Hg]
    · isplitl [Hoth HS0]
      · isplitl [Hoth]; · iexact Hoth
        unfold owns; iexists _; isplitr
        swap; · iexact HS0
        ipureintro; exact View.read_writes_of_cover _ _ _ _ _ (scover_A c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 7
    · rw [show (dat V c).leavesExact 5 t = owns (c : Thread nD τ) (ms1_5 t) fullShare ((dat V c).after 5 t) from by
        unfold Dat.leavesExact; rw [liveAt1_5 t (cond1_1_of t h1)], after_out]
      rw [outsAt_C V c t h0 h1]
      unfold out_C sout_C; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (not_cond1_0_of t h0) (cond1_1_of t h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt1_5 t (not_cond1_1_of t h1)) (noFlush1_5 t (not_cond1_1_of t h1))]
      rw [outsAt_B V c t h0 h1]
      unfold sout_B; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (not_cond1_0_of t h0) (not_cond1_1_of t h1) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (iprop((∃ r, prngReg c r) ∗ Pipeline.scopedRest spec1 c) : sProp 𝕄) ⊢ (dat V c).Φ 0 := by
  rw [show (dat V c).Φ 0 = PhiS V c 0 (Nat.zero_le _) from rfl, PhiS_zero V c 0 _ rfl]
  unfold Pipeline.ΦA
  iintro ⟨Hg, Hr⟩
  isplitl [Hr]; · iexact Hr
  iexact Hg

/-- After the last point the invariant gives the scoped rest and the generator register back: the accumulator's
    named contents are forgotten. -/
theorem hout (c : Dev nD) : (dat V c).Φ (Fin.last cfg1.N) ⊢ (iprop((∃ r, prngReg c r) ∗ Pipeline.scopedRest spec1 c) : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 8 := N_1; omega)]
  rw [scopedRest1_split (F := F) c]
  iintro ⟨⟨Hoth, HS0⟩, Hg⟩
  isplitl [Hg]; · iexact Hg
  isplitl [Hoth]; · iexact Hoth
  iexists _; iexact HS0

end Region

end Cert.Kernel.Region1

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.K.Launch.lean ====
/-
  The launch of the word-level kernel program: @main as five segments — the labels reshaped, the first kernel region,
  the counts / mask / denominators / targets on the host, the second kernel region, the result reshaped — run in order
  from the launch memory. Between two segments the core holds every unscoped buffer whole; the contents are a fold
  through @main: a host stretch applies its operations; a region leaves each of its windows' arrays at what its
  write-backs make of it (the inputs as entered) and every other buffer as entered. The run ends with every unscoped
  buffer at the last fold, from which the arguments are read back as launched and the result as the second region's
  output reshaped.
-/
import proofs.«414420_j57999238365647_3_alg».proof.Proof.K.Region0
import proofs.«414420_j57999238365647_3_alg».proof.Proof.K.Region1
import proofs.«414420_j57999238365647_3_alg».proof.Proof.Gen.Kernel.Regions
import proofs.«414420_j57999238365647_3_alg».proof.Proof.LibRegion
import Idealize.ShloMosaic.Lib.Pipeline.RegionsLoop
import Idealize.ShloMosaic.Lib.Pipeline.FrameSuffix

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the labels are reshaped (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (Region0.dat (V1 m) c).arrAt w cfg0.N
theorem W2_arr (c : Dev nD) (w : Fin cfg0.W) :
    W2 m c (Proc.devRef .tc (Pipeline.arrRef spec0 w)) = (Region0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the host stretch between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Region1.dat (V3 m) c).arrAt w cfg1.N
theorem W4_arr (c : Dev nD) (w : Fin cfg1.W) :
    W4 m c (Proc.devRef .tc (Pipeline.arrRef spec1 w)) = (Region1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the result is reshaped: the end of @main. -/
abbrev W5 : Dev nD → Valuation τ sig (Elt F) := fun c => StableHlo.after hostOps2 (W4 m c)

/-! ## What each segment leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- The inputs reach the end as launched: the batch is the second region's first window (an input: its array is
    never written), no array of the first region, and no host stretch writes it. -/
theorem W5_main_arg0 (c : Dev nD) : W5 m c main_arg0 = m ((c : Thread nD τ).loc main_arg0) :=
  (W5_of m c main_arg0 (by decide)).trans <|
    ((W4_arr m c 0).trans (((Region1.dat (V3 m) c).arrAt_in 0 rfl _).trans (Region1.A_eq (V3 m) c 0))).trans <|
    (W3_of m c main_arg0 (by decide)).trans <| (W2_of_ne m c main_arg0 (by decide)).trans <| (W1_of m c main_arg0 (by decide)).trans rfl
/-- The bank is the first region's first window (an input), no array of the second region. -/
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    ((W2_arr m c 0).trans (((Region0.dat (V1 m) c).arrAt_in 0 rfl _).trans (Region0.A_eq (V1 m) c 0))).trans <|
    (W1_of m c main_arg1 (by decide)).trans rfl
/-- The indexes and the labels are no region's array. -/
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl

/-! ## The proof data family and the regions as segments -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (V1 m) c
  | ⟨1, _⟩ => fun c => Region1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := Cert.LibRegion.R (U := UR sig nD τ) (Val := Elt F) c
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The first region: entered from every unscoped buffer at `W1`, left at `W2`. -/
def reg0 : Pipeline.RegionSeg (pcfgs (F := F)) adm (pdats m) () defs₀ 𝒱₀ L lv 0 :=
  Cert.LibRegion.regionSegHeld (pcfgs (F := F)) adm (pdats m) defs₀ 𝒱₀ L lv 0 launch0.win.to₀ launch0.block_pos launch0.stage_whole rfl
    (fun c => (Region0.body_obligation (V1 m) c).loose) (fun c => Region0.hin (V1 m) c) (fun c => Region0.hout (V1 m) c)
    (fun _ _ => rfl) (fun _ => rfl) (W1 m) (W2 m)
    (fun c => Cert.LibRegion.arrBufs_split_distinct cfg0 c (pdats m 0 c) launch0.win.arr_inj launch0.arr_whole
      ((pdats m 0 c).share_full fun _ => rfl) (fun b => W1 m c b) _ (fun w => Region0.A_eq (V1 m) c w))
    (fun c => Cert.LibRegion.arrBufs_join_distinct cfg0 c (pdats m 0 c) launch0.win.arr_inj launch0.arr_whole
      ((pdats m 0 c).share_full fun _ => rfl) (fun b => W2 m c b) _ (fun w => (W2_arr m c w).symm))
    (fun c b hb => W2_of_ne m c b fun w e => hb (Finset.mem_image.mpr ⟨w, Finset.mem_univ _, e⟩))

set_option backward.isDefEq.respectTransparency.types false in
/-- The second region: entered from every unscoped buffer at `W3`, left at `W4`. -/
def reg1 : Pipeline.RegionSeg (pcfgs (F := F)) adm (pdats m) () defs₀ 𝒱₀ L lv 1 :=
  Cert.LibRegion.regionSegHeld (pcfgs (F := F)) adm (pdats m) defs₀ 𝒱₀ L lv 1 launch1.win.to₀ launch1.block_pos launch1.stage_whole rfl
    (fun c => (Region1.body_obligation (V3 m) c).loose) (fun c => Region1.hin (V3 m) c) (fun c => Region1.hout (V3 m) c)
    (fun _ _ => rfl) (fun _ => rfl) (W3 m) (W4 m)
    (fun c => Cert.LibRegion.arrBufs_split_distinct cfg1 c (pdats m 1 c) launch1.win.arr_inj launch1.arr_whole
      ((pdats m 1 c).share_full fun _ => rfl) (fun b => W3 m c b) _ (fun w => Region1.A_eq (V3 m) c w))
    (fun c => Cert.LibRegion.arrBufs_join_distinct cfg1 c (pdats m 1 c) launch1.win.arr_inj launch1.arr_whole
      ((pdats m 1 c).share_full fun _ => rfl) (fun b => W4 m c b) _ (fun w => (W4_arr m c w).symm))
    (fun c b hb => W4_of_ne m c b fun w e => hb (Finset.mem_image.mpr ⟨w, Finset.mem_univ _, e⟩))

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters every weakly fair execution of @main terminates, nothing faulting, and
    every final state holds each unscoped buffer at the last fold `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c)
          ∗ ((∃ r, prngReg c r) ∗ ∃ W, owes (c : Thread nD τ) (0 : CellTallies nD τ sig Unit) W)) : sProp 𝕄)
        ⊢ iprop((StableHlo.held (c : Thread nD τ) (Pipeline.ucRefs τ sig) (W5 m c) ∗ ∃ r, prngReg c r)
          ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

/-- The run with the result named: the result buffer ends at the last fold's contents, the arguments as launched. -/
theorem run_result : θ_run defs (onTc (τ := τ) (main (F := F))) ⟨m, fun _ => 0, ρ⟩ (fun r => ∀ c : Dev nD,
      r.2.mem ((c.tc : Thread nD τ).loc main_v26) = W5 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v26 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.Kernel.Launch

end
-- ==== Proof.KI.Region0.lean ====
import proofs.«414420_j57999238365647_3_alg».proof.Proof.Gen.KernelIdeal.Launch
import proofs.«414420_j57999238365647_3_alg».proof.Proof.Gen.KernelIdeal.Skeleton
import proofs.«414420_j57999238365647_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# Kernel region 0 (the group-sum kernel): the frame half, at any float family

The kernel runs on a grid of 128 points. It keeps a scratch accumulator of 8192 rows between points: at the
first point the accumulator is zeroed whole; at every point each of its eight slabs of 1024 rows is loaded, added
a one-hot product of the point's labels block with the point's normalised features block, and stored back; at the
last point the whole accumulator is copied into the output window, which is written back there and nowhere else.

So the body has three control cases over the grid: the first point (A), the points strictly between (B), the
last point (C). For each case the body's triple is found by running the body symbolically: what each buffer ends
with is a list of stored pieces, found by the run. From the three runs: what the output window's staging buffer and
the accumulator hold after each point (by recursion on the point), the pipeline's proof data over them, the body
obligation at every point, and the two entailments that hand the region's invariant in and take it back.

Everything is stated at a parameter `V`: the TensorCore's buffer contents when the region is entered.
-/

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions, over the grid -/

/-- The condition of the body's first conditional (zero the accumulator), from the grid coordinate: the scalar
    chain the body computes, substituted. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (copy the accumulator out). -/
abbrev cond0_1 (i : grid0.Coords) : Prop := k0_cond2 i = 1#1
/-- It holds at the last point only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

/-- The two input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
/-- Where the second condition fails the output window is idle: nothing is stored into it, -/
theorem idleAt_2 : ∀ t : Fin cfg0.N, ¬cond0_1 (grid0.coords t) → cfg0.idle 2 (grid0.coords t) = true := by decide +kernel
/-- and the pipeline does not write it back there. -/
theorem noFlush_2 : ∀ t : Fin cfg0.N, ¬cond0_1 (grid0.coords t) → (cfg0.win 2).flush t = false := by decide +kernel
/-- Where it holds the output window is live: the body stores into it. -/
theorem liveAt_2 : ∀ t : Fin cfg0.N, cond0_1 (grid0.coords t) → cfg0.idle 2 (grid0.coords t) = false := by decide +kernel

/-! ## The memrefs the body is called with -/

/-- The output window's one staging buffer as a view: its contents are stated through it. -/
abbrev VO : View sig .tc .vmem S8192x256 .f32 := (Memref.whole cc0_stg2_0 : Memref sig .tc .vmem S8192x256 .f32).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x256 .f32 := win0_2.stage (cfg0.slots t 2)
abbrev hs2 (t : Fin cfg0.N) : (ms2 t).IsWhole := hstage0_2 ((cfg0.slots t 2).cast nbuf0_2)
/-- The accumulator: a whole scoped buffer of the kernel's own, passed beside the windows, -/
abbrev scM : Memref sig .tc .vmem S8192x256 .f32 := Memref.whole cc0_scratch0
/-- and as a view, through which what it holds is stated. -/
abbrev VS : View sig .tc .vmem S8192x256 .f32 := scM.view

/-- The region's invariant with the accumulator as a memref owned at some contents, the other scoped buffers
    (those of the second kernel) at some contents each, and the generator register at some state. -/
abbrev restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄)
      = iprop(iprop((∃ d, owns (c : Thread nD τ) scM fullShare d) ∗ restOf (F := F) c) ∗ (∃ r, prngReg c r)) := by
  unfold Pipeline.ΦA; rw [scopedRest0_eq]; simp only [scM, owns_whole]; try rfl

/-! ## The body's three runs -/

set_option maxHeartbeats 4000000 in
/-- CASE A (the first point: the accumulator is zeroed, the output window untouched). On whole memrefs — the two
    input windows' at their contents, the output window's at contents handed back untouched, the accumulator at
    anything — the body runs to the continuation holding the inputs and the output as they were and the
    accumulator with its stored pieces written (`LS`, last first): the pieces are the witness the run finds. -/
noncomputable def kernelRun_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) :
    Σ' (L2 : List (View.Piece (Elt F) S8192x256 .f32)), { LS : List (View.Piece (Elt F) S8192x256 .f32) //
      ∀ (xi2 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨[], ?_, fun xi2 E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- CASE B (a point strictly between the first and the last: neither conditional taken). As case A, the
    accumulator now at the contents `xs` the point before left. -/
noncomputable def kernelRun_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) :
    Σ' (L2 : List (View.Piece (Elt F) S8192x256 .f32)), { LS : List (View.Piece (Elt F) S8192x256 .f32) //
      ∀ (xi2 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨[], ?_, fun xi2 E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- CASE C (the last point: the accumulator, updated, is copied whole into the output window). The output
    window's memref is taken at anything and handed on with its stored pieces written (`L2`). -/
noncomputable def kernelRun_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) :
    Σ' (L2 : List (View.Piece (Elt F) S8192x256 .f32)), { LS : List (View.Piece (Elt F) S8192x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__normsum_kernel i arg1 harg1 arg2 harg2 arg3 harg3 arg4 harg4) K } := by
  refine ⟨?_, ?_, fun E K => ?run⟩
  case run =>
    simp only [cc0__normsum_kernel_eq_skeleton]; unfold cc0__normsum_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

/-! ## What each case leaves in the output window's buffer and in the accumulator -/

/-- Case A stores nothing into the output window (idle at its point and not written back there): no pieces — a
    placeholder (junk read back) that nothing consults. -/
def out_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) : Vec F S8192x256 .f32 :=
  VO.read (Elt F) (VO.writes (Elt F) VO.junk (kernelRun_A c i arg1 harg1 arg2 harg2 arg3 harg3 arg4 harg4 hc0 hc1 x0 x1).1)

/-- Case A's pieces for the accumulator cover it: the eight slabs of 1024 rows tile it (the zeroing store of the
    whole lies under them). -/
theorem scover_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) (y : S8192x256.Idx) :
    ∃ pc ∈ (kernelRun_A c i arg1 harg1 arg2 harg2 arg3 harg3 arg4 harg4 hc0 hc1 x0 x1).2.1, y ∈ pc.1.set :=
  View.cover_of_tiledL (kernelRun_A c i arg1 harg1 arg2 harg2 arg3 harg3 arg4 harg4 hc0 hc1 x0 x1).2.1 S1024x256.size (by sl_kernel_rfl) y

/-- What case A leaves in the accumulator: its pieces read back over junk. -/
def sout_A (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : cond0_0 i) (hc1 : ¬cond0_1 i)
    (x0 : Vec F S1024x256 .f32) (x1 : Vec F S1024x1 .i32) : Vec F S8192x256 .f32 :=
  VS.read (Elt F) (VS.writes (Elt F) VS.junk (kernelRun_A c i arg1 harg1 arg2 harg2 arg3 harg3 arg4 harg4 hc0 hc1 x0 x1).2.1)

/-- Case B stores nothing into the output window either: a placeholder as in case A. -/
def out_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) : Vec F S8192x256 .f32 :=
  VO.read (Elt F) (VO.writes (Elt F) VO.junk (kernelRun_B c i arg1 harg1 arg2 harg2 arg3 harg3 arg4 harg4 hc0 hc1 x0 x1 xs).1)

/-- Case B's pieces for the accumulator cover it: the eight slabs tile it. -/
theorem scover_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) (y : S8192x256.Idx) :
    ∃ pc ∈ (kernelRun_B c i arg1 harg1 arg2 harg2 arg3 harg3 arg4 harg4 hc0 hc1 x0 x1 xs).2.1, y ∈ pc.1.set :=
  View.cover_of_tiledL (kernelRun_B c i arg1 harg1 arg2 harg2 arg3 harg3 arg4 harg4 hc0 hc1 x0 x1 xs).2.1 S1024x256.size (by sl_kernel_rfl) y

/-- What case B leaves in the accumulator: its pieces read back over junk. -/
def sout_B (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : ¬cond0_1 i)
    (x0 : Vec F S1024x256 .f32) (x1 : Vec F S1024x1 .i32) (xs : Vec F S8192x256 .f32) : Vec F S8192x256 .f32 :=
  VS.read (Elt F) (VS.writes (Elt F) VS.junk (kernelRun_B c i arg1 harg1 arg2 harg2 arg3 harg3 arg4 harg4 hc0 hc1 x0 x1 xs).2.1)

/-- Case C's one piece for the output window is the whole block: it covers it. -/
theorem cover_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) (y : S8192x256.Idx) :
    ∃ pc ∈ (kernelRun_C c i arg1 harg1 arg2 harg2 arg3 harg3 arg4 harg4 hc0 hc1 x0 x1 xs).1, y ∈ pc.1.set :=
  View.cover_of_tiledL (kernelRun_C c i arg1 harg1 arg2 harg2 arg3 harg3 arg4 harg4 hc0 hc1 x0 x1 xs).1 S8192x256.size (by sl_kernel_rfl) y

/-- What case C leaves in the output window's buffer: its piece read back over junk. -/
def out_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) : Vec F S8192x256 .f32 :=
  VO.read (Elt F) (VO.writes (Elt F) VO.junk (kernelRun_C c i arg1 harg1 arg2 harg2 arg3 harg3 arg4 harg4 hc0 hc1 x0 x1 xs).1)

/-- Case C's pieces for the accumulator cover it: the eight slabs tile it. -/
theorem scover_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) (y : S8192x256.Idx) :
    ∃ pc ∈ (kernelRun_C c i arg1 harg1 arg2 harg2 arg3 harg3 arg4 harg4 hc0 hc1 x0 x1 xs).2.1, y ∈ pc.1.set :=
  View.cover_of_tiledL (kernelRun_C c i arg1 harg1 arg2 harg2 arg3 harg3 arg4 harg4 hc0 hc1 x0 x1 xs).2.1 S1024x256.size (by sl_kernel_rfl) y

/-- What case C leaves in the accumulator: its pieces read back over junk. -/
def sout_C (c : Dev nD) (i : grid0.Coords) (arg1 : Memref sig .tc .vmem S1024x256 .f32) (harg1 : arg1.IsWhole) (arg2 : Memref sig .tc .vmem S1024x1 .i32) (harg2 : arg2.IsWhole) (arg3 : Memref sig .tc .vmem S8192x256 .f32) (harg3 : arg3.IsWhole) (arg4 : Memref sig .tc .vmem S8192x256 .f32) (harg4 : arg4.IsWhole) (hc0 : ¬cond0_0 i) (hc1 : cond0_1 i)
    (x0 : Vec F S1024x256 .f32) (x1 : Vec F S1024x1 .i32) (xs : Vec F S8192x256 .f32) : Vec F S8192x256 .f32 :=
  VS.read (Elt F) (VS.writes (Elt F) VS.junk (kernelRun_C c i arg1 harg1 arg2 harg2 arg3 harg3 arg4 harg4 hc0 hc1 x0 x1 xs).2.1)

/-! ## What the output window's buffer and the accumulator hold after each point -/

/-- THE ACCUMULATION. What the output window's staging buffer and the accumulator hold after the body at position
    `n` (a pair, in that order): the case the closed forms select at `n`, run at the point's memrefs and input
    blocks, the accumulator entering cases B and C at what this leaves at `n - 1`. -/
def outsAt (c : Dev nD) : (n : ℕ) → n < cfg0.N → Vec F S8192x256 .f32 × Vec F S8192x256 .f32
  | 0, hn =>
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0_0 ⟨0, hn⟩).mpr rfl) (fun h => absurd ((hcond0_1 ⟨0, hn⟩).mp h) (by dsimp only; omega)) (iblk V c 0 ⟨0, hn⟩) (iblk V c 1 ⟨0, hn⟩),
     sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0_0 ⟨0, hn⟩).mpr rfl) (fun h => absurd ((hcond0_1 ⟨0, hn⟩).mp h) (by dsimp only; omega)) (iblk V c 0 ⟨0, hn⟩) (iblk V c 1 ⟨0, hn⟩))
  | n + 1, hn =>
    if h1 : n + 1 = 127 then
      (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) ((hcond0_1 ⟨n + 1, hn⟩).mpr h1) (iblk V c 0 ⟨n + 1, hn⟩) (iblk V c 1 ⟨n + 1, hn⟩) (outsAt c n (Nat.lt_of_succ_lt hn)).2,
       sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) ((hcond0_1 ⟨n + 1, hn⟩).mpr h1) (iblk V c 0 ⟨n + 1, hn⟩) (iblk V c 1 ⟨n + 1, hn⟩) (outsAt c n (Nat.lt_of_succ_lt hn)).2)
    else
      (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) (fun h => h1 ((hcond0_1 ⟨n + 1, hn⟩).mp h)) (iblk V c 0 ⟨n + 1, hn⟩) (iblk V c 1 ⟨n + 1, hn⟩) (outsAt c n (Nat.lt_of_succ_lt hn)).2,
       sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => absurd ((hcond0_0 ⟨n + 1, hn⟩).mp h) (Nat.succ_ne_zero n)) (fun h => h1 ((hcond0_1 ⟨n + 1, hn⟩).mp h)) (iblk V c 0 ⟨n + 1, hn⟩) (iblk V c 1 ⟨n + 1, hn⟩) (outsAt c n (Nat.lt_of_succ_lt hn)).2)

/-- `outsAt` at the first point: case A's contents. -/
theorem outsAt_A (c : Dev nD) (t : Fin cfg0.N) (h0 : t.val = 0) (h1 : ¬t.val = 127) :
    outsAt V c t.val t.isLt =
      (out_A c (grid0.coords t) (ms0 t) (hs0 t) (ms1 t) (hs1 t) (ms2 t) (hs2 t) scM (Memref.isWhole_whole _) ((hcond0_0 t).mpr h0) (fun h => h1 ((hcond0_1 t).mp h)) (iblk V c 0 t) (iblk V c 1 t),
       sout_A c (grid0.coords t) (ms0 t) (hs0 t) (ms1 t) (hs1 t) (ms2 t) (hs2 t) scM (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact absurd h0 (Nat.succ_ne_zero n)

/-- `outsAt` at a point strictly between the first and the last: case B's contents, over what the point before
    left in the accumulator. -/
theorem outsAt_B (c : Dev nD) (t : Fin cfg0.N) (h0 : ¬t.val = 0) (h1 : ¬t.val = 127) :
    outsAt V c t.val t.isLt =
      (out_B c (grid0.coords t) (ms0 t) (hs0 t) (ms1 t) (hs1 t) (ms2 t) (hs2 t) scM (Memref.isWhole_whole _) (fun h => h0 ((hcond0_0 t).mp h)) (fun h => h1 ((hcond0_1 t).mp h)) (iblk V c 0 t) (iblk V c 1 t) (outsAt V c (t.val - 1) (Nat.lt_of_le_of_lt (Nat.sub_le _ _) t.isLt)).2,
       sout_B c (grid0.coords t) (ms0 t) (hs0 t) (ms1 t) (hs1 t) (ms2 t) (hs2 t) scM (Memref.isWhole_whole _) (fun h => h0 ((hcond0_0 t).mp h)) (fun h => h1 ((hcond0_1 t).mp h)) (iblk V c 0 t) (iblk V c 1 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: case C's contents, over what the point before left in the accumulator. -/
theorem outsAt_C (c : Dev nD) (t : Fin cfg0.N) (h0 : ¬t.val = 0) (h1 : t.val = 127) :
    outsAt V c t.val t.isLt =
      (out_C c (grid0.coords t) (ms0 t) (hs0 t) (ms1 t) (hs1 t) (ms2 t) (hs2 t) scM (Memref.isWhole_whole _) (fun h => h0 ((hcond0_0 t).mp h)) ((hcond0_1 t).mpr h1) (iblk V c 0 t) (iblk V c 1 t) (outsAt V c (t.val - 1) (Nat.lt_of_le_of_lt (Nat.sub_le _ _) t.isLt)).2,
       sout_C c (grid0.coords t) (ms0 t) (hs0 t) (ms1 t) (hs1 t) (ms2 t) (hs2 t) scM (Memref.isWhole_whole _) (fun h => h0 ((hcond0_0 t).mp h)) ((hcond0_1 t).mpr h1) (iblk V c 0 t) (iblk V c 1 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant, point by point -/

/-- The invariant before position `n`: before the first point what the launch hands the region (every scoped
    buffer that is no staging buffer at anything, the generator register at some state); afterwards the same
    with the accumulator at what the point before left in it (`outsAt`'s second component). -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restOf (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM fullShare ((outsAt V c n hn).2) ∗ restOf (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM fullShare ((outsAt V c (n - 1) (by omega)).2) ∗ restOf (F := F) c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]

/-- Each input's current staging buffer holds its block at every point, fetched there or not: the body leaves the
    block in place, the window is uncut and never idle. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in,
    so that case's run applies. The invariant hands the body the accumulator at what the point before left (at
    anything at the first point), the other scoped buffers and the generator register untouched, and takes the
    accumulator back at this point's contents (its pieces cover it). Where the output window is idle its buffer
    goes back as it came; at the last point it goes back at the copied accumulator. The core owes nothing
    throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  have hN : t.val < 128 := lt_of_lt_of_eq t.isLt (show cfg0.N = 128 from N_0)
  by_cases h1 : t.val = 127
  · have h0 : ¬t.val = 0 := by omega
    rw [show (dat V c).leavesExact 2 t = owns (c : Thread nD τ) (ms2 t) fullShare ((dat V c).after 2 t) from by
      unfold Dat.leavesExact; rw [liveAt_2 t ((hcond0_1 t).mpr h1)], after_out]
    rw [outsAt_C V c t h0 h1]
    unfold out_C sout_C; (try dsimp only)
    rw [PhiS_castSucc V c t, PhiS_pos V c _ _ h0]
    iintro ⟨⟨⟨HS, Hr⟩, Hg⟩, Ho, ⟨%d0, H0⟩, ⟨%d1, H1⟩, ⟨%d2, H2⟩⟩
    iapply ((kernelRun_C c (grid0.coords t) _ _ _ _ _ _ _ _ (fun h => h0 ((hcond0_0 t).mp h)) ((hcond0_1 t).mpr h1) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover_C c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover_C c _ _ _ _ _ _ _ _ _ _ _ _ _ _)
  · rw [Dat.leavesExact_idle (dat V c) 2 t (idleAt_2 t (fun h => h1 ((hcond0_1 t).mp h))) (noFlush_2 t (fun h => h1 ((hcond0_1 t).mp h)))]
    by_cases h0 : t.val = 0
    · rw [outsAt_A V c t h0 h1]
      unfold sout_A; (try dsimp only)
      rw [PhiS_castSucc V c t, PhiS_zero V c _ _ h0, PhiA_eq]
      iintro ⟨⟨⟨HS, Hr⟩, Hg⟩, Ho, ⟨%d0, H0⟩, ⟨%d1, H1⟩, ⟨%d2, H2⟩⟩
      iapply ((kernelRun_A c (grid0.coords t) _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover_A c _ _ _ _ _ _ _ _ _ _ _ _ _)
          iexact Hr
        iexact Hg
      isplitl [Ho]; · iexact Ho
      isplitl [H0]; · iexact H0
      isplitl [H1]; · iexact H1
      iexists _; iexact H2
    · rw [outsAt_B V c t h0 h1]
      unfold sout_B; (try dsimp only)
      rw [PhiS_castSucc V c t, PhiS_pos V c _ _ h0]
      iintro ⟨⟨⟨HS, Hr⟩, Hg⟩, Ho, ⟨%d0, H0⟩, ⟨%d1, H1⟩, ⟨%d2, H2⟩⟩
      iapply ((kernelRun_B c (grid0.coords t) _ _ _ _ _ _ _ _ (fun h => h0 ((hcond0_0 t).mp h)) (fun h => h1 ((hcond0_1 t).mp h)) (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- What the launch hands the region — the generator register at some state beside the scoped buffers that are no
    staging buffer, at anything — is the invariant before the first point. -/
theorem hin (c : Dev nD) : (iprop((∃ r, prngReg c r) ∗ Pipeline.scopedRest spec0 c) : sProp 𝕄) ⊢ (dat V c).Φ 0 := by
  rw [show (dat V c).Φ 0 = PhiS V c 0 (Nat.zero_le _) from rfl, PhiS_zero V c 0 _ rfl]
  unfold Pipeline.ΦA
  iintro ⟨Hg, Hs⟩
  isplitl [Hs]; · iexact Hs
  iexact Hg

/-- After any point but the first the invariant gives that back: the accumulator's named contents are forgotten. -/
theorem Phi_out (c : Dev nD) (t : Fin (cfg0.N + 1)) (ht : t.val ≠ 0) :
    (dat V c).Φ t ⊢ (iprop((∃ r, prngReg c r) ∗ Pipeline.scopedRest spec0 c) : sProp 𝕄) := by
  have h : (dat V c).Φ t ⊢ (Pipeline.ΦA spec0 c : sProp 𝕄) := by
    rw [show (dat V c).Φ t = PhiS V c t.val (Nat.le_of_lt_succ t.isLt) from rfl, PhiS_pos V c _ _ ht, PhiA_eq]
    iintro ⟨⟨HS, Hr⟩, Hg⟩
    isplitl [HS Hr]
    · isplitl [HS]; · iexists _; iexact HS
      iexact Hr
    iexact Hg
  refine h.trans ?_
  unfold Pipeline.ΦA
  iintro ⟨Hs, Hg⟩
  isplitl [Hg]; · iexact Hg
  iexact Hs

/-- The same after the last point. -/
theorem hout (c : Dev nD) : (dat V c).Φ (Fin.last cfg0.N) ⊢ (iprop((∃ r, prngReg c r) ∗ Pipeline.scopedRest spec0 c) : sProp 𝕄) :=
  Phi_out V c _ (by rw [Fin.val_last]; have : cfg0.N = 128 := N_0; omega)

end Cert.KernelIdeal.Region0

end
-- ==== Proof.KI.Region1.lean ====
/-
  Kernel region 1 (the final-loss kernel over a grid of 8 points), its frame half, at any float family and
  at a parameter `V`: the TensorCore's buffer contents when the region is entered.

  This file: the blocks the windows read, the two conditionals of the body decided over the grid, where the
  output window is idle, the memrefs the body is called with, and the region invariant spelt over the
  carried 1x1 accumulator.
-/
import proofs.«414420_j57999238365647_3_alg».proof.Proof.Gen.KernelIdeal.Launch
import proofs.«414420_j57999238365647_3_alg».proof.Proof.Gen.KernelIdeal.Skeleton
import proofs.«414420_j57999238365647_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Region

/-! ## The two conditionals, over the grid -/

/-- The first conditional (zero the accumulator): the point's coordinate is 0. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (scale the accumulator into the output): the point's coordinate is 7. -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the body stores nothing into the output window: it is idle there, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the last point the output window is live. -/
theorem liveAt1_5 : ∀ t : Fin cfg1.N, cond1_1 (grid1.coords t) → cfg1.idle 5 (grid1.coords t) = false := by decide +kernel

/-! ## The memrefs the body is called with -/

/-- The output window's one staging buffer, as a view: its contents are stated through it. -/
abbrev VO1_5 : View sig .tc .vmem S1x1 .f32 := (Memref.whole cc1_stg5_0 : Memref sig .tc .vmem S1x1 .f32).view
/-- Each window's current staging memref at point `t`, and its wholeness. -/
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
/-- The accumulator: a whole scoped 1x1 buffer of the kernel's own, passed beside the windows. -/
abbrev scM1_0 : Memref sig .tc .vmem S1x1 .f32 := Memref.whole cc1_scratch0
/-- The same as a view. -/
abbrev VS1_0 : View sig .tc .vmem S1x1 .f32 := scM1_0.view

/-! ## The region invariant, spelt out -/

/-- The scoped buffers that are neither a staging buffer of this region nor its accumulator (the other region's
    staging buffers and its accumulator), each at some contents: carried through the region untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f))

/-- The scoped rest of this region is those six buffers and the accumulator. -/
theorem scopedRest1_split (c : Dev nD) :
    (Pipeline.scopedRest (Ix := Unit) (Name := ℕ) (U := UR sig nD τ) (Lvl := ℕ) (Val := Elt F) spec1 c : sProp 𝕄)
      = iprop(others (F := F) c ∗ (∃ d, owns (c : Thread nD τ) scM1_0 fullShare d)) := by
  rw [scopedRest1_eq]; unfold others; simp only [scM1_0, owns_whole]
  refine Idealize.SL.BI.Entails.antisymm ?_ ?_
  · show (_ : sProp 𝕄) ⊢ _
    iintro ⟨H0, H1, H2, H3, H4, H5, H6⟩
    isplitr [H6]
    · isplitl [H0]; · iexact H0
      isplitl [H1]; · iexact H1
      isplitl [H2]; · iexact H2
      isplitl [H3]; · iexact H3
      isplitl [H4]; · iexact H4
      iexact H5
    · iexact H6
  · show (_ : sProp 𝕄) ⊢ _
    iintro ⟨⟨H0, H1, H2, H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- The class's invariant with the accumulator as a memref owned at some contents: what the body obligation hands
    the run at the first point. -/
theorem PhiA1_eq (c : Dev nD) :
    (Pipeline.ΦA spec1 c : sProp 𝕄)
      = iprop((others (F := F) c ∗ (∃ d, owns (c : Thread nD τ) scM1_0 fullShare d)) ∗ (∃ r, prngReg c r)) := by
  unfold Pipeline.ΦA; rw [scopedRest1_split (F := F) c]

set_option maxHeartbeats 4000000 in
/-- CASE A (the first point: the first conditional taken, the second not). On whole memrefs — the five inputs at
    their contents, the output window at contents `xi5` it hands back untouched, the accumulator at anything — the
    body runs to the continuation holding the inputs and the output window as they were and the accumulator with
    the pieces `LS0` written: the zero store, then the update. The pieces are found by running the body. -/
noncomputable def kernelRun_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨[], ?_, fun xi5 E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- CASE B (points 1 to 6: neither conditional taken). As case A, but the accumulator is handed over at the
    contents `xs0` the point before left, which the update reads. -/
noncomputable def kernelRun_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨[], ?_, fun xi5 E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- CASE C (the last point: the second conditional taken). The accumulator is handed over at the contents `xs0`
    the point before left; the output window at anything. The body runs to the continuation holding the inputs
    as they were, the output window with the pieces `L5` written (the scaled accumulator) and the accumulator with
    the pieces `LS0` written (the update). -/
noncomputable def kernelRun_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7) K } := by
  refine ⟨?_, ?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves in the output window and in the accumulator -/

/-- Case A stores nothing into the output window (idle at the first point and not written back there): no pieces; a
    placeholder nothing consults. -/
def out_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) : Vec F S1x1 .f32 :=
  VO1_5.read (Elt F) (VO1_5.writes (Elt F) VO1_5.junk (kernelRun_A c i arg1 harg1 arg2 harg2 arg3 harg3 arg4 harg4 arg5 harg5 arg6 harg6 arg7 harg7 hc0 hc1 x0 x1 x2 x3 x4).1)

/-- Case A's pieces for the accumulator (the zero store, the update) cover the 1x1 buffer. -/
theorem scover_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) (y : S1x1.Idx) :
    ∃ pc ∈ (kernelRun_A c i arg1 harg1 arg2 harg2 arg3 harg3 arg4 harg4 arg5 harg5 arg6 harg6 arg7 harg7 hc0 hc1 x0 x1 x2 x3 x4).2.1, y ∈ pc.1.set :=
  View.cover_of_tiledL (kernelRun_A c i arg1 harg1 arg2 harg2 arg3 harg3 arg4 harg4 arg5 harg5 arg6 harg6 arg7 harg7 hc0 hc1 x0 x1 x2 x3 x4).2.1 S1x1.size (by sl_kernel_rfl) y

/-- What case A leaves in the accumulator: its pieces read back. -/
def sout_A (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S128x256 .f32) (x1 : Vec F S8192x256 .f32) (x2 : Vec F S1x8192 .f32) (x3 : Vec F S1x8192 .f32) (x4 : Vec F S128x1 .i32) : Vec F S1x1 .f32 :=
  VS1_0.read (Elt F) (VS1_0.writes (Elt F) VS1_0.junk (kernelRun_A c i arg1 harg1 arg2 harg2 arg3 harg3 arg4 harg4 arg5 harg5 arg6 harg6 arg7 harg7 hc0 hc1 x0 x1 x2 x3 x4).2.1)

/-- Case B stores nothing into the output window either. -/
def out_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VO1_5.read (Elt F) (VO1_5.writes (Elt F) VO1_5.junk (kernelRun_B c i arg1 harg1 arg2 harg2 arg3 harg3 arg4 harg4 arg5 harg5 arg6 harg6 arg7 harg7 hc0 hc1 x0 x1 x2 x3 x4 xs0).1)

/-- Case B's piece for the accumulator (the update) covers it. -/
theorem scover_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_B c i arg1 harg1 arg2 harg2 arg3 harg3 arg4 harg4 arg5 harg5 arg6 harg6 arg7 harg7 hc0 hc1 x0 x1 x2 x3 x4 xs0).2.1, y ∈ pc.1.set :=
  View.cover_of_tiledL (kernelRun_B c i arg1 harg1 arg2 harg2 arg3 harg3 arg4 harg4 arg5 harg5 arg6 harg6 arg7 harg7 hc0 hc1 x0 x1 x2 x3 x4 xs0).2.1 S1x1.size (by sl_kernel_rfl) y

/-- What case B leaves in the accumulator. -/
def sout_B (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VS1_0.read (Elt F) (VS1_0.writes (Elt F) VS1_0.junk (kernelRun_B c i arg1 harg1 arg2 harg2 arg3 harg3 arg4 harg4 arg5 harg5 arg6 harg6 arg7 harg7 hc0 hc1 x0 x1 x2 x3 x4 xs0).2.1)

/-- Case C's piece for the output window (the scaled accumulator) covers its 1x1 block. -/
theorem cover_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_C c i arg1 harg1 arg2 harg2 arg3 harg3 arg4 harg4 arg5 harg5 arg6 harg6 arg7 harg7 hc0 hc1 x0 x1 x2 x3 x4 xs0).1, y ∈ pc.1.set :=
  View.cover_of_tiledL (kernelRun_C c i arg1 harg1 arg2 harg2 arg3 harg3 arg4 harg4 arg5 harg5 arg6 harg6 arg7 harg7 hc0 hc1 x0 x1 x2 x3 x4 xs0).1 S1x1.size (by sl_kernel_rfl) y

/-- What case C leaves in the output window's staging buffer. -/
def out_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VO1_5.read (Elt F) (VO1_5.writes (Elt F) VO1_5.junk (kernelRun_C c i arg1 harg1 arg2 harg2 arg3 harg3 arg4 harg4 arg5 harg5 arg6 harg6 arg7 harg7 hc0 hc1 x0 x1 x2 x3 x4 xs0).1)

/-- Case C's piece for the accumulator (the update) covers it. -/
theorem scover_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) (y : S1x1.Idx) :
    ∃ pc ∈ (kernelRun_C c i arg1 harg1 arg2 harg2 arg3 harg3 arg4 harg4 arg5 harg5 arg6 harg6 arg7 harg7 hc0 hc1 x0 x1 x2 x3 x4 xs0).2.1, y ∈ pc.1.set :=
  View.cover_of_tiledL (kernelRun_C c i arg1 harg1 arg2 harg2 arg3 harg3 arg4 harg4 arg5 harg5 arg6 harg6 arg7 harg7 hc0 hc1 x0 x1 x2 x3 x4 xs0).2.1 S1x1.size (by sl_kernel_rfl) y

/-- What case C leaves in the accumulator. -/
def sout_C (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S128x256 .f32) (x1 : Vec F S8192x256 .f32) (x2 : Vec F S1x8192 .f32) (x3 : Vec F S1x8192 .f32) (x4 : Vec F S128x1 .i32) (xs0 : Vec F S1x1 .f32) : Vec F S1x1 .f32 :=
  VS1_0.read (Elt F) (VS1_0.writes (Elt F) VS1_0.junk (kernelRun_C c i arg1 harg1 arg2 harg2 arg3 harg3 arg4 harg4 arg5 harg5 arg6 harg6 arg7 harg7 hc0 hc1 x0 x1 x2 x3 x4 xs0).2.1)

/-! ## The conditionals at a point, from its position -/

theorem cond1_0_of (t : Fin cfg1.N) (h : t.val = 0) : cond1_0 (grid1.coords t) := (hcond1_0 t).mpr h
theorem not_cond1_0_of (t : Fin cfg1.N) (h : ¬t.val = 0) : ¬cond1_0 (grid1.coords t) := fun h' => h ((hcond1_0 t).mp h')
theorem cond1_1_of (t : Fin cfg1.N) (h : t.val = 7) : cond1_1 (grid1.coords t) := (hcond1_1 t).mpr h
theorem not_cond1_1_of (t : Fin cfg1.N) (h : ¬t.val = 7) : ¬cond1_1 (grid1.coords t) := fun h' => h ((hcond1_1 t).mp h')

section Region
variable (V : (c : Dev nD) → (b : Ref sig .tc) → Buf (Elt F) ((c : Thread nD τ).loc b))

/-! ## What the output window and the accumulator hold after each point -/

/-- THE ACCUMULATION. What the output window's staging buffer and the accumulator hold after the body at position
    `n`: case A at the first point; afterwards case C at position 7 and case B elsewhere, each over what the point
    before left in the accumulator; the cases run at the point's memrefs and input blocks. -/
def outsAt (c : Dev nD) : (n : ℕ) → n < cfg1.N → Vec F S1x1 .f32 × Vec F S1x1 .f32
  | 0, hn => (out_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_of ⟨0, hn⟩ rfl) (not_cond1_1_of ⟨0, hn⟩ (show ¬((0 : ℕ) = 7) by decide)) (iblk V c 0 ⟨0, hn⟩) (iblk V c 1 ⟨0, hn⟩) (iblk V c 2 ⟨0, hn⟩) (iblk V c 3 ⟨0, hn⟩) (iblk V c 4 ⟨0, hn⟩), sout_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_of ⟨0, hn⟩ rfl) (not_cond1_1_of ⟨0, hn⟩ (show ¬((0 : ℕ) = 7) by decide)) (iblk V c 0 ⟨0, hn⟩) (iblk V c 1 ⟨0, hn⟩) (iblk V c 2 ⟨0, hn⟩) (iblk V c 3 ⟨0, hn⟩) (iblk V c 4 ⟨0, hn⟩))
  | n + 1, hn =>
    if h1 : n + 1 = 7 then
      (out_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
    else
      (out_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (not_cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_cond1_0_of ⟨n + 1, hn⟩ (Nat.succ_ne_zero n)) (not_cond1_1_of ⟨n + 1, hn⟩ h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at the first point: case A's contents. -/
theorem outsAt_A (c : Dev nD) (t : Fin cfg1.N) (h0 : t.val = 0) (h1 : ¬t.val = 7) :
    outsAt V c t.val t.isLt = (out_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (cond1_0_of t h0) (not_cond1_1_of t h1) (iblk V c 0 t) (iblk V c 1 t) (iblk V c 2 t) (iblk V c 3 t) (iblk V c 4 t), sout_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (cond1_0_of t h0) (not_cond1_1_of t h1) (iblk V c 0 t) (iblk V c 1 t) (iblk V c 2 t) (iblk V c 3 t) (iblk V c 4 t)) := by
  obtain ⟨n, hn⟩ := t
  cases n with
  | zero => exact rfl
  | succ n => exact absurd h0 (Nat.succ_ne_zero n)

/-- `outsAt` at a point of case B: that case's contents, over what the point before left. -/
theorem outsAt_B (c : Dev nD) (t : Fin cfg1.N) (h0 : ¬t.val = 0) (h1 : ¬t.val = 7) :
    outsAt V c t.val t.isLt = (out_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (not_cond1_1_of t h1) (iblk V c 0 t) (iblk V c 1 t) (iblk V c 2 t) (iblk V c 3 t) (iblk V c 4 t) (outsAt V c (t.val - 1) (Nat.lt_of_le_of_lt (Nat.sub_le _ _) t.isLt)).2, sout_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (not_cond1_1_of t h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: case C's contents, over what the point before left. -/
theorem outsAt_C (c : Dev nD) (t : Fin cfg1.N) (h0 : ¬t.val = 0) (h1 : t.val = 7) :
    outsAt V c t.val t.isLt = (out_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (cond1_1_of t h1) (iblk V c 0 t) (iblk V c 1 t) (iblk V c 2 t) (iblk V c 3 t) (iblk V c 4 t) (outsAt V c (t.val - 1) (Nat.lt_of_le_of_lt (Nat.sub_le _ _) t.isLt)).2, sout_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (not_cond1_0_of t h0) (cond1_1_of t h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The region invariant before position `n`: before the first point every scoped buffer that is no staging buffer
    at anything and the generator register at some state; afterwards the accumulator at what the point before
    left in it, the other region's scoped buffers at anything, the generator register at some state. -/
def PhiS (c : Dev nD) : (n : ℕ) → n ≤ cfg1.N → sProp 𝕄
  | 0, _ => Pipeline.ΦA spec1 c
  | n + 1, hn => iprop((others (F := F) c ∗ owns (c : Thread nD τ) scM1_0 fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others (F := F) c ∗ owns (c : Thread nD τ) scM1_0 fullShare ((outsAt V c n hn).2)) ∗ (∃ r, prngReg c r)) := rfl

theorem PhiS_pos (c : Dev nD) (n : ℕ) (h : n ≤ cfg1.N) (hz : n ≠ 0) :
    PhiS V c n h = iprop((others (F := F) c ∗ owns (c : Thread nD τ) scM1_0 fullShare ((outsAt V c (n - 1) (by omega)).2)) ∗ (∃ r, prngReg c r)) := by
  cases n with
  | zero => exact absurd rfl hz
  | succ n => rfl

/-! ## The pipeline's proof data -/

/-- The proof data of this region's pipeline on core `c`: the arrays as the region finds them; after the body at
    point `t` each input's buffer at its block and the output's at `outsAt`'s first component; the invariant
    `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

/-- Each input window's current staging buffer holds its block at every point, fetched there or not: where it
    is not fetched the block index has not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the point's position says which case it is in;
    the invariant hands the body the accumulator (at anything at the first point, at what the point before left
    afterwards) and takes it back at this point's contents, the pieces the case wrote covering it; off the last
    point the output window is handed back untouched, at the last point its piece covers it; the core owes
    nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  by_cases h0 : t.val = 0
  · have h1 : ¬t.val = 7 := by omega
    rw [Dat.leavesExact_idle (dat V c) 5 t (idleAt1_5 t (not_cond1_1_of t h1)) (noFlush1_5 t (not_cond1_1_of t h1))]
    rw [outsAt_A V c t h0 h1]
    unfold sout_A; (try dsimp only)
    rw [PhiS_castSucc V c t, PhiS_zero V c _ _ h0, PhiA1_eq]
    iintro ⟨⟨⟨Hoth, HS0⟩, Hg⟩, Ho, ⟨%d0, H0⟩, ⟨%d1, H1⟩, ⟨%d2, H2⟩, ⟨%d3, H3⟩, ⟨%d4, H4⟩, ⟨%d5, H5⟩⟩
    iapply ((kernelRun_A c (grid1.coords t) _ _ _ _ _ _ _ _ _ _ _ _ _ _ (cond1_0_of t h0) (not_cond1_1_of t h1) (iblk V c 0 t) (iblk V c 1 t) (iblk V c 2 t) (iblk V c 3 t) (iblk V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [Hoth HS0 Hg]
    · isplitl [Hoth HS0]
      · isplitl [Hoth]; · iexact Hoth
        unfold owns; iexists _; isplitr
        swap; · iexact HS0
        ipureintro; exact View.read_writes_of_cover _ _ _ _ _ (scover_A c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 7
    · rw [show (dat V c).leavesExact 5 t = owns (c : Thread nD τ) (ms1_5 t) fullShare ((dat V c).after 5 t) from by
        unfold Dat.leavesExact; rw [liveAt1_5 t (cond1_1_of t h1)], after_out]
      rw [outsAt_C V c t h0 h1]
      unfold out_C sout_C; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (not_cond1_0_of t h0) (cond1_1_of t h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt1_5 t (not_cond1_1_of t h1)) (noFlush1_5 t (not_cond1_1_of t h1))]
      rw [outsAt_B V c t h0 h1]
      unfold sout_B; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (not_cond1_0_of t h0) (not_cond1_1_of t h1) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (iprop((∃ r, prngReg c r) ∗ Pipeline.scopedRest spec1 c) : sProp 𝕄) ⊢ (dat V c).Φ 0 := by
  rw [show (dat V c).Φ 0 = PhiS V c 0 (Nat.zero_le _) from rfl, PhiS_zero V c 0 _ rfl]
  unfold Pipeline.ΦA
  iintro ⟨Hg, Hr⟩
  isplitl [Hr]; · iexact Hr
  iexact Hg

/-- After the last point the invariant gives the scoped rest and the generator register back: the accumulator's
    named contents are forgotten. -/
theorem hout (c : Dev nD) : (dat V c).Φ (Fin.last cfg1.N) ⊢ (iprop((∃ r, prngReg c r) ∗ Pipeline.scopedRest spec1 c) : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 8 := N_1; omega)]
  rw [scopedRest1_split (F := F) c]
  iintro ⟨⟨Hoth, HS0⟩, Hg⟩
  isplitl [Hg]; · iexact Hg
  isplitl [Hoth]; · iexact Hoth
  iexists _; iexact HS0

end Region

end Cert.KernelIdeal.Region1

end
-- ==== Proof.KI.Launch.lean ====
/-
  The launch of the idealized kernel program: @main as five segments — the labels reshaped, the first kernel region,
  the counts / mask / denominators / targets on the host, the second kernel region, the result reshaped — run in order
  from the launch memory. Between two segments the core holds every unscoped buffer whole; the contents are a fold
  through @main: a host stretch applies its operations; a region leaves each of its windows' arrays at what its
  write-backs make of it (the inputs as entered) and every other buffer as entered. The run ends with every unscoped
  buffer at the last fold, from which the arguments are read back as launched and the result as the second region's
  output reshaped.
-/
import proofs.«414420_j57999238365647_3_alg».proof.Proof.KI.Region0
import proofs.«414420_j57999238365647_3_alg».proof.Proof.KI.Region1
import proofs.«414420_j57999238365647_3_alg».proof.Proof.Gen.KernelIdeal.Regions
import proofs.«414420_j57999238365647_3_alg».proof.Proof.LibRegion
import Idealize.ShloMosaic.Lib.Pipeline.RegionsLoop
import Idealize.ShloMosaic.Lib.Pipeline.FrameSuffix

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the labels are reshaped (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (Region0.dat (V1 m) c).arrAt w cfg0.N
theorem W2_arr (c : Dev nD) (w : Fin cfg0.W) :
    W2 m c (Proc.devRef .tc (Pipeline.arrRef spec0 w)) = (Region0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the host stretch between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Region1.dat (V3 m) c).arrAt w cfg1.N
theorem W4_arr (c : Dev nD) (w : Fin cfg1.W) :
    W4 m c (Proc.devRef .tc (Pipeline.arrRef spec1 w)) = (Region1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the result is reshaped: the end of @main. -/
abbrev W5 : Dev nD → Valuation τ sig (Elt F) := fun c => StableHlo.after hostOps2 (W4 m c)

/-! ## What each segment leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- The inputs reach the end as launched: the batch is the second region's first window (an input: its array is
    never written), no array of the first region, and no host stretch writes it. -/
theorem W5_main_arg0 (c : Dev nD) : W5 m c main_arg0 = m ((c : Thread nD τ).loc main_arg0) :=
  (W5_of m c main_arg0 (by decide)).trans <|
    ((W4_arr m c 0).trans (((Region1.dat (V3 m) c).arrAt_in 0 rfl _).trans (Region1.A_eq (V3 m) c 0))).trans <|
    (W3_of m c main_arg0 (by decide)).trans <| (W2_of_ne m c main_arg0 (by decide)).trans <| (W1_of m c main_arg0 (by decide)).trans rfl
/-- The bank is the first region's first window (an input), no array of the second region. -/
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    ((W2_arr m c 0).trans (((Region0.dat (V1 m) c).arrAt_in 0 rfl _).trans (Region0.A_eq (V1 m) c 0))).trans <|
    (W1_of m c main_arg1 (by decide)).trans rfl
/-- The indexes and the labels are no region's array. -/
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl

/-! ## The proof data family and the regions as segments -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (V1 m) c
  | ⟨1, _⟩ => fun c => Region1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := Cert.LibRegion.R (U := UR sig nD τ) (Val := Elt F) c
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The first region: entered from every unscoped buffer at `W1`, left at `W2`. -/
def reg0 : Pipeline.RegionSeg (pcfgs (F := F)) adm (pdats m) () defs₀ 𝒱₀ L lv 0 :=
  Cert.LibRegion.regionSegHeld (pcfgs (F := F)) adm (pdats m) defs₀ 𝒱₀ L lv 0 launch0.win.to₀ launch0.block_pos launch0.stage_whole rfl
    (fun c => (Region0.body_obligation (V1 m) c).loose) (fun c => Region0.hin (V1 m) c) (fun c => Region0.hout (V1 m) c)
    (fun _ _ => rfl) (fun _ => rfl) (W1 m) (W2 m)
    (fun c => Cert.LibRegion.arrBufs_split_distinct cfg0 c (pdats m 0 c) launch0.win.arr_inj launch0.arr_whole
      ((pdats m 0 c).share_full fun _ => rfl) (fun b => W1 m c b) _ (fun w => Region0.A_eq (V1 m) c w))
    (fun c => Cert.LibRegion.arrBufs_join_distinct cfg0 c (pdats m 0 c) launch0.win.arr_inj launch0.arr_whole
      ((pdats m 0 c).share_full fun _ => rfl) (fun b => W2 m c b) _ (fun w => (W2_arr m c w).symm))
    (fun c b hb => W2_of_ne m c b fun w e => hb (Finset.mem_image.mpr ⟨w, Finset.mem_univ _, e⟩))

set_option backward.isDefEq.respectTransparency.types false in
/-- The second region: entered from every unscoped buffer at `W3`, left at `W4`. -/
def reg1 : Pipeline.RegionSeg (pcfgs (F := F)) adm (pdats m) () defs₀ 𝒱₀ L lv 1 :=
  Cert.LibRegion.regionSegHeld (pcfgs (F := F)) adm (pdats m) defs₀ 𝒱₀ L lv 1 launch1.win.to₀ launch1.block_pos launch1.stage_whole rfl
    (fun c => (Region1.body_obligation (V3 m) c).loose) (fun c => Region1.hin (V3 m) c) (fun c => Region1.hout (V3 m) c)
    (fun _ _ => rfl) (fun _ => rfl) (W3 m) (W4 m)
    (fun c => Cert.LibRegion.arrBufs_split_distinct cfg1 c (pdats m 1 c) launch1.win.arr_inj launch1.arr_whole
      ((pdats m 1 c).share_full fun _ => rfl) (fun b => W3 m c b) _ (fun w => Region1.A_eq (V3 m) c w))
    (fun c => Cert.LibRegion.arrBufs_join_distinct cfg1 c (pdats m 1 c) launch1.win.arr_inj launch1.arr_whole
      ((pdats m 1 c).share_full fun _ => rfl) (fun b => W4 m c b) _ (fun w => (W4_arr m c w).symm))
    (fun c b hb => W4_of_ne m c b fun w e => hb (Finset.mem_image.mpr ⟨w, Finset.mem_univ _, e⟩))

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters every weakly fair execution of @main terminates, nothing faulting, and
    every final state holds each unscoped buffer at the last fold `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c)
          ∗ ((∃ r, prngReg c r) ∗ ∃ W, owes (c : Thread nD τ) (0 : CellTallies nD τ sig Unit) W)) : sProp 𝕄)
        ⊢ iprop((StableHlo.held (c : Thread nD τ) (Pipeline.ucRefs τ sig) (W5 m c) ∗ ∃ r, prngReg c r)
          ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

/-- The run with the result named: the result buffer ends at the last fold's contents, the arguments as launched. -/
theorem run_result : θ_run defs (onTc (τ := τ) (main (F := F))) ⟨m, fun _ => 0, ρ⟩ (fun r => ∀ c : Dev nD,
      r.2.mem ((c.tc : Thread nD τ).loc main_v26) = W5 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v26 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.KernelIdeal.Launch

end
-- ==== Proof.Spec.lean ====
/-
  The mathematics of the claim, free of any program: what the kernel's two launches compute and what the reference
  computes, index by index over the extended reals, as functions of
    x    the batch of inputs, 1024 rows of 256,
    f    the memory bank, 131072 rows of 256,
    lab  the bank rows' cluster labels (32-bit words),
  and of three quantities BOTH programs compute with the same host operations and that enter both sides alike:
    den  the per-cluster denominator (the cluster's size, or 1 for an empty cluster),
    mask the per-cluster indicator of a non-empty cluster,
    tgt  the target cluster of each input row (a 32-bit word).
  A row is normalised by its Euclidean norm clamped below at the word 0x2B8CBCCC; the kernel multiplies by the
  reciprocal of the clamped norm where the reference divides by it; the kernel sums normalised bank rows by cluster and
  then takes inner products with the normalised inputs, scaled by the named constant and by the reciprocal of the
  denominator, where the reference takes all inner products first, divides them by the temperature's word, sums them by
  cluster and divides by the denominator.
-/
import Idealize.ShloMosaic.PureOps.Ideal
import Idealize.ShloMosaic.Lib.ValueIdx

noncomputable section

open scoped BigOperators

namespace Cert.Spec

open Idealize.ShloMosaic Idealize.ShloMosaic.ValueIdx

/-! ## The literals, as the extended reals their words denote -/

/-- The clamp under a norm: the f32 word of 1e-12. -/
def e12 : EReal := Ideal.ofBits .f32 0x2B8CBCCC#32
/-- The softmax's and the logarithm's guard: the f32 word of 1e-6. -/
def e6 : EReal := Ideal.ofBits .f32 0x358637BD#32
/-- The f32 word of 1. -/
def one : EReal := Ideal.ofBits .f32 0x3F800000#32
/-- The f32 word of 0. -/
def zero : EReal := Ideal.ofBits .f32 0x00000000#32
/-- The reference's temperature: the f32 word nearest 0.05. -/
def temp : EReal := Ideal.ofBits .f32 0x3D4CCCCD#32
/-- The kernel's reciprocal temperature, NAMED: one over the temperature's word, exactly. -/
def invTemp : EReal := ((268435456 / 13421773 : ℝ) : EReal)
/-- The reference's batch size: the f32 word of 1024. -/
def c1024 : EReal := Ideal.ofBits .f32 0x44800000#32
/-- The kernel's reciprocal batch size: the f32 word of 1/1024. -/
def r1024 : EReal := Ideal.ofBits .f32 0x3A800000#32

/-! ## Rows and their norms -/

/-- Row `s` of the bank is row `s'` of its block `t`: `s = 1024 t + s'`. -/
def bankRow (t : Fin 128) (s' : Fin 1024) : Fin 131072 := ⟨1024 * t.val + s'.val, by omega⟩
/-- Row `b` of the batch is row `r` of its block `i`: `b = 128 i + r`. -/
def batchRow (i : Fin 8) (r : Fin 128) : Fin 1024 := ⟨128 * i.val + r.val, by omega⟩

/-- The clamped Euclidean norm of row `r` of an array of rows of 256. -/
def cnorm {n : Nat} (v : (⟨2, ![n, 256]⟩ : Shape).Idx → EReal) (r : Fin n) : EReal :=
  max (Ideal.sqrt (∑ d : Fin 256, v (ix2 r d) * v (ix2 r d))) e12

/-- The kernel's normalised entry: the entry times the reciprocal of the clamped norm. -/
def nrmK {n : Nat} (v : (⟨2, ![n, 256]⟩ : Shape).Idx → EReal) (r : Fin n) (d : Fin 256) : EReal :=
  v (ix2 r d) * Ideal.div one (cnorm v r)

/-- The reference's normalised entry: the entry divided by the clamped norm. -/
def nrmR {n : Nat} (v : (⟨2, ![n, 256]⟩ : Shape).Idx → EReal) (r : Fin n) (d : Fin 256) : EReal :=
  Ideal.div (v (ix2 r d)) (cnorm v r)

/-! ## The kernel -/

/-- The kernel's first launch: for cluster `c` and column `d`, the sum over the bank's blocks, and over the rows of
    a block, of the normalised entries of the rows labelled `c`. -/
def gsK (f : (⟨2, ![131072, 256]⟩ : Shape).Idx → EReal) (lab : (⟨1, ![131072]⟩ : Shape).Idx → BitVec 32)
    (c : Fin 8192) (d : Fin 256) : EReal :=
  ∑ t : Fin 128, ∑ s' : Fin 1024,
    (if lab (ix1 (bankRow t s')) = BitVec.ofNat 32 c.val then nrmK f (bankRow t s') d else 0)

section Loss

variable (x : (⟨2, ![1024, 256]⟩ : Shape).Idx → EReal) (gs : Fin 8192 → Fin 256 → EReal)
  (den mask : Fin 8192 → EReal) (tgt : Fin 1024 → BitVec 32)

/-- The kernel's similarity of input row `b` to cluster `c`. -/
def simK (b : Fin 1024) (c : Fin 8192) : EReal :=
  ((∑ d : Fin 256, nrmK x b d * gs c d) * invTemp) * Ideal.div one (den c)

/-- The kernel's masked exponential. -/
def expK (b : Fin 1024) (c : Fin 8192) : EReal := Ideal.exp (simK x gs den b c) * mask c

/-- The kernel's log-probability of row `b`'s target: the target's masked exponential selected by comparing the
    target word with each column's number, over the guarded row sum, guarded again under the logarithm. -/
def logpK (b : Fin 1024) : EReal :=
  Ideal.log (Ideal.div (∑ c : Fin 8192, (if tgt b = BitVec.ofNat 32 c.val then expK x gs den mask b c else 0))
      ((∑ c : Fin 8192, expK x gs den mask b c) + e6) + e6)

/-- The kernel's second launch: over the eight blocks of the batch, minus the block's sum of log-probabilities,
    added up, times the reciprocal batch size. -/
def lossK : EReal :=
  (∑ i : Fin 8, (zero - ∑ r : Fin 128, logpK x gs den mask tgt (batchRow i r))) * r1024

end Loss

/-! ## The reference -/

section Ref

variable (x : (⟨2, ![1024, 256]⟩ : Shape).Idx → EReal) (f : (⟨2, ![131072, 256]⟩ : Shape).Idx → EReal)
  (lab : (⟨1, ![131072]⟩ : Shape).Idx → BitVec 32) (den mask : Fin 8192 → EReal) (tgt : Fin 1024 → BitVec 32)

/-- The reference's logit of input row `b` against bank row `s`. -/
def logitR (b : Fin 1024) (s : Fin 131072) : EReal :=
  Ideal.div (∑ d : Fin 256, nrmR x b d * nrmR f s d) temp

/-- The reference's similarity: the logits of the rows labelled `c` summed, over the denominator. -/
def simR (b : Fin 1024) (c : Fin 8192) : EReal :=
  Ideal.div (∑ s : Fin 131072, (if lab (ix1 s) = BitVec.ofNat 32 c.val then logitR x f b s else 0)) (den c)

/-- The reference's masked exponential. -/
def expR (b : Fin 1024) (c : Fin 8192) : EReal := Ideal.exp (simR x f lab den b c) * mask c

/-- The reference's log-probability of row `b` at cluster `c`. -/
def logpR (b : Fin 1024) (c : Fin 8192) : EReal :=
  Ideal.log (Ideal.div (expR x f lab den mask b c) ((∑ c' : Fin 8192, expR x f lab den mask b c') + e6) + e6)

/-- The reference: minus the mean over the batch of the log-probability at the row's target (a target word in
    `[0, 8192)`, read as a column number). -/
def lossR : EReal :=
  -(Ideal.div (∑ b : Fin 1024, logpR x f lab den mask b ⟨(tgt b).toNat % 8192, Nat.mod_lt _ (by norm_num)⟩) c1024)

end Ref

end Cert.Spec

end
-- ==== Proof.KI.Value0a.lean ====
import proofs.«414420_j57999238365647_3_alg».proof.Proof.Gen.KernelIdeal.Skeleton
import proofs.«414420_j57999238365647_3_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Value0

open Cert.KernelIdeal Cert.KernelIdeal.Gen Idealize.ShloMosaic Idealize.ShloMosaic.ValueIdx

/-! ## The one-hot product read at an index

The product contracts the FIRST axis of both operands: its entry (p, q) is the sum over the block's rows s' of the left
operand at (s', p) times the right operand at (s', q). -/

theorem lhs_hot_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem lhs_hot_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs_hot_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem rhs_hot_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The product into the zero accumulator at (p, q): the sum over the rows s' of the operands' entries (s', p) and (s', q). -/
theorem hotmul_apply (h : FVec Ideal S1024x1024 .bf16) (v14 : FVec Ideal S1024x256 .bf16) (p : Fin 1024) (q : Fin 256) :
    matmul dot_S1024x1024_S1024x256_S1024x256_0_0_1_1_n_n none h v14 (constant (F := Ideal) S1024x256 .f32 0x00000000#32) (ix2 p q)
      = ∑ k : Fin 1024, h (ix2 k p) * v14 (ix2 k q) := by
  simp only [matmul]
  rw [Ideal.matmul_constant_zero_apply, ← Equiv.sum_comp (contrEquiv1 dot_S1024x1024_S1024x256_S1024x256_0_0_1_1_n_n 1024 rfl rfl).symm]
  refine Finset.sum_congr rfl fun k _ => ?_
  have hk := contrEquiv1_symm_val dot_S1024x1024_S1024x256_S1024x256_0_0_1_1_n_n 1024 rfl rfl k
  have el : dot_S1024x1024_S1024x256_S1024x256_0_0_1_1_n_n.lhsIdx (ix2 p q) ((contrEquiv1 dot_S1024x1024_S1024x256_S1024x256_0_0_1_1_n_n 1024 rfl rfl).symm k) = ix2 k p := funext fun a => Fin.ext (by
    match a with
    | ⟨0, _⟩ => exact (lhs_hot_0 _ _).trans hk
    | ⟨1, _⟩ => exact lhs_hot_1 _ _)
  have er : dot_S1024x1024_S1024x256_S1024x256_0_0_1_1_n_n.rhsIdx (ix2 p q) ((contrEquiv1 dot_S1024x1024_S1024x256_S1024x256_0_0_1_1_n_n 1024 rfl rfl).symm k) = ix2 k q := funext fun a => Fin.ext (by
    match a with
    | ⟨0, _⟩ => exact (rhs_hot_0 _ _).trans hk
    | ⟨1, _⟩ => exact rhs_hot_1 _ _)
  rw [el, er]

/-! ## The one-hot factor

Entry (s', p) of the left operand compares the label of the block's row s' with the number of column p of the slab: the
comparison bit, widened and read as a signed integer, is 1 where they are equal and 0 elsewhere. -/

/-- The signed reading of a widened comparison bit. -/
theorem hot_word (l col : BitVec 32) :
    (FloatOps.sitofp (F := Ideal) .f32 ((IntOp.cmpi .eq l col).setWidth 32) : EReal) = if l = col then 1 else 0 := by
  show (((((IntOp.cmpi .eq l col).setWidth 32).toInt : ℝ)) : EReal) = _
  by_cases h : l = col
  · subst h
    have e : IntOp.cmpi .eq l l = 1#1 := by simp [IntOp.cmpi]
    rw [if_pos rfl, e, show ((1#1 : BitVec 1).setWidth 32).toInt = 1 from by decide]
    norm_num
  · have e : IntOp.cmpi .eq l col = 0#1 := by
      show BitVec.ofBool (l == col) = 0#1
      rw [beq_eq_false_iff_ne.mpr h]; rfl
    rw [if_neg h, e, show ((0#1 : BitVec 1).setWidth 32).toInt = 0 from by decide]
    norm_num

/-- A column of labels broadcast along the slab's columns reads the row's label. -/
theorem bcast_col (v16 : IVec S1024x1 32) (s p : Fin 1024) :
    broadcastTo S1024x1024 v16 broadcasts_S1024x1_S1024x1024 (ix2 s p) = v16 (ix2 s 0) :=
  broadcastTo_apply v16 broadcasts_S1024x1_S1024x1024 (ix2 s p) (ix2 s 0) (fun a => match a with
    | ⟨0, _⟩ => by show s.val = if (1024 : Nat) = 1 then 0 else s.val; rw [if_neg (by decide)]
    | ⟨1, _⟩ => by show (0 : Nat) = if (1 : Nat) = 1 then 0 else _; rw [if_pos rfl])

/-- A row of column numbers broadcast along the block's rows reads the column's number. -/
theorem bcast_row (r : IVec S1x1024 32) (s p : Fin 1024) :
    broadcastTo S1024x1024 r broadcasts_S1x1024_S1024x1024 (ix2 s p) = r (ix2 0 p) :=
  broadcastTo_apply r broadcasts_S1x1024_S1024x1024 (ix2 s p) (ix2 0 p) (fun a => match a with
    | ⟨0, _⟩ => by show (0 : Nat) = if (1 : Nat) = 1 then 0 else _; rw [if_pos rfl]
    | ⟨1, _⟩ => by show p.val = if (1024 : Nat) = 1 then 0 else p.val; rw [if_neg (by decide)])

/-- The slab's column numbers: the offset plus the column. -/
theorem cols_apply (off : Nat) (p : Fin 1024) :
    addi (broadcast S1x1024 (BitVec.ofNat 32 off)) (iota .tc S1x1024 32 [1] iota_S1x1024_d1_w32) (ix2 (0 : Fin 1) p)
      = BitVec.ofNat 32 (off + p.val) := by
  show IntOp.addi (BitVec.ofNat 32 off) (iota .tc S1x1024 32 [1] iota_S1x1024_d1_w32 (ix2 (0 : Fin 1) p)) = _
  rw [iota_single_apply]
  show BitVec.ofNat 32 off + BitVec.ofNat 32 p.val = _
  rw [← BitVec.ofNat_add]

/-- The one-hot factor of a block of labels against a row of column numbers. -/
abbrev hot (v16 : IVec S1024x1 32) (cols : IVec S1x1024 32) : FVec Ideal S1024x1024 .bf16 :=
  truncf .bf16 (sitofp .f32 (extui 32 (cmpi .eq (broadcastTo S1024x1024 v16 broadcasts_S1024x1_S1024x1024)
    (broadcastTo S1024x1024 cols broadcasts_S1x1024_S1024x1024)) natLt_1_32)) bitsLt_bf16_f32

theorem hot_apply (v16 : IVec S1024x1 32) (cols : IVec S1x1024 32) (s p : Fin 1024) :
    hot v16 cols (ix2 s p) = if v16 (ix2 s 0) = cols (ix2 0 p) then 1 else 0 := by
  show (FloatOps.sitofp (F := Ideal) .f32 ((IntOp.cmpi .eq (broadcastTo S1024x1024 v16 broadcasts_S1024x1_S1024x1024 (ix2 s p))
    (broadcastTo S1024x1024 cols broadcasts_S1x1024_S1024x1024 (ix2 s p))).setWidth 32) : EReal) = _
  rw [bcast_col, bcast_row, hot_word]

/-! ## A slab's update

The slab with column offset `off` is added, at (p, q), the sum over the block's rows s' labelled `off + p` of the right
operand's entry (s', q): a one-hot factor times an entry is the entry or zero, in the extended reals too. -/

theorem slab_apply (v14 : FVec Ideal S1024x256 .bf16) (v16 : IVec S1024x1 32) (off : Nat) (prev : FVec Ideal S1024x256 .f32)
    (p : Fin 1024) (q : Fin 256) :
    shapeCast S1024x256 (addf prev (matmul dot_S1024x1024_S1024x256_S1024x256_0_0_1_1_n_n none
        (hot v16 (addi (broadcast S1x1024 (BitVec.ofNat 32 off)) (iota .tc S1x1024 32 [1] iota_S1x1024_d1_w32))) v14
        (constant (F := Ideal) S1024x256 .f32 0x00000000#32))) shapeCasts_S1024x256_S1024x256 (ix2 p q)
      = prev (ix2 p q) + ∑ s : Fin 1024, (if v16 (ix2 s 0) = BitVec.ofNat 32 (off + p.val) then v14 (ix2 s q) else 0) := by
  refine (congrFun (shapeCast_self _ shapeCasts_S1024x256_S1024x256) (ix2 p q)).trans ?_
  refine (addf_apply _ _ _).trans ?_
  rw [hotmul_apply]
  refine congrArg (prev (ix2 p q) + ·) (Finset.sum_congr rfl fun s _ => ?_)
  rw [hot_apply, cols_apply]
  split_ifs
  · exact one_mul _
  · exact zero_mul _

/-! ## The eight slabs' payloads -/

variable (v14 : FVec Ideal S1024x256 .bf16) (v16 : IVec S1024x1 32) (prev : Vec Ideal S1024x256 .f32) (p : Fin 1024) (q : Fin 256)

theorem pay9_apply : k0_pay9 v14 v16 prev (ix2 p q)
    = prev (ix2 p q) + ∑ s : Fin 1024, (if v16 (ix2 s 0) = BitVec.ofNat 32 (2048 + p.val) then v14 (ix2 s q) else 0) :=
  slab_apply v14 v16 2048 prev p q
theorem pay10_apply : k0_pay10 v14 v16 prev (ix2 p q)
    = prev (ix2 p q) + ∑ s : Fin 1024, (if v16 (ix2 s 0) = BitVec.ofNat 32 (3072 + p.val) then v14 (ix2 s q) else 0) :=
  slab_apply v14 v16 3072 prev p q
theorem pay13_apply : k0_pay13 v14 v16 prev (ix2 p q)
    = prev (ix2 p q) + ∑ s : Fin 1024, (if v16 (ix2 s 0) = BitVec.ofNat 32 (5120 + p.val) then v14 (ix2 s q) else 0) :=
  slab_apply v14 v16 5120 prev p q
theorem pay2_apply : k0_pay2 v14 v16 prev (ix2 p q)
    = prev (ix2 p q) + ∑ s : Fin 1024, (if v16 (ix2 s 0) = BitVec.ofNat 32 (7168 + p.val) then v14 (ix2 s q) else 0) :=
  slab_apply v14 v16 7168 prev p q
theorem pay12_apply : k0_pay12 v14 v16 k0_pay11 prev (ix2 p q)
    = prev (ix2 p q) + ∑ s : Fin 1024, (if v16 (ix2 s 0) = BitVec.ofNat 32 (4096 + p.val) then v14 (ix2 s q) else 0) :=
  slab_apply v14 v16 4096 prev p q
theorem pay1_14_apply : k0_pay1 (k0_pay14 v14 v16 prev) (ix2 p q)
    = prev (ix2 p q) + ∑ s : Fin 1024, (if v16 (ix2 s 0) = BitVec.ofNat 32 (6144 + p.val) then v14 (ix2 s q) else 0) :=
  slab_apply v14 v16 6144 prev p q

theorem pay6_apply (v3 : Vec Ideal S1024x256 .f32) (v15 : Vec Ideal S1024x1 .i32) :
    k0_pay6 v3 v15 prev (ix2 p q)
      = prev (ix2 p q) + ∑ s : Fin 1024, (if k0_pay5 (F := Ideal) v15 (ix2 s 0) = BitVec.ofNat 32 (0 + p.val) then k0_pay4 v3 (ix2 s q) else 0) :=
  slab_apply (k0_pay4 v3) (k0_pay5 (F := Ideal) v15) 0 prev p q
theorem pay8_apply (v15 : Vec Ideal S1024x1 .i32) :
    k0_pay8 v14 (k0_pay7 v15) prev (ix2 p q)
      = prev (ix2 p q) + ∑ s : Fin 1024, (if k0_pay5 (F := Ideal) v15 (ix2 s 0) = BitVec.ofNat 32 (1024 + p.val) then v14 (ix2 s q) else 0) :=
  slab_apply v14 (k0_pay5 (F := Ideal) v15) 1024 prev p q

/-- The zero fill of the accumulator. -/
theorem pay3_apply (y : S8192x256.Idx) : k0_pay3 (F := Ideal) y = 0 := by
  show shapeCast S8192x256 (broadcast S8192x256 (Scalar.ofBits (F := Ideal) .f32 0x00000000#32)) shapeCasts_S8192x256_S8192x256 y = 0
  rw [shapeCast_self]
  exact Ideal.ofBits_zero_f32

/-! ## The normalised block

Entry (s, q) of the block the products take as their right operand is the block's entry times the reciprocal of the
row's clamped Euclidean norm: the specification's normalised entry of the block. -/

/-- A row's sum of squares: the lane sum over the 256 columns. -/
theorem rowsum_apply (v4 : FVec Ideal S1024x256 .f32) (hφ : FKind.Formats .f32)
    (hacc : (0x00000000#32 : BitVec 32) = FKind.add.neutral .f32 hφ) (r : Fin 1024) :
    multiReduction .add [1] S1024 v4 0x00000000#32 reduces_S1024x256_S1024 hφ hacc (ix1 r) = ∑ k : Fin 256, v4 (ix2 r k) := by
  refine (Ideal.multiReduction_add_single v4 0x00000000#32 reduces_S1024x256_S1024 hφ hacc (ix1 r)).trans ?_
  exact Finset.sum_congr rfl fun k _ => congrArg v4 (funext fun a => Fin.ext (by
    match a with
    | ⟨0, _⟩ => rfl
    | ⟨1, _⟩ => rfl))

/-- The row sums as a column: entry (r, 0) is row r's sum. -/
theorem col_apply (v5 : FVec Ideal S1024 .f32) (r : Fin 1024) :
    shapeCast S1024x1 v5 shapeCasts_S1024_S1024x1 (ix2 r (0 : Fin 1)) = v5 (ix1 r) :=
  shapeCast_apply v5 shapeCasts_S1024_S1024x1 (ix2 r (0 : Fin 1)) (ix1 r) (by
    rw [Shape.rowMajor_val_one, Shape.rowMajor_val_two]
    show r.val = r.val * 1 + 0
    omega)

/-- A column broadcast along the 256 columns reads the row's entry. -/
theorem bcast_norm (v11 : FVec Ideal S1024x1 .f32) (r : Fin 1024) (q : Fin 256) :
    broadcastTo S1024x256 v11 broadcasts_S1024x1_S1024x256 (ix2 r q) = v11 (ix2 r 0) :=
  broadcastTo_apply v11 broadcasts_S1024x1_S1024x256 (ix2 r q) (ix2 r 0) (fun a => match a with
    | ⟨0, _⟩ => by show r.val = if (1024 : Nat) = 1 then 0 else r.val; rw [if_neg (by decide)]
    | ⟨1, _⟩ => by show (0 : Nat) = if (1 : Nat) = 1 then 0 else _; rw [if_pos rfl])

theorem pay4_apply (v3 : Vec Ideal S1024x256 .f32) (s : Fin 1024) (q : Fin 256) :
    k0_pay4 v3 (ix2 s q) = Cert.Spec.nrmK v3 s q := by
  unfold Cert.Spec.nrmK Cert.Spec.cnorm
  show v3 (ix2 s q) * broadcastTo S1024x256 (divf (broadcast S1024x1 (Scalar.ofBits (F := Ideal) .f32 0x3F800000#32))
      (maximumf (sqrt (shapeCast S1024x1 (multiReduction (F := Ideal) .add [1] S1024 (mulf v3 v3) 0x00000000#32 reduces_S1024x256_S1024 (.inl rfl) rfl)
        shapeCasts_S1024_S1024x1)) (broadcast S1024x1 (Scalar.ofBits (F := Ideal) .f32 0x2B8CBCCC#32)))) broadcasts_S1024x1_S1024x256 (ix2 s q) = _
  rw [bcast_norm]
  show v3 (ix2 s q) * Ideal.div (Ideal.ofBits .f32 0x3F800000#32) (max (Ideal.sqrt (shapeCast S1024x1
      (multiReduction (F := Ideal) .add [1] S1024 (mulf v3 v3) 0x00000000#32 reduces_S1024x256_S1024 (.inl rfl) rfl) shapeCasts_S1024_S1024x1 (ix2 s (0 : Fin 1))))
      (Ideal.ofBits .f32 0x2B8CBCCC#32)) = _
  rw [col_apply]
  exact congrArg (fun z => v3 (ix2 s q) * Ideal.div Cert.Spec.one (max (Ideal.sqrt z) Cert.Spec.e12))
    (rowsum_apply (mulf v3 v3) (.inl rfl) rfl s)

/-- The labels block as the products read it: itself. -/
theorem pay5_eq (v15 : Vec Ideal S1024x1 .i32) : k0_pay5 (F := Ideal) v15 = v15 := shapeCast_self _ _

end Cert.KernelIdeal.Value0

end
-- ==== Proof.KI.Value0m.lean ====
import proofs.«414420_j57999238365647_3_alg».proof.Proof.Spec
import Idealize.ShloMosaic.Lib.ValueIdx

noncomputable section

open scoped BigOperators

namespace Cert.KernelIdeal.Value0

open Idealize.ShloMosaic Idealize.ShloMosaic.ValueIdx Cert.Spec

/-! ## The accumulation, as mathematics

One grid point adds to the accumulator, at cluster c and column d, the sum over its block's rows labelled c of their
normalised entries in column d. Added up over the points up to n this is the group sum restricted to the bank's blocks
up to n; at the last point it is the specification's group sum. Only associativity and commutativity of the extended
reals' addition enter. -/

/-- What one point adds at (c, d), from its block of the bank and its block of the labels. -/
def upd (x : (⟨2, ![1024, 256]⟩ : Shape).Idx → EReal) (l : (⟨2, ![1024, 1]⟩ : Shape).Idx → BitVec 32)
    (c : Fin 8192) (d : Fin 256) : EReal :=
  ∑ s : Fin 1024, (if l (ix2 s 0) = BitVec.ofNat 32 c.val then nrmK x s d else 0)

/-- The same with the cluster given as a slab's offset plus a row of the slab. -/
theorem upd_at (x : (⟨2, ![1024, 256]⟩ : Shape).Idx → EReal) (l : (⟨2, ![1024, 1]⟩ : Shape).Idx → BitVec 32)
    (c : Fin 8192) (d : Fin 256) (off : ℕ) (p : Fin 1024) (q : Fin 256) (hc : c.val = off + p.val) (hd : d.val = q.val) :
    upd x l c d = ∑ s : Fin 1024, (if l (ix2 s 0) = BitVec.ofNat 32 (off + p.val) then nrmK x s q else 0) := by
  obtain rfl : d = q := Fin.ext hd
  unfold upd
  rw [hc]

/-- Block t's contribution to the group sum at (c, d). -/
def blockTerm (f : (⟨2, ![131072, 256]⟩ : Shape).Idx → EReal) (lab : (⟨1, ![131072]⟩ : Shape).Idx → BitVec 32)
    (c : Fin 8192) (d : Fin 256) (t : Fin 128) : EReal :=
  ∑ s' : Fin 1024, (if lab (ix1 (bankRow t s')) = BitVec.ofNat 32 c.val then nrmK f (bankRow t s') d else 0)

/-- A point's addition is its block's contribution, when its blocks are the bank's and the labels' rows
    1024 t … 1024 t + 1023. -/
theorem upd_block (f : (⟨2, ![131072, 256]⟩ : Shape).Idx → EReal) (lab : (⟨1, ![131072]⟩ : Shape).Idx → BitVec 32)
    (x : (⟨2, ![1024, 256]⟩ : Shape).Idx → EReal) (l : (⟨2, ![1024, 1]⟩ : Shape).Idx → BitVec 32) (t : Fin 128)
    (hx : ∀ (s : Fin 1024) (d : Fin 256), x (ix2 s d) = f (ix2 (bankRow t s) d))
    (hl : ∀ s : Fin 1024, l (ix2 s 0) = lab (ix1 (bankRow t s))) (c : Fin 8192) (d : Fin 256) :
    upd x l c d = blockTerm f lab c d t := by
  unfold upd blockTerm
  refine Finset.sum_congr rfl fun s _ => ?_
  have e : nrmK x s d = nrmK f (bankRow t s) d := by
    unfold nrmK cnorm
    simp only [hx]
  rw [hl s, e]

/-- The group sum restricted to the blocks up to n. -/
def part (f : (⟨2, ![131072, 256]⟩ : Shape).Idx → EReal) (lab : (⟨1, ![131072]⟩ : Shape).Idx → BitVec 32)
    (n : ℕ) (c : Fin 8192) (d : Fin 256) : EReal :=
  ∑ t : Fin 128, (if t.val ≤ n then blockTerm f lab c d t else 0)

theorem sum_le_zero (g : Fin 128 → EReal) : (∑ t : Fin 128, (if t.val ≤ 0 then g t else 0)) = g 0 := by
  rw [Finset.sum_eq_single (0 : Fin 128)]
  · exact if_pos (Nat.le_refl 0)
  · intro t _ ht
    rw [if_neg]
    intro h
    exact ht (Fin.ext (Nat.le_zero.mp h))
  · intro h; exact absurd (Finset.mem_univ _) h

theorem sum_le_succ (g : Fin 128 → EReal) (n : ℕ) (hn : n + 1 < 128) :
    (∑ t : Fin 128, (if t.val ≤ n + 1 then g t else 0)) = (∑ t : Fin 128, (if t.val ≤ n then g t else 0)) + g ⟨n + 1, hn⟩ := by
  have e : ∀ t : Fin 128, (if t.val ≤ n + 1 then g t else 0)
      = (if t.val ≤ n then g t else 0) + (if t = ⟨n + 1, hn⟩ then g t else 0) := by
    intro t
    by_cases h1 : t.val ≤ n
    · have h3 : t ≠ ⟨n + 1, hn⟩ := fun h => by rw [h] at h1; exact absurd h1 (by show ¬(n + 1 ≤ n); omega)
      rw [if_pos (by omega), if_pos h1, if_neg h3, add_zero]
    · by_cases h2 : t.val = n + 1
      · rw [if_pos (by omega), if_neg h1, if_pos (Fin.ext h2), zero_add]
      · have h3 : t ≠ ⟨n + 1, hn⟩ := fun h => h2 (congrArg Fin.val h)
        rw [if_neg (by omega), if_neg h1, if_neg h3, add_zero]
  rw [Finset.sum_congr rfl fun t _ => e t, Finset.sum_add_distrib, Finset.sum_ite_eq' Finset.univ (⟨n + 1, hn⟩ : Fin 128) g,
    if_pos (Finset.mem_univ _)]

theorem part_zero (f : (⟨2, ![131072, 256]⟩ : Shape).Idx → EReal) (lab : (⟨1, ![131072]⟩ : Shape).Idx → BitVec 32)
    (c : Fin 8192) (d : Fin 256) : part f lab 0 c d = blockTerm f lab c d 0 :=
  sum_le_zero _

theorem part_succ (f : (⟨2, ![131072, 256]⟩ : Shape).Idx → EReal) (lab : (⟨1, ![131072]⟩ : Shape).Idx → BitVec 32)
    (n : ℕ) (hn : n + 1 < 128) (c : Fin 8192) (d : Fin 256) :
    part f lab (n + 1) c d = part f lab n c d + blockTerm f lab c d ⟨n + 1, hn⟩ :=
  sum_le_succ _ n hn

/-- Over all 128 blocks: the specification's group sum. -/
theorem part_last (f : (⟨2, ![131072, 256]⟩ : Shape).Idx → EReal) (lab : (⟨1, ![131072]⟩ : Shape).Idx → BitVec 32)
    (c : Fin 8192) (d : Fin 256) : part f lab 127 c d = gsK f lab c d := by
  unfold part gsK blockTerm
  exact Finset.sum_congr rfl fun t _ => if_pos (by have := t.isLt; omega)

end Cert.KernelIdeal.Value0

end
-- ==== Proof.KI.Value0b.lean ====
import proofs.«414420_j57999238365647_3_alg».proof.Proof.KI.Region0
import proofs.«414420_j57999238365647_3_alg».proof.Proof.KI.Value0a
import proofs.«414420_j57999238365647_3_alg».proof.Proof.KI.Value0m
import Idealize.ShloMosaic.Lib.Pipeline.Value
import Idealize.ShloMosaic.Lib.Pipeline.CanonAppend
import Idealize.ShloMosaic.Lib.Tactic

set_option maxRecDepth 16384

noncomputable section

open scoped BigOperators

namespace Cert.KernelIdeal.Value0

open Cert.KernelIdeal Cert.KernelIdeal.Gen Cert.KernelIdeal.Region0
open Idealize.ShloMosaic Idealize.ShloMosaic.ValueIdx Idealize.ShloMosaic.TcCoe Idealize.ShloMosaic.Tactic Idealize.SL.Sem

/-! ## One point's step on the accumulator

After a point the accumulator holds, at (c, d), what it held before plus the point's addition there: each of its eight
slabs of 1024 rows is loaded, added the one-hot product and stored back, and the slabs tile the accumulator. -/

/-- The accumulator after a point, from the accumulator before it and the point's two blocks. -/
def stepAcc (x0 : Vec Ideal S1024x256 .f32) (x1 : Vec Ideal S1024x1 .i32) (xs : S8192x256.Idx → EReal) :
    S8192x256.Idx → EReal :=
  fun j => xs j + upd x0 x1 ⟨(j 0).val, idx2_lt0 j⟩ ⟨(j 1).val, idx2_lt1 j⟩

theorem hz : (![0, 0] : Fin 2 → Nat) = fun _ => 0 := funext fun a => by fin_cases a <;> rfl

/-- A whole load of the block of the bank reads the block; -/
theorem load_x (a1 : Memref sig .tc .vmem S1024x256 .f32) (h1 : a1.IsWhole) (x0 : Vec Ideal S1024x256 .f32) :
    View.readAt (Elt Ideal) a1.view (Rect.unit ![0, 0] S1024x256.size inb_S1024x256_S1024x256_0_0).toLoadRect (h1.unread x0) = x0 := by
  rw [View.readAt_eq_ld, h1.read_unread, View.ld_unit_zero (S := S1024x256) hz]

/-- of the block of labels likewise; -/
theorem load_l (a2 : Memref sig .tc .vmem S1024x1 .i32) (h2 : a2.IsWhole) (x1 : Vec Ideal S1024x1 .i32) :
    View.readAt (Elt Ideal) a2.view (Rect.unit ![0, 0] S1024x1.size inb_S1024x1_S1024x1_0_0).toLoadRect (h2.unread x1) = x1 := by
  rw [View.readAt_eq_ld, h2.read_unread, View.ld_unit_zero (S := S1024x1) hz]

/-- and a load of a slab of the accumulator reads the accumulator at the slab's rows. -/
theorem load_slab (a4 : Memref sig .tc .vmem S8192x256 .f32) (h4 : a4.IsWhole) (xs : Vec Ideal S8192x256 .f32)
    (R : Rect S8192x256) (y : R.shape.Idx) :
    View.readAt (Elt Ideal) a4.view R.toLoadRect (h4.unread xs) y = xs (R.emb y) := by
  rw [View.readAt_eq_ld, h4.read_unread]
  rfl

/-- A slab's stored payload, read through the payload lemmas, is the step at the slab's place in the accumulator. -/
theorem slab_close (x0 : Vec Ideal S1024x256 .f32) (x1 : Vec Ideal S1024x1 .i32) (xs : S8192x256.Idx → EReal)
    (v14 : FVec Ideal S1024x256 .bf16) (v16 : IVec S1024x1 32) (prev : S1024x256.Idx → EReal) (off : ℕ)
    (inb : ∀ a, (![off, 0] : Fin 2 → ℕ) a + S1024x256.size a ≤ S8192x256.size a) (p : Fin 1024) (q : Fin 256)
    (h14 : v14 = k0_pay4 x0) (h16 : v16 = k0_pay5 (F := Ideal) x1)
    (hprev : prev (ix2 p q) = xs ((Rect.unit (s := S8192x256) ![off, 0] S1024x256.size inb).emb (ix2 p q))) :
    prev (ix2 p q) + (∑ s : Fin 1024, (if v16 (ix2 s 0) = BitVec.ofNat 32 (off + p.val) then v14 (ix2 s q) else 0))
      = stepAcc x0 x1 xs ((Rect.unit (s := S8192x256) ![off, 0] S1024x256.size inb).emb (ix2 p q)) := by
  subst h14 h16
  refine (congrArg (· + _) hprev).trans ?_
  refine congrArg (xs ((Rect.unit (s := S8192x256) ![off, 0] S1024x256.size inb).emb (ix2 p q)) + ·) ?_
  refine Eq.trans ?_ (upd_at x0 x1 _ _ off p q (by show off + 1 * p.val = off + p.val; omega)
    (by show 0 + 1 * q.val = q.val; omega)).symm
  exact Finset.sum_congr rfl fun s _ => by rw [pay5_eq, pay4_apply]

/-! ### Points after the first: the slabs are loaded from what the point before left -/

theorem sout_B_apply (c : Dev nD) (i : grid0.Coords) (a1 : Memref sig .tc .vmem S1024x256 .f32) (h1 : a1.IsWhole)
    (a2 : Memref sig .tc .vmem S1024x1 .i32) (h2 : a2.IsWhole) (a3 : Memref sig .tc .vmem S8192x256 .f32) (h3 : a3.IsWhole)
    (a4 : Memref sig .tc .vmem S8192x256 .f32) (h4 : a4.IsWhole) (hc0 : ¬cond0_0 i) (hc1 : ¬cond0_1 i)
    (x0 : Vec Ideal S1024x256 .f32) (x1 : Vec Ideal S1024x1 .i32) (xs : Vec Ideal S8192x256 .f32) (y : S8192x256.Idx) :
    sout_B (F := Ideal) c i a1 h1 a2 h2 a3 h3 a4 h4 hc0 hc1 x0 x1 xs y = stepAcc x0 x1 xs y := by
  unfold sout_B
  rw [View.read_writes_eq_canon _ _ _ (scover_B c i a1 h1 a2 h2 a3 h3 a4 h4 hc0 hc1 x0 x1 xs)]
  refine View.canon_apply_of_pieces (stepAcc x0 x1 xs) _ ?_ y (scover_B c i a1 h1 a2 h2 a3 h3 a4 h4 hc0 hc1 x0 x1 xs y)
  unfold kernelRun_B
  dsimp only
  sl_unfold_words
  intro p hp x
  simp only [List.mem_cons, List.mem_singleton, List.not_mem_nil, or_false] at hp
  rcases hp with rfl | rfl | rfl | rfl | rfl | rfl | rfl | rfl
  · obtain ⟨p', q, rfl⟩ : ∃ (p' : Fin 1024) (q : Fin 256), x = ix2 p' q := ⟨x 0, x 1, eq_ix2 x⟩
    refine (pay2_apply _ _ _ p' q).trans ?_
    exact slab_close x0 x1 xs _ _ _ 7168 inb_S8192x256_S1024x256_7168_0 p' q (congrArg k0_pay4 (load_x a1 h1 x0))
      (congrArg k0_pay5 (load_l a2 h2 x1))
      (load_slab a4 h4 xs (Rect.unit ![7168, 0] S1024x256.size inb_S8192x256_S1024x256_7168_0) (ix2 p' q))
  · obtain ⟨p', q, rfl⟩ : ∃ (p' : Fin 1024) (q : Fin 256), x = ix2 p' q := ⟨x 0, x 1, eq_ix2 x⟩
    refine (pay1_14_apply _ _ _ p' q).trans ?_
    exact slab_close x0 x1 xs _ _ _ 6144 inb_S8192x256_S1024x256_6144_0 p' q (congrArg k0_pay4 (load_x a1 h1 x0))
      (congrArg k0_pay5 (load_l a2 h2 x1))
      (load_slab a4 h4 xs (Rect.unit ![6144, 0] S1024x256.size inb_S8192x256_S1024x256_6144_0) (ix2 p' q))
  · obtain ⟨p', q, rfl⟩ : ∃ (p' : Fin 1024) (q : Fin 256), x = ix2 p' q := ⟨x 0, x 1, eq_ix2 x⟩
    refine (pay13_apply _ _ _ p' q).trans ?_
    exact slab_close x0 x1 xs _ _ _ 5120 inb_S8192x256_S1024x256_5120_0 p' q (congrArg k0_pay4 (load_x a1 h1 x0))
      (congrArg k0_pay5 (load_l a2 h2 x1))
      (load_slab a4 h4 xs (Rect.unit ![5120, 0] S1024x256.size inb_S8192x256_S1024x256_5120_0) (ix2 p' q))
  · obtain ⟨p', q, rfl⟩ : ∃ (p' : Fin 1024) (q : Fin 256), x = ix2 p' q := ⟨x 0, x 1, eq_ix2 x⟩
    refine (pay12_apply _ _ _ p' q).trans ?_
    exact slab_close x0 x1 xs _ _ _ 4096 inb_S8192x256_S1024x256_4096_0 p' q (congrArg k0_pay4 (load_x a1 h1 x0))
      (congrArg k0_pay5 (load_l a2 h2 x1))
      (load_slab a4 h4 xs (Rect.unit ![4096, 0] S1024x256.size inb_S8192x256_S1024x256_4096_0) (ix2 p' q))
  · obtain ⟨p', q, rfl⟩ : ∃ (p' : Fin 1024) (q : Fin 256), x = ix2 p' q := ⟨x 0, x 1, eq_ix2 x⟩
    refine (pay10_apply _ _ _ p' q).trans ?_
    exact slab_close x0 x1 xs _ _ _ 3072 inb_S8192x256_S1024x256_3072_0 p' q (congrArg k0_pay4 (load_x a1 h1 x0))
      (congrArg k0_pay5 (load_l a2 h2 x1))
      (load_slab a4 h4 xs (Rect.unit ![3072, 0] S1024x256.size inb_S8192x256_S1024x256_3072_0) (ix2 p' q))
  · obtain ⟨p', q, rfl⟩ : ∃ (p' : Fin 1024) (q : Fin 256), x = ix2 p' q := ⟨x 0, x 1, eq_ix2 x⟩
    refine (pay9_apply _ _ _ p' q).trans ?_
    exact slab_close x0 x1 xs _ _ _ 2048 inb_S8192x256_S1024x256_2048_0 p' q (congrArg k0_pay4 (load_x a1 h1 x0))
      (congrArg k0_pay5 (load_l a2 h2 x1))
      (load_slab a4 h4 xs (Rect.unit ![2048, 0] S1024x256.size inb_S8192x256_S1024x256_2048_0) (ix2 p' q))
  · obtain ⟨p', q, rfl⟩ : ∃ (p' : Fin 1024) (q : Fin 256), x = ix2 p' q := ⟨x 0, x 1, eq_ix2 x⟩
    refine (pay8_apply _ _ p' q _).trans ?_
    exact slab_close x0 x1 xs _ _ _ 1024 inb_S8192x256_S1024x256_1024_0 p' q (congrArg k0_pay4 (load_x a1 h1 x0))
      (congrArg k0_pay5 (load_l a2 h2 x1))
      (load_slab a4 h4 xs (Rect.unit ![1024, 0] S1024x256.size inb_S8192x256_S1024x256_1024_0) (ix2 p' q))
  · obtain ⟨p', q, rfl⟩ : ∃ (p' : Fin 1024) (q : Fin 256), x = ix2 p' q := ⟨x 0, x 1, eq_ix2 x⟩
    refine (pay6_apply _ p' q _ _).trans ?_
    exact slab_close x0 x1 xs _ _ _ 0 inb_S8192x256_S1024x256_0_0 p' q (congrArg k0_pay4 (load_x a1 h1 x0))
      (congrArg k0_pay5 (load_l a2 h2 x1))
      (load_slab a4 h4 xs (Rect.unit ![0, 0] S1024x256.size inb_S8192x256_S1024x256_0_0) (ix2 p' q))

/-! ### The last point: the same step, and the accumulator copied whole into the output window -/

/-- Every piece the last point stores into the accumulator is the step at the piece's place. -/
theorem pieces_C (c : Dev nD) (i : grid0.Coords) (a1 : Memref sig .tc .vmem S1024x256 .f32) (h1 : a1.IsWhole)
    (a2 : Memref sig .tc .vmem S1024x1 .i32) (h2 : a2.IsWhole) (a3 : Memref sig .tc .vmem S8192x256 .f32) (h3 : a3.IsWhole)
    (a4 : Memref sig .tc .vmem S8192x256 .f32) (h4 : a4.IsWhole) (hc0 : ¬cond0_0 i) (hc1 : cond0_1 i)
    (x0 : Vec Ideal S1024x256 .f32) (x1 : Vec Ideal S1024x1 .i32) (xs : Vec Ideal S8192x256 .f32) :
    ∀ p ∈ (kernelRun_C (F := Ideal) c i a1 h1 a2 h2 a3 h3 a4 h4 hc0 hc1 x0 x1 xs).2.1,
      ∀ x : p.1.shape.Idx, p.2 x = stepAcc x0 x1 xs (p.1.emb x) := by
  unfold kernelRun_C
  dsimp only
  sl_unfold_words
  intro p hp x
  simp only [List.mem_cons, List.mem_singleton, List.not_mem_nil, or_false] at hp
  rcases hp with rfl | rfl | rfl | rfl | rfl | rfl | rfl | rfl
  · obtain ⟨p', q, rfl⟩ : ∃ (p' : Fin 1024) (q : Fin 256), x = ix2 p' q := ⟨x 0, x 1, eq_ix2 x⟩
    refine (pay2_apply _ _ _ p' q).trans ?_
    exact slab_close x0 x1 xs _ _ _ 7168 inb_S8192x256_S1024x256_7168_0 p' q (congrArg k0_pay4 (load_x a1 h1 x0))
      (congrArg k0_pay5 (load_l a2 h2 x1))
      (load_slab a4 h4 xs (Rect.unit ![7168, 0] S1024x256.size inb_S8192x256_S1024x256_7168_0) (ix2 p' q))
  · obtain ⟨p', q, rfl⟩ : ∃ (p' : Fin 1024) (q : Fin 256), x = ix2 p' q := ⟨x 0, x 1, eq_ix2 x⟩
    refine (pay1_14_apply _ _ _ p' q).trans ?_
    exact slab_close x0 x1 xs _ _ _ 6144 inb_S8192x256_S1024x256_6144_0 p' q (congrArg k0_pay4 (load_x a1 h1 x0))
      (congrArg k0_pay5 (load_l a2 h2 x1))
      (load_slab a4 h4 xs (Rect.unit ![6144, 0] S1024x256.size inb_S8192x256_S1024x256_6144_0) (ix2 p' q))
  · obtain ⟨p', q, rfl⟩ : ∃ (p' : Fin 1024) (q : Fin 256), x = ix2 p' q := ⟨x 0, x 1, eq_ix2 x⟩
    refine (pay13_apply _ _ _ p' q).trans ?_
    exact slab_close x0 x1 xs _ _ _ 5120 inb_S8192x256_S1024x256_5120_0 p' q (congrArg k0_pay4 (load_x a1 h1 x0))
      (congrArg k0_pay5 (load_l a2 h2 x1))
      (load_slab a4 h4 xs (Rect.unit ![5120, 0] S1024x256.size inb_S8192x256_S1024x256_5120_0) (ix2 p' q))
  · obtain ⟨p', q, rfl⟩ : ∃ (p' : Fin 1024) (q : Fin 256), x = ix2 p' q := ⟨x 0, x 1, eq_ix2 x⟩
    refine (pay12_apply _ _ _ p' q).trans ?_
    exact slab_close x0 x1 xs _ _ _ 4096 inb_S8192x256_S1024x256_4096_0 p' q (congrArg k0_pay4 (load_x a1 h1 x0))
      (congrArg k0_pay5 (load_l a2 h2 x1))
      (load_slab a4 h4 xs (Rect.unit ![4096, 0] S1024x256.size inb_S8192x256_S1024x256_4096_0) (ix2 p' q))
  · obtain ⟨p', q, rfl⟩ : ∃ (p' : Fin 1024) (q : Fin 256), x = ix2 p' q := ⟨x 0, x 1, eq_ix2 x⟩
    refine (pay10_apply _ _ _ p' q).trans ?_
    exact slab_close x0 x1 xs _ _ _ 3072 inb_S8192x256_S1024x256_3072_0 p' q (congrArg k0_pay4 (load_x a1 h1 x0))
      (congrArg k0_pay5 (load_l a2 h2 x1))
      (load_slab a4 h4 xs (Rect.unit ![3072, 0] S1024x256.size inb_S8192x256_S1024x256_3072_0) (ix2 p' q))
  · obtain ⟨p', q, rfl⟩ : ∃ (p' : Fin 1024) (q : Fin 256), x = ix2 p' q := ⟨x 0, x 1, eq_ix2 x⟩
    refine (pay9_apply _ _ _ p' q).trans ?_
    exact slab_close x0 x1 xs _ _ _ 2048 inb_S8192x256_S1024x256_2048_0 p' q (congrArg k0_pay4 (load_x a1 h1 x0))
      (congrArg k0_pay5 (load_l a2 h2 x1))
      (load_slab a4 h4 xs (Rect.unit ![2048, 0] S1024x256.size inb_S8192x256_S1024x256_2048_0) (ix2 p' q))
  · obtain ⟨p', q, rfl⟩ : ∃ (p' : Fin 1024) (q : Fin 256), x = ix2 p' q := ⟨x 0, x 1, eq_ix2 x⟩
    refine (pay8_apply _ _ p' q _).trans ?_
    exact slab_close x0 x1 xs _ _ _ 1024 inb_S8192x256_S1024x256_1024_0 p' q (congrArg k0_pay4 (load_x a1 h1 x0))
      (congrArg k0_pay5 (load_l a2 h2 x1))
      (load_slab a4 h4 xs (Rect.unit ![1024, 0] S1024x256.size inb_S8192x256_S1024x256_1024_0) (ix2 p' q))
  · obtain ⟨p', q, rfl⟩ : ∃ (p' : Fin 1024) (q : Fin 256), x = ix2 p' q := ⟨x 0, x 1, eq_ix2 x⟩
    refine (pay6_apply _ p' q _ _).trans ?_
    exact slab_close x0 x1 xs _ _ _ 0 inb_S8192x256_S1024x256_0_0 p' q (congrArg k0_pay4 (load_x a1 h1 x0))
      (congrArg k0_pay5 (load_l a2 h2 x1))
      (load_slab a4 h4 xs (Rect.unit ![0, 0] S1024x256.size inb_S8192x256_S1024x256_0_0) (ix2 p' q))

theorem sout_C_apply (c : Dev nD) (i : grid0.Coords) (a1 : Memref sig .tc .vmem S1024x256 .f32) (h1 : a1.IsWhole)
    (a2 : Memref sig .tc .vmem S1024x1 .i32) (h2 : a2.IsWhole) (a3 : Memref sig .tc .vmem S8192x256 .f32) (h3 : a3.IsWhole)
    (a4 : Memref sig .tc .vmem S8192x256 .f32) (h4 : a4.IsWhole) (hc0 : ¬cond0_0 i) (hc1 : cond0_1 i)
    (x0 : Vec Ideal S1024x256 .f32) (x1 : Vec Ideal S1024x1 .i32) (xs : Vec Ideal S8192x256 .f32) (y : S8192x256.Idx) :
    sout_C (F := Ideal) c i a1 h1 a2 h2 a3 h3 a4 h4 hc0 hc1 x0 x1 xs y = stepAcc x0 x1 xs y := by
  unfold sout_C
  rw [View.read_writes_eq_canon _ _ _ (scover_C c i a1 h1 a2 h2 a3 h3 a4 h4 hc0 hc1 x0 x1 xs)]
  exact View.canon_apply_of_pieces (stepAcc x0 x1 xs) _ (pieces_C c i a1 h1 a2 h2 a3 h3 a4 h4 hc0 hc1 x0 x1 xs) y
    (scover_C c i a1 h1 a2 h2 a3 h3 a4 h4 hc0 hc1 x0 x1 xs y)

/-- The output window's buffer after the last point: the accumulator read back whole after its eight stores. -/
theorem out_C_apply (c : Dev nD) (i : grid0.Coords) (a1 : Memref sig .tc .vmem S1024x256 .f32) (h1 : a1.IsWhole)
    (a2 : Memref sig .tc .vmem S1024x1 .i32) (h2 : a2.IsWhole) (a3 : Memref sig .tc .vmem S8192x256 .f32) (h3 : a3.IsWhole)
    (a4 : Memref sig .tc .vmem S8192x256 .f32) (h4 : a4.IsWhole) (hc0 : ¬cond0_0 i) (hc1 : cond0_1 i)
    (x0 : Vec Ideal S1024x256 .f32) (x1 : Vec Ideal S1024x1 .i32) (xs : Vec Ideal S8192x256 .f32) (y : S8192x256.Idx) :
    out_C (F := Ideal) c i a1 h1 a2 h2 a3 h3 a4 h4 hc0 hc1 x0 x1 xs y = stepAcc x0 x1 xs y := by
  unfold out_C
  rw [View.read_writes_eq_canon _ _ _ (cover_C c i a1 h1 a2 h2 a3 h3 a4 h4 hc0 hc1 x0 x1 xs)]
  have hL : (kernelRun_C (F := Ideal) c i a1 h1 a2 h2 a3 h3 a4 h4 hc0 hc1 x0 x1 xs).1
      = [⟨Rect.unit ![0, 0] S8192x256.size inb_S8192x256_S8192x256_0_0,
          a4.view.readCov (kernelRun_C (F := Ideal) c i a1 h1 a2 h2 a3 h3 a4 h4 hc0 hc1 x0 x1 xs).2.1
            (Rect.unit ![0, 0] S8192x256.size inb_S8192x256_S8192x256_0_0).toLoadRect⟩] := rfl
  rw [hL, View.canon_unit_zero hz, View.readCov_eq_canon']
  show View.canon _ ((Rect.unit ![0, 0] S8192x256.size inb_S8192x256_S8192x256_0_0).emb y) = _
  have hy : (Rect.unit (s := S8192x256) ![0, 0] S8192x256.size inb_S8192x256_S8192x256_0_0).emb y = y :=
    funext fun a => Fin.ext (by
      match a with
      | ⟨0, _⟩ => show 0 + 1 * (y 0).val = (y 0).val; omega
      | ⟨1, _⟩ => show 0 + 1 * (y 1).val = (y 1).val; omega)
  rw [hy]
  exact View.canon_apply_of_pieces (stepAcc x0 x1 xs) _ (pieces_C c i a1 h1 a2 h2 a3 h3 a4 h4 hc0 hc1 x0 x1 xs) y
    (scover_C c i a1 h1 a2 h2 a3 h3 a4 h4 hc0 hc1 x0 x1 xs y)

/-! ### The first point: the accumulator is zeroed first, so every slab is loaded as zeros -/

/-- A load, after the zero fill and stores into slabs it does not meet, reads zeros. -/
theorem readCov_under (v : View sig .tc .vmem S8192x256 .f32) (B : LoadRect S8192x256) :
    ∀ (L : List (View.Piece (Elt Ideal) S8192x256 .f32)) (hd : ∀ p ∈ L, Disjoint p.1.set B.set) (x : B.shape.Idx),
      v.readCov (L ++ [(⟨Rect.unit ![0, 0] S8192x256.size inb_S8192x256_S8192x256_0_0, k0_pay3 (F := Ideal)⟩ : View.Piece (Elt Ideal) S8192x256 .f32)]) B x = 0
  | [], _, x => by
    show v.readCov [(⟨Rect.unit ![0, 0] S8192x256.size inb_S8192x256_S8192x256_0_0, k0_pay3 (F := Ideal)⟩ : View.Piece (Elt Ideal) S8192x256 .f32)] B x = 0
    rw [View.readCov_eq_canon']
    show View.canon [(⟨Rect.unit ![0, 0] S8192x256.size inb_S8192x256_S8192x256_0_0, k0_pay3 (F := Ideal)⟩ : View.Piece (Elt Ideal) S8192x256 .f32)] (B.idx x) = 0
    rw [View.canon_unit_zero hz]
    exact pay3_apply _
  | p :: L, hd, x => by
    rw [List.cons_append, View.readCov_cons_of_disjoint _ _ _ _ (hd p List.mem_cons_self)]
    exact readCov_under v B L (fun q hq => hd q (List.mem_cons_of_mem _ hq)) x

/-- Eight stores that are blocks of one function, made after any earlier store, leave that function wherever one of
    them covers. -/
theorem canon_slabs_over (G : S8192x256.Idx → EReal) (a b c d e f g h z : View.Piece (Elt Ideal) S8192x256 .f32)
    (hp : ∀ p ∈ [a, b, c, d, e, f, g, h], ∀ x : p.1.shape.Idx, p.2 x = G (p.1.emb x)) (y : S8192x256.Idx)
    (hy : ∃ p ∈ [a, b, c, d, e, f, g, h], y ∈ p.1.set) : View.canon [a, b, c, d, e, f, g, h, z] y = G y := by
  show View.canon ([a, b, c, d, e, f, g, h] ++ [z]) y = G y
  exact View.canon_append_of_pieces (Val := Elt Ideal) (e := EltTy.f32) G [z] [a, b, c, d, e, f, g, h] hp y hy

theorem sout_A_apply (c : Dev nD) (i : grid0.Coords) (a1 : Memref sig .tc .vmem S1024x256 .f32) (h1 : a1.IsWhole)
    (a2 : Memref sig .tc .vmem S1024x1 .i32) (h2 : a2.IsWhole) (a3 : Memref sig .tc .vmem S8192x256 .f32) (h3 : a3.IsWhole)
    (a4 : Memref sig .tc .vmem S8192x256 .f32) (h4 : a4.IsWhole) (hc0 : cond0_0 i) (hc1 : ¬cond0_1 i)
    (x0 : Vec Ideal S1024x256 .f32) (x1 : Vec Ideal S1024x1 .i32) (y : S8192x256.Idx) :
    sout_A (F := Ideal) c i a1 h1 a2 h2 a3 h3 a4 h4 hc0 hc1 x0 x1 y = stepAcc x0 x1 (fun _ => 0) y := by
  unfold sout_A
  rw [View.read_writes_eq_canon _ _ _ (scover_A c i a1 h1 a2 h2 a3 h3 a4 h4 hc0 hc1 x0 x1)]
  unfold kernelRun_A
  dsimp only
  refine canon_slabs_over (stepAcc x0 x1 (fun _ => 0)) _ _ _ _ _ _ _ _ _ ?_ y ?_
  swap
  · exact View.cover_of_tiledL (s := S8192x256) _ S1024x256.size (by sl_kernel_rfl) y
  intro p hp x
  simp only [List.mem_cons, List.mem_singleton, List.not_mem_nil, or_false] at hp
  rcases hp with rfl | rfl | rfl | rfl | rfl | rfl | rfl | rfl
  · obtain ⟨p', q, rfl⟩ : ∃ (p' : Fin 1024) (q : Fin 256), x = ix2 p' q := ⟨x 0, x 1, eq_ix2 x⟩
    refine (pay2_apply _ _ _ p' q).trans ?_
    refine slab_close x0 x1 (fun _ => 0) _ _ _ 7168 inb_S8192x256_S1024x256_7168_0 p' q (congrArg k0_pay4 (load_x a1 h1 x0))
      (congrArg k0_pay5 (load_l a2 h2 x1))
      (readCov_under a4.view (Rect.unit (s := S8192x256) ![7168, 0] S1024x256.size inb_S8192x256_S1024x256_7168_0).toLoadRect [_, _, _, _, _, _, _] ?_ (ix2 p' q))
    intro r hr
    simp only [List.mem_cons, List.mem_singleton, List.not_mem_nil, or_false] at hr
    rcases hr with rfl | rfl | rfl | rfl | rfl | rfl | rfl <;> (dsimp only; exact Rect.unit_disjoint 0 (by decide))
  · obtain ⟨p', q, rfl⟩ : ∃ (p' : Fin 1024) (q : Fin 256), x = ix2 p' q := ⟨x 0, x 1, eq_ix2 x⟩
    refine (pay1_14_apply _ _ _ p' q).trans ?_
    refine slab_close x0 x1 (fun _ => 0) _ _ _ 6144 inb_S8192x256_S1024x256_6144_0 p' q (congrArg k0_pay4 (load_x a1 h1 x0))
      (congrArg k0_pay5 (load_l a2 h2 x1))
      (readCov_under a4.view (Rect.unit (s := S8192x256) ![6144, 0] S1024x256.size inb_S8192x256_S1024x256_6144_0).toLoadRect [_, _, _, _, _, _] ?_ (ix2 p' q))
    intro r hr
    simp only [List.mem_cons, List.mem_singleton, List.not_mem_nil, or_false] at hr
    rcases hr with rfl | rfl | rfl | rfl | rfl | rfl <;> (dsimp only; exact Rect.unit_disjoint 0 (by decide))
  · obtain ⟨p', q, rfl⟩ : ∃ (p' : Fin 1024) (q : Fin 256), x = ix2 p' q := ⟨x 0, x 1, eq_ix2 x⟩
    refine (pay13_apply _ _ _ p' q).trans ?_
    refine slab_close x0 x1 (fun _ => 0) _ _ _ 5120 inb_S8192x256_S1024x256_5120_0 p' q (congrArg k0_pay4 (load_x a1 h1 x0))
      (congrArg k0_pay5 (load_l a2 h2 x1))
      (readCov_under a4.view (Rect.unit (s := S8192x256) ![5120, 0] S1024x256.size inb_S8192x256_S1024x256_5120_0).toLoadRect [_, _, _, _, _] ?_ (ix2 p' q))
    intro r hr
    simp only [List.mem_cons, List.mem_singleton, List.not_mem_nil, or_false] at hr
    rcases hr with rfl | rfl | rfl | rfl | rfl <;> (dsimp only; exact Rect.unit_disjoint 0 (by decide))
  · obtain ⟨p', q, rfl⟩ : ∃ (p' : Fin 1024) (q : Fin 256), x = ix2 p' q := ⟨x 0, x 1, eq_ix2 x⟩
    refine (pay12_apply _ _ _ p' q).trans ?_
    refine slab_close x0 x1 (fun _ => 0) _ _ _ 4096 inb_S8192x256_S1024x256_4096_0 p' q (congrArg k0_pay4 (load_x a1 h1 x0))
      (congrArg k0_pay5 (load_l a2 h2 x1))
      (readCov_under a4.view (Rect.unit (s := S8192x256) ![4096, 0] S1024x256.size inb_S8192x256_S1024x256_4096_0).toLoadRect [_, _, _, _] ?_ (ix2 p' q))
    intro r hr
    simp only [List.mem_cons, List.mem_singleton, List.not_mem_nil, or_false] at hr
    rcases hr with rfl | rfl | rfl | rfl <;> (dsimp only; exact Rect.unit_disjoint 0 (by decide))
  · obtain ⟨p', q, rfl⟩ : ∃ (p' : Fin 1024) (q : Fin 256), x = ix2 p' q := ⟨x 0, x 1, eq_ix2 x⟩
    refine (pay10_apply _ _ _ p' q).trans ?_
    refine slab_close x0 x1 (fun _ => 0) _ _ _ 3072 inb_S8192x256_S1024x256_3072_0 p' q (congrArg k0_pay4 (load_x a1 h1 x0))
      (congrArg k0_pay5 (load_l a2 h2 x1))
      (readCov_under a4.view (Rect.unit (s := S8192x256) ![3072, 0] S1024x256.size inb_S8192x256_S1024x256_3072_0).toLoadRect [_, _, _] ?_ (ix2 p' q))
    intro r hr
    simp only [List.mem_cons, List.mem_singleton, List.not_mem_nil, or_false] at hr
    rcases hr with rfl | rfl | rfl <;> (dsimp only; exact Rect.unit_disjoint 0 (by decide))
  · obtain ⟨p', q, rfl⟩ : ∃ (p' : Fin 1024) (q : Fin 256), x = ix2 p' q := ⟨x 0, x 1, eq_ix2 x⟩
    refine (pay9_apply _ _ _ p' q).trans ?_
    refine slab_close x0 x1 (fun _ => 0) _ _ _ 2048 inb_S8192x256_S1024x256_2048_0 p' q (congrArg k0_pay4 (load_x a1 h1 x0))
      (congrArg k0_pay5 (load_l a2 h2 x1))
      (readCov_under a4.view (Rect.unit (s := S8192x256) ![2048, 0] S1024x256.size inb_S8192x256_S1024x256_2048_0).toLoadRect [_, _] ?_ (ix2 p' q))
    intro r hr
    simp only [List.mem_cons, List.mem_singleton, List.not_mem_nil, or_false] at hr
    rcases hr with rfl | rfl <;> (dsimp only; exact Rect.unit_disjoint 0 (by decide))
  · obtain ⟨p', q, rfl⟩ : ∃ (p' : Fin 1024) (q : Fin 256), x = ix2 p' q := ⟨x 0, x 1, eq_ix2 x⟩
    refine (pay8_apply _ _ p' q _).trans ?_
    refine slab_close x0 x1 (fun _ => 0) _ _ _ 1024 inb_S8192x256_S1024x256_1024_0 p' q (congrArg k0_pay4 (load_x a1 h1 x0))
      (congrArg k0_pay5 (load_l a2 h2 x1))
      (readCov_under a4.view (Rect.unit (s := S8192x256) ![1024, 0] S1024x256.size inb_S8192x256_S1024x256_1024_0).toLoadRect [_] ?_ (ix2 p' q))
    intro r hr
    simp only [List.mem_cons, List.mem_singleton, List.not_mem_nil, or_false] at hr
    rcases hr with rfl <;> (dsimp only; exact Rect.unit_disjoint 0 (by decide))
  · obtain ⟨p', q, rfl⟩ : ∃ (p' : Fin 1024) (q : Fin 256), x = ix2 p' q := ⟨x 0, x 1, eq_ix2 x⟩
    refine (pay6_apply _ p' q _ _).trans ?_
    refine slab_close x0 x1 (fun _ => 0) _ _ _ 0 inb_S8192x256_S1024x256_0_0 p' q (congrArg k0_pay4 (load_x a1 h1 x0))
      (congrArg k0_pay5 (load_l a2 h2 x1))
      (readCov_under a4.view (Rect.unit (s := S8192x256) ![0, 0] S1024x256.size inb_S8192x256_S1024x256_0_0).toLoadRect [] ?_ (ix2 p' q))
    intro r hr
    simp only [List.not_mem_nil] at hr

end Cert.KernelIdeal.Value0

end
-- ==== Proof.KI.Value0.lean ====
import proofs.«414420_j57999238365647_3_alg».proof.Proof.KI.Value0b
import Idealize.ShloMosaic.Lib.Pipeline.Value

set_option maxRecDepth 16384

noncomputable section

open scoped BigOperators

namespace Cert.KernelIdeal.Value0

open Cert.KernelIdeal Cert.KernelIdeal.Gen Cert.KernelIdeal.Region0
open Idealize.ShloMosaic Idealize.ShloMosaic.ValueIdx Idealize.ShloMosaic.TcCoe Idealize.SL.Sem
open Idealize.ShloMosaic.Pipeline (Dat)

/-! # The value of the group-sum region

The region's output array ends holding the specification's group sums: the accumulator after point n holds the group
sums restricted to the bank's blocks up to n (by induction on the point, each point adding its block's contribution),
the last point copies the accumulator into the output window, and that window's one write-back, at the last point, is
the whole array. -/

variable (V : (c : Dev nD) → (b : Ref sig .tc) → Buf (Elt Ideal) ((c : Thread nD τ).loc b))

/-- The bank as the region finds it, -/
abbrev bank (c : Dev nD) : Vec Ideal S131072x256 .f32 := V c main_arg1
/-- the labels as a column, -/
abbrev labc (c : Dev nD) : Vec Ideal S131072x1 .i32 := V c main_v0
/-- the bank's block at point t, -/
abbrev xblk (c : Dev nD) (t : Fin cfg0.N) : Vec Ideal S1024x256 .f32 := iblk (F := Ideal) V c 0 t
/-- and the labels' block at point t. -/
abbrev lblk (c : Dev nD) (t : Fin cfg0.N) : Vec Ideal S1024x1 .i32 := iblk (F := Ideal) V c 1 t

/-- A point of the grid as a number below 128. -/
def tOf (t : Fin cfg0.N) : Fin 128 := ⟨t.val, lt_of_lt_of_eq t.isLt (show cfg0.N = 128 from N_0)⟩

/-- The windows' block indices, decided over the grid: the two inputs' blocks move down the rows with the point, the
    output's block never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row s of the bank's block at point t is row 1024 t + s of the bank. -/
theorem xblk_apply (c : Dev nD) (t : Fin cfg0.N) (s : Fin 1024) (d : Fin 256) :
    xblk V c t (ix2 s d) = bank V c (ix2 (Cert.Spec.bankRow (tOf t) s) d) := by
  show bank V c (((cfg0.win 0).blk t).view.emb (ix2 s d)) = bank V c (ix2 (Cert.Spec.bankRow (tOf t) s) d)
  obtain ⟨e0, e1, -, -, -, -⟩ := idx_facts t
  refine congrArg (bank V c) (funext fun a => Fin.ext ?_)
  match a with
  | ⟨0, _⟩ => show win0_0.index t (0 : Fin 2) * 1024 + 1 * s.val = 1024 * t.val + s.val; rw [e0]; omega
  | ⟨1, _⟩ => show win0_0.index t (1 : Fin 2) * 256 + 1 * d.val = d.val; rw [e1]; omega

/-- Row s of the labels' block at point t is the label of row 1024 t + s. -/
theorem lblk_apply (c : Dev nD) (t : Fin cfg0.N) (s : Fin 1024) :
    lblk V c t (ix2 s 0) = labc V c (ix2 (Cert.Spec.bankRow (tOf t) s) 0) := by
  show labc V c (((cfg0.win 1).blk t).view.emb (ix2 s 0)) = labc V c (ix2 (Cert.Spec.bankRow (tOf t) s) 0)
  obtain ⟨-, -, e2, e3, -, -⟩ := idx_facts t
  refine congrArg (labc V c) (funext fun a => Fin.ext ?_)
  match a with
  | ⟨0, _⟩ => show win0_1.index t (0 : Fin 2) * 1024 + 1 * s.val = 1024 * t.val + s.val; rw [e2]; omega
  | ⟨1, _⟩ => show win0_1.index t (1 : Fin 2) * 1 + 1 * 0 = 0; rw [e3]

/-! ## The accumulator after each point -/

/-- The first point leaves the step from the zeroed accumulator. -/
theorem acc_A (c : Dev nD) (t : Fin cfg0.N) (h0 : t.val = 0) (h1 : ¬t.val = 127) (y : S8192x256.Idx) :
    (outsAt (F := Ideal) V c t.val t.isLt).2 y = stepAcc (xblk V c t) (lblk V c t) (fun _ => 0) y := by
  rw [outsAt_A V c t h0 h1]
  dsimp only
  exact sout_A_apply c (grid0.coords t) (ms0 t) (hs0 t) (ms1 t) (hs1 t) (ms2 t) (hs2 t) scM (Memref.isWhole_whole _)
    ((hcond0_0 t).mpr h0) (fun h => h1 ((hcond0_1 t).mp h)) (iblk (F := Ideal) V c 0 t) (iblk (F := Ideal) V c 1 t) y

/-- A point strictly between the first and the last leaves the step from what the point before left. -/
theorem acc_B (c : Dev nD) (t : Fin cfg0.N) (h0 : ¬t.val = 0) (h1 : ¬t.val = 127) (y : S8192x256.Idx) :
    (outsAt (F := Ideal) V c t.val t.isLt).2 y
      = stepAcc (xblk V c t) (lblk V c t) (outsAt (F := Ideal) V c (t.val - 1) (Nat.lt_of_le_of_lt (Nat.sub_le _ _) t.isLt)).2 y := by
  rw [outsAt_B V c t h0 h1]
  dsimp only
  exact sout_B_apply c (grid0.coords t) (ms0 t) (hs0 t) (ms1 t) (hs1 t) (ms2 t) (hs2 t) scM (Memref.isWhole_whole _)
    (fun h => h0 ((hcond0_0 t).mp h)) (fun h => h1 ((hcond0_1 t).mp h)) (iblk (F := Ideal) V c 0 t) (iblk (F := Ideal) V c 1 t)
    (outsAt (F := Ideal) V c (t.val - 1) (Nat.lt_of_le_of_lt (Nat.sub_le _ _) t.isLt)).2 y

/-- The last point likewise, -/
theorem acc_C (c : Dev nD) (t : Fin cfg0.N) (h0 : ¬t.val = 0) (h1 : t.val = 127) (y : S8192x256.Idx) :
    (outsAt (F := Ideal) V c t.val t.isLt).2 y
      = stepAcc (xblk V c t) (lblk V c t) (outsAt (F := Ideal) V c (t.val - 1) (Nat.lt_of_le_of_lt (Nat.sub_le _ _) t.isLt)).2 y := by
  rw [outsAt_C V c t h0 h1]
  dsimp only
  exact sout_C_apply c (grid0.coords t) (ms0 t) (hs0 t) (ms1 t) (hs1 t) (ms2 t) (hs2 t) scM (Memref.isWhole_whole _)
    (fun h => h0 ((hcond0_0 t).mp h)) ((hcond0_1 t).mpr h1) (iblk (F := Ideal) V c 0 t) (iblk (F := Ideal) V c 1 t)
    (outsAt (F := Ideal) V c (t.val - 1) (Nat.lt_of_le_of_lt (Nat.sub_le _ _) t.isLt)).2 y

/-- and it leaves the same in the output window's buffer. -/
theorem out_C_eq (c : Dev nD) (t : Fin cfg0.N) (h0 : ¬t.val = 0) (h1 : t.val = 127) (y : S8192x256.Idx) :
    (outsAt (F := Ideal) V c t.val t.isLt).1 y = (outsAt (F := Ideal) V c t.val t.isLt).2 y := by
  rw [outsAt_C V c t h0 h1]
  dsimp only
  exact (out_C_apply c (grid0.coords t) (ms0 t) (hs0 t) (ms1 t) (hs1 t) (ms2 t) (hs2 t) scM (Memref.isWhole_whole _)
    (fun h => h0 ((hcond0_0 t).mp h)) ((hcond0_1 t).mpr h1) (iblk (F := Ideal) V c 0 t) (iblk (F := Ideal) V c 1 t)
    (outsAt (F := Ideal) V c (t.val - 1) (Nat.lt_of_le_of_lt (Nat.sub_le _ _) t.isLt)).2 y).trans
    (sout_C_apply c (grid0.coords t) (ms0 t) (hs0 t) (ms1 t) (hs1 t) (ms2 t) (hs2 t) scM (Memref.isWhole_whole _)
    (fun h => h0 ((hcond0_0 t).mp h)) ((hcond0_1 t).mpr h1) (iblk (F := Ideal) V c 0 t) (iblk (F := Ideal) V c 1 t)
    (outsAt (F := Ideal) V c (t.val - 1) (Nat.lt_of_le_of_lt (Nat.sub_le _ _) t.isLt)).2 y).symm

variable (lab : (⟨1, ![131072]⟩ : Shape).Idx → BitVec 32)

/-- The group sums restricted to the blocks up to n, as contents of the accumulator. -/
def partAt (c : Dev nD) (n : ℕ) : S8192x256.Idx → EReal :=
  fun y => part (bank V c) lab n ⟨(y 0).val, idx2_lt0 y⟩ ⟨(y 1).val, idx2_lt1 y⟩

/-- A point's addition is its block's contribution to the group sums. -/
theorem upd_point (c : Dev nD) (hlab : ∀ s : Fin 131072, labc V c (ix2 s 0) = lab (ix1 s)) (t : Fin cfg0.N)
    (cc : Fin 8192) (d : Fin 256) :
    upd (xblk V c t) (lblk V c t) cc d = blockTerm (bank V c) lab cc d (tOf t) :=
  upd_block (bank V c) lab (xblk V c t) (lblk V c t) (tOf t) (fun s d => xblk_apply V c t s d)
    (fun s => (lblk_apply V c t s).trans (hlab _)) cc d

/-- THE INVARIANT: after point n the accumulator holds the group sums restricted to the blocks up to n. -/
theorem acc_inv (c : Dev nD) (hlab : ∀ s : Fin 131072, labc V c (ix2 s 0) = lab (ix1 s)) :
    ∀ (n : ℕ) (hn : n < cfg0.N) (y : S8192x256.Idx), (outsAt (F := Ideal) V c n hn).2 y = partAt V lab c n y
  | 0, hn, y => by
    refine (acc_A V c ⟨0, hn⟩ rfl (show ¬(0 : ℕ) = 127 by decide) y).trans ?_
    show (0 : EReal) + upd (xblk V c ⟨0, hn⟩) (lblk V c ⟨0, hn⟩) _ _ = part (bank V c) lab 0 _ _
    rw [zero_add, upd_point V lab c hlab, part_zero]
    rfl
  | n + 1, hn, y => by
    have hN : cfg0.N = 128 := N_0
    have step : (outsAt (F := Ideal) V c (n + 1) hn).2 y
        = stepAcc (xblk V c ⟨n + 1, hn⟩) (lblk V c ⟨n + 1, hn⟩) (outsAt (F := Ideal) V c n (Nat.lt_of_succ_lt hn)).2 y := by
      by_cases h127 : n + 1 = 127
      · exact acc_C V c ⟨n + 1, hn⟩ (Nat.succ_ne_zero n) h127 y
      · exact acc_B V c ⟨n + 1, hn⟩ (Nat.succ_ne_zero n) h127 y
    rw [step]
    show (outsAt (F := Ideal) V c n (Nat.lt_of_succ_lt hn)).2 y + upd (xblk V c ⟨n + 1, hn⟩) (lblk V c ⟨n + 1, hn⟩) _ _
      = part (bank V c) lab (n + 1) _ _
    rw [acc_inv c hlab n (Nat.lt_of_succ_lt hn) y, upd_point V lab c hlab, part_succ (bank V c) lab n (by omega)]
    rfl

/-! ## The output array -/

/-- What the output array ends holding: the specification's group sums. -/
abbrev result (c : Dev nD) : S8192x256.Idx → EReal :=
  fun j => Cert.Spec.gsK (bank V c) lab (j 0) (j 1)

/-- The one write-back, at the last point, writes the group sums: the output window's block is the whole array, and
    its buffer holds the accumulator after the last point. -/
theorem flushed_eq (c : Dev nD) (hlab : ∀ s : Fin 131072, labc V c (ix2 s 0) = lab (ix1 s)) (t : Fin cfg0.N)
    (hf : (cfg0.win 2).flush t = true) :
    (dat (F := Ideal) V c).flushed 2 t = ((cfg0.win 2).blk t).view.read (Elt Ideal) (result V lab c) := by
  have hN : cfg0.N = 128 := N_0
  have h127 : t.val = 127 := by have := (flush0_2 t).mp hf; have := t.isLt; omega
  show (cfg0.win 2).cut (grid0.coords t) ((dat (F := Ideal) V c).after 2 t) = _
  rw [after_out]
  funext j
  show (outsAt (F := Ideal) V c t.val t.isLt).1 j = result V lab c (((cfg0.win 2).blk t).view.emb j)
  obtain ⟨-, -, -, -, e4, e5⟩ := idx_facts t
  have hemb : ((cfg0.win 2).blk t).view.emb j = j := funext fun a => Fin.ext (by
    match a with
    | ⟨0, _⟩ => show win0_2.index t (0 : Fin 2) * 8192 + 1 * (j 0).val = (j 0).val; rw [e4]; omega
    | ⟨1, _⟩ => show win0_2.index t (1 : Fin 2) * 256 + 1 * (j 1).val = (j 1).val; rw [e5]; omega)
  rw [hemb, out_C_eq V c t (by omega) h127 j, acc_inv V lab c hlab t.val t.isLt j]
  show part (bank V c) lab t.val _ _ = Cert.Spec.gsK (bank V c) lab (j 0) (j 1)
  rw [h127, part_last]
  rfl

/-- The last point. -/
def tLast : Fin cfg0.N := ⟨127, lt_of_lt_of_eq (by decide) (show cfg0.N = 128 from N_0).symm⟩

/-- An index of the output array is in point t's block when each coordinate is in the block's range on its axis. -/
theorem mem_blk (t : Fin cfg0.N) (i : S8192x256.Idx) :
    i ∈ ((cfg0.win 2).blk t).view.set ↔ ∀ a : Fin 2, win0_2.index t a * S8192x256.size a ≤ (i a).val
      ∧ (i a).val < win0_2.index t a * S8192x256.size a + S8192x256.size a := by
  show i ∈ ((View.whole main_v1).slice (win0_2.rect t)).set ↔ _
  rw [View.set_slice_whole, Rect.mem_set_unit]
  exact Iff.rfl

/-- The last point's block covers the output array. -/
theorem cover (i : S8192x256.Idx) :
    ∃ t : Fin cfg0.N, (cfg0.win 2).flush t = true ∧ i ∈ ((cfg0.win 2).blk t).view.set := by
  refine ⟨tLast, (flush0_2 tLast).mpr rfl, ?_⟩
  obtain ⟨-, -, -, -, e4, e5⟩ := idx_facts tLast
  rw [mem_blk]
  intro a
  have b0 : (i 0).val < 8192 := idx2_lt0 i
  have b1 : (i 1).val < 256 := idx2_lt1 i
  match a with
  | ⟨0, _⟩ =>
    show win0_2.index tLast (0 : Fin 2) * 8192 ≤ (i 0).val ∧ (i 0).val < win0_2.index tLast (0 : Fin 2) * 8192 + 8192
    rw [e4]; omega
  | ⟨1, _⟩ =>
    show win0_2.index tLast (1 : Fin 2) * 256 ≤ (i 1).val ∧ (i 1).val < win0_2.index tLast (1 : Fin 2) * 256 + 256
    rw [e5]; omega

/-- THE VALUE of the group-sum region: its output array ends holding the specification's group sums of the bank by the
    labels. -/
theorem arrAt_out (V : (c : Dev nD) → (b : Ref sig .tc) → Buf (Elt Ideal) ((c : Thread nD τ).loc b)) (c : Dev nD)
    (lab : (⟨1, ![131072]⟩ : Shape).Idx → BitVec 32)
    (hlab : ∀ s : Fin 131072, (V c main_v0 : S131072x1.Idx → BitVec 32) (ix2 s 0) = lab (ix1 s)) :
    ((Region0.dat (F := Ideal) V c).arrAt 2 cfg0.N : S8192x256.Idx → EReal)
      = fun j => Cert.Spec.gsK (V c main_arg1 : S131072x256.Idx → EReal) lab (j 0) (j 1) :=
  (dat (F := Ideal) V c).arrAt_eq_of_cover 2 (result V lab c) (fun t hf => flushed_eq V lab c hlab t hf) cover

end Cert.KernelIdeal.Value0

end
-- ==== Proof.KI.Value1a.lean ====
/-
  Kernel region 1, the arithmetic of its body at the ideal instance, over variables for the values the body loads: a
  block `x0` of 128 input rows, the 8192 group sums `g`, the row `inv` of inverse denominators, the row `msk` of the
  mask, the column `tg` of the block's target words and the carried 1x1 accumulator.

  Row `r` of the block is normalised by the reciprocal of its clamped Euclidean norm; its inner product with group sum
  `c` (a product into a zero accumulator, read as the sum over the 256 columns), times the named reciprocal temperature,
  times the inverse denominator, exponentiated and times the mask, is the masked exponential `blockExp … r c`. The row's
  log-probability `blockLogp … r` is the logarithm of the guarded quotient of the target's masked exponential — selected by
  comparing the target word with each column's number and summing — by the guarded row sum. The body adds
  zero minus the sum of the 128 log-probabilities to the accumulator; at the last point the output is the accumulator times
  the word of 1/1024; at the first point the accumulator is first reset to the zero word.
-/
import proofs.«414420_j57999238365647_3_alg».proof.Proof.Gen.KernelIdeal.Skeleton
import proofs.«414420_j57999238365647_3_alg».proof.Proof.Spec
import Idealize.ShloMosaic.PureOps.Ideal.Laws
import Idealize.ShloMosaic.PureOps.IdealRules
import Idealize.ShloMosaic.Lib.ValueIdx
import Idealize.ShloMosaic.Lib.ValueLayout

noncomputable section

open scoped BigOperators

namespace Cert.KernelIdeal.Value1

open Cert.KernelIdeal Cert.KernelIdeal.Gen Idealize.ShloMosaic Idealize.ShloMosaic.ValueIdx

variable {α : Type}

/-- A vector of `a` entries cast to a column reads, at `(i, u)`, the entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the rows of a matrix reads, at row `r`, the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-- A sum down the one column of a column matrix reads, at its one index, the sum of the column's entries. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext ax
  match ax with
  | ⟨0, _⟩ => rfl
  | ⟨1, _⟩ => exact Fin.ext (by show (u : ℕ) = 0; omega)

/-! ## The product of the normalised block with the group sums -/

/-- The product's operand indices at output index `i` and contraction index `q`: the left operand is read at row `i 0`, the
    right one at row `i 1`, both at column `q`. -/
theorem lhs_dot_0 (i : S128x8192.Idx) (q : dot_S128x256_S8192x256_S128x8192_1_1_0_0_n_n.contr.Idx) :
    (dot_S128x256_S8192x256_S128x8192_1_1_0_0_n_n.lhsIdx i q 0).val = (i 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
theorem lhs_dot_1 (i : S128x8192.Idx) (q : dot_S128x256_S8192x256_S128x8192_1_1_0_0_n_n.contr.Idx) :
    (dot_S128x256_S8192x256_S128x8192_1_1_0_0_n_n.lhsIdx i q 1).val = (q ⟨0, by decide⟩).val :=
  dot_S128x256_S8192x256_S128x8192_1_1_0_0_n_n.lhsIdx_val_of_single rfl i q
theorem rhs_dot_0 (i : S128x8192.Idx) (q : dot_S128x256_S8192x256_S128x8192_1_1_0_0_n_n.contr.Idx) :
    (dot_S128x256_S8192x256_S128x8192_1_1_0_0_n_n.rhsIdx i q 0).val = (i 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
theorem rhs_dot_1 (i : S128x8192.Idx) (q : dot_S128x256_S8192x256_S128x8192_1_1_0_0_n_n.contr.Idx) :
    (dot_S128x256_S8192x256_S128x8192_1_1_0_0_n_n.rhsIdx i q 1).val = (q ⟨0, by decide⟩).val :=
  dot_S128x256_S8192x256_S128x8192_1_1_0_0_n_n.rhsIdx_val_of_single rfl i q

/-- The product into a zero accumulator reads, at `(r, c)`, the inner product of row `r` of the left operand with row `c` of the
    right one. -/
theorem dot_apply (l : FVec Ideal S128x256 .bf16) (rr : FVec Ideal S8192x256 .bf16) (r : Fin 128) (c : Fin 8192) :
    FloatOps.matmul dot_S128x256_S8192x256_S128x8192_1_1_0_0_n_n none l rr (constant S128x8192 .f32 0x00000000#32) (ix2 r c)
      = ∑ d : Fin 256, l (ix2 r d) * rr (ix2 c d) := by
  rw [Ideal.matmul_constant_zero_apply, ← Equiv.sum_comp (ValueIdx.contrEquiv1 dot_S128x256_S8192x256_S128x8192_1_1_0_0_n_n 256 rfl rfl).symm]
  refine Finset.sum_congr rfl fun k _ => ?_
  have hk := ValueIdx.contrEquiv1_symm_val dot_S128x256_S8192x256_S128x8192_1_1_0_0_n_n 256 rfl rfl k
  have el : dot_S128x256_S8192x256_S128x8192_1_1_0_0_n_n.lhsIdx (ix2 r c) ((ValueIdx.contrEquiv1 dot_S128x256_S8192x256_S128x8192_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S128x256_S8192x256_S128x8192_1_1_0_0_n_n.rhsIdx (ix2 r c) ((ValueIdx.contrEquiv1 dot_S128x256_S8192x256_S128x8192_1_1_0_0_n_n 256 rfl rfl).symm k) = ix2 c k := funext fun a => Fin.ext (by
    match a with
    | ⟨0, _⟩ => exact rhs_dot_0 _ _
    | ⟨1, _⟩ => exact (rhs_dot_1 _ _).trans hk)
  rw [el, er]

/-- The named reciprocal temperature denotes the rational the table gives it. -/
theorem inv_temp_eq : Named.named (F := Ideal) κ "inv_temp" (φ := .f32) 0x41A00000#32 = Cert.Spec.invTemp :=
  IdealRules.named_const.ideal_named_scalar _ _ _ _ rfl

/-- The masked exponential of block row `r` against cluster `c`, over the block's own entries. -/
def blockExp (x0 : S128x256.Idx → EReal) (g : S8192x256.Idx → EReal) (inv msk : S1x8192.Idx → EReal) (r : Fin 128) (c : Fin 8192) : EReal :=
  Ideal.exp (((∑ d : Fin 256, Cert.Spec.nrmK x0 r d * g (ix2 c d)) * Cert.Spec.invTemp) * inv (ix2 0 c)) * msk (ix2 0 c)

/-- The body's masked exponentials, read at `(r, c)`. -/
theorem pay4_apply (x0 : Vec Ideal S128x256 .f32) (g : Vec Ideal S8192x256 .f32) (inv msk : Vec Ideal S1x8192 .f32)
    (r : Fin 128) (c : Fin 8192) :
    k1_pay4 (F := Ideal) x0 g inv msk (ix2 r c) = blockExp x0 g inv msk r c := by
  simp only [k1_pay4, mulf, exp, divf, maximumf, sqrt, broadcast, truncf, matmul]
  rw [dot_apply]
  simp only [shapeCast_self, broadcastTo_1b_ab_apply, inv_temp_eq, truncf, mulf, divf, maximumf, sqrt, broadcast,
    broadcastTo_a1_ab_apply, shapeCast_a_a1_apply, rowSum_apply]
  rw [rowSum_apply]
  simp only [mulf, Ideal.mulf_def, Ideal.exp_def, Ideal.divf_def, Ideal.maximumf_def, Ideal.sqrt_def, Ideal.truncf_def,
    Ideal.ofBits_def]
  rfl

/-- The guarded row sum of block row `r`: the sum of its masked exponentials. -/
theorem pay5_apply (x0 : Vec Ideal S128x256 .f32) (g : Vec Ideal S8192x256 .f32) (inv msk : Vec Ideal S1x8192 .f32)
    (r : Fin 128) :
    k1_pay5 (F := Ideal) x0 g inv msk (ix2 r 0) = ∑ c : Fin 8192, blockExp x0 g inv msk r c := by
  simp only [k1_pay5, shapeCast_a_a1_apply]
  rw [rowSum_apply]
  exact Finset.sum_congr rfl fun c _ => pay4_apply x0 g inv msk r c

/-- A select on the comparison of two words for equality is the `if` on their equality. -/
theorem select_cmpi_eq {β : Type} {w : ℕ} (x y : BitVec w) (a b : β) :
    Scalar.select (IntOp.cmpi .eq x y) a b = if x = y then a else b := by
  unfold Scalar.select IntOp.cmpi
  by_cases h : x = y
  · subst h
    rw [if_pos rfl]
    show (if BitVec.ofBool (x == x) = 1 then a else b) = a
    rw [beq_self_eq_true]
    exact if_pos rfl
  · have hb : (x == y) = false := beq_eq_false_iff_ne.mpr h
    rw [if_neg h]
    show (if BitVec.ofBool (x == y) = 1 then a else b) = b
    rw [hb]
    exact if_neg (by decide)

/-- The target's entry of block row `r`: the masked exponential at the column whose number is the row's target word,
    zero at every other column. -/
theorem pay6_apply (x0 : Vec Ideal S128x256 .f32) (g : Vec Ideal S8192x256 .f32) (inv msk : Vec Ideal S1x8192 .f32)
    (tg : Vec Ideal S128x1 .i32) (r : Fin 128) (c : Fin 8192) :
    k1_pay6 (F := Ideal) x0 g inv msk tg (ix2 r c)
      = if tg (ix2 r 0) = BitVec.ofNat 32 c.val then blockExp x0 g inv msk r c else 0 := by
  simp only [k1_pay6, select_apply, cmpi, shapeCast_self, broadcastTo_a1_ab_apply, iota_single_apply, broadcast, pay4_apply,
    select_cmpi_eq]
  rw [iota_single_apply, Ideal.ofBits_def, Ideal.ofBits_zero_f32]

/-- The log-probability of block row `r`: the target's masked exponential over the guarded row sum, guarded again under the
    logarithm. -/
def blockLogp (x0 : S128x256.Idx → EReal) (g : S8192x256.Idx → EReal) (inv msk : S1x8192.Idx → EReal)
    (tg : S128x1.Idx → BitVec 32) (r : Fin 128) : EReal :=
  Ideal.log (Ideal.div (∑ c : Fin 8192, (if tg (ix2 r 0) = BitVec.ofNat 32 c.val then blockExp x0 g inv msk r c else 0))
      ((∑ c : Fin 8192, blockExp x0 g inv msk r c) + Cert.Spec.e6) + Cert.Spec.e6)

/-- The body's update of the carried 1x1 accumulator, read at its one index: the loaded accumulator plus the zero word minus
    the sum over the block's rows of the row's log-probability. -/
theorem pay1_apply (x0 : Vec Ideal S128x256 .f32) (g : Vec Ideal S8192x256 .f32) (inv msk : Vec Ideal S1x8192 .f32)
    (tg : Vec Ideal S128x1 .i32) (prev : Vec Ideal S1x1 .f32) :
    k1_pay1 (F := Ideal) (k1_pay5 x0 g inv msk) (k1_pay6 x0 g inv msk tg) prev (ix2 0 0)
      = prev (ix2 0 0) + (Cert.Spec.zero - ∑ r : Fin 128, blockLogp x0 g inv msk tg r) := by
  simp only [k1_pay1, shapeCast_self, addf, subf, broadcast, shapeCast_a_1a_apply]
  rw [colSum_apply]
  simp only [Ideal.addf_def, Ideal.subf_def, Ideal.ofBits_def]
  refine congrArg (fun z => prev (ix2 0 0) + (Ideal.ofBits .f32 0x00000000#32 - z)) (Finset.sum_congr rfl fun r _ => ?_)
  simp only [log, addf, divf, broadcast, shapeCast_a_a1_apply]
  rw [rowSum_apply, pay5_apply]
  simp only [pay6_apply, Ideal.log_def, Ideal.addf_def, Ideal.divf_def, Ideal.ofBits_def]
  rfl

/-- The output's payload at the last point: the accumulator times the word of 1/1024. -/
theorem pay2_apply (acc : Vec Ideal S1x1 .f32) :
    k1_pay2 (F := Ideal) acc (ix2 0 0) = acc (ix2 0 0) * Cert.Spec.r1024 := by
  simp only [k1_pay2, mulf, broadcast, Ideal.mulf_def]
  rfl

/-- The reset's payload at the first point: the zero word. -/
theorem pay3_apply : (k1_pay3 (F := Ideal)) (ix2 0 0) = Cert.Spec.zero := by
  simp only [k1_pay3, shapeCast_self, broadcast]
  rfl

end Cert.KernelIdeal.Value1

end
-- ==== Proof.KI.Value1.lean ====
/-
  Kernel region 1, THE VALUE at the ideal instance: after the region its 1x1 output array holds the specification's loss
  `Cert.Spec.lossK` of the inputs, the group sums, the denominators, the mask and the targets found in the region's arrays.

  The grid has eight points; point `i` loads block `i` of 128 input rows and of their target words, and the whole group
  sums, mask row and inverse-denominator row. Each case of the body leaves in the carried 1x1 accumulator the update's payload
  of the loaded values: at the first point over the zero word the reset has just stored, afterwards over what the point
  before left. Read at its one index the update adds block `i`'s term — the zero word minus the sum over the block's rows of
  the row's log-probability, row `r` of block `i` being batch row `128 i + r` — so, by induction on the point, after point
  `n` the accumulator holds the sum of the terms of blocks `0 … n` (`0 + a = a`; no other law of the extended reals is
  used). At the last point the output window takes the accumulator times the word of 1/1024, which is the loss, and that
  point's write-back covers the output array.
-/
import proofs.«414420_j57999238365647_3_alg».proof.Proof.KI.Region1
import proofs.«414420_j57999238365647_3_alg».proof.Proof.KI.Value1a
import Idealize.ShloMosaic.Lib.Pipeline.Value

noncomputable section

open scoped BigOperators

namespace Cert.KernelIdeal.Value1

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Region1

variable {F : FTy → Type} [FloatOps F] [Named F]
variable (V : (c : Dev nD) → (b : Ref sig .tc) → Buf (Elt F) ((c : Thread nD τ).loc b))

/-! ## What each case leaves, as the body's payloads of the loaded values -/

theorem hz11 : (![0, 0] : Fin 2 → Nat) = fun _ => 0 := funext fun a => by fin_cases a <;> rfl

section Pieces
variable (c : Dev nD) (i : grid1.Coords) (arg1 : Memref sig .tc .vmem S128x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S128x1 .i32) (harg5 : arg5.IsWhole) (arg6 : Memref sig .tc .vmem S1x1 .f32) (harg6 : arg6.IsWhole) (arg7 : Memref sig .tc .vmem S1x1 .f32) (harg7 : arg7.IsWhole)
  (x0 : Vec F S128x256 .f32) (x1 : Vec F S8192x256 .f32) (x2 : Vec F S1x8192 .f32) (x3 : Vec F S1x8192 .f32) (x4 : Vec F S128x1 .i32)

/-- Off the first point the accumulator ends at the update's payload of the loaded blocks and of the accumulator as the
    point before left it. -/
theorem sout_B_eq (hc0 : ¬cond1_0 i) (hc1 : ¬cond1_1 i) (xs0 : Vec F S1x1 .f32) :
    sout_B c i arg1 harg1 arg2 harg2 arg3 harg3 arg4 harg4 arg5 harg5 arg6 harg6 arg7 harg7 hc0 hc1 x0 x1 x2 x3 x4 xs0
      = k1_pay1 (k1_pay5 x0 x1 x3 x2) (k1_pay6 x0 x1 x3 x2 x4) xs0 := by
  unfold sout_B
  rw [View.read_writes_eq_canon _ _ _ (scover_B c i arg1 harg1 arg2 harg2 arg3 harg3 arg4 harg4 arg5 harg5 arg6 harg6 arg7 harg7 hc0 hc1 x0 x1 x2 x3 x4 xs0)]
  unfold kernelRun_B
  dsimp only
  sl_unfold_words
  rw [View.canon_unit_zero hz11]
  simp only [View.readAt_eq_ld, harg1.read_unread, harg2.read_unread, harg3.read_unread, harg4.read_unread, harg5.read_unread,
    harg6.read_unread, harg7.read_unread, View.ld_unit_zero (S := S128x256) hz11, View.ld_unit_zero (S := S8192x256) hz11,
    View.ld_unit_zero (S := S1x8192) hz11, View.ld_unit_zero (S := S128x1) hz11, View.ld_unit_zero (S := S1x1) hz11]

/-- At the last point likewise. -/
theorem sout_C_eq (hc0 : ¬cond1_0 i) (hc1 : cond1_1 i) (xs0 : Vec F S1x1 .f32) :
    sout_C c i arg1 harg1 arg2 harg2 arg3 harg3 arg4 harg4 arg5 harg5 arg6 harg6 arg7 harg7 hc0 hc1 x0 x1 x2 x3 x4 xs0
      = k1_pay1 (k1_pay5 x0 x1 x3 x2) (k1_pay6 x0 x1 x3 x2 x4) xs0 := by
  unfold sout_C
  rw [View.read_writes_eq_canon _ _ _ (scover_C c i arg1 harg1 arg2 harg2 arg3 harg3 arg4 harg4 arg5 harg5 arg6 harg6 arg7 harg7 hc0 hc1 x0 x1 x2 x3 x4 xs0)]
  unfold kernelRun_C
  dsimp only
  sl_unfold_words
  rw [View.canon_unit_zero hz11]
  simp only [View.readAt_eq_ld, harg1.read_unread, harg2.read_unread, harg3.read_unread, harg4.read_unread, harg5.read_unread,
    harg6.read_unread, harg7.read_unread, View.ld_unit_zero (S := S128x256) hz11, View.ld_unit_zero (S := S8192x256) hz11,
    View.ld_unit_zero (S := S1x8192) hz11, View.ld_unit_zero (S := S128x1) hz11, View.ld_unit_zero (S := S1x1) hz11]

/-- At the first point the accumulator is first reset, and the update reads the reset back. -/
theorem sout_A_eq (hc0 : cond1_0 i) (hc1 : ¬cond1_1 i) :
    sout_A c i arg1 harg1 arg2 harg2 arg3 harg3 arg4 harg4 arg5 harg5 arg6 harg6 arg7 harg7 hc0 hc1 x0 x1 x2 x3 x4
      = k1_pay1 (k1_pay5 x0 x1 x3 x2) (k1_pay6 x0 x1 x3 x2 x4) (k1_pay3 (F := F)) := by
  unfold sout_A
  rw [View.read_writes_eq_canon _ _ _ (scover_A c i arg1 harg1 arg2 harg2 arg3 harg3 arg4 harg4 arg5 harg5 arg6 harg6 arg7 harg7 hc0 hc1 x0 x1 x2 x3 x4)]
  unfold kernelRun_A
  dsimp only
  sl_unfold_words
  rw [View.canon_cons_unit_zero (S := S1x1) hz11, View.readCov_unit_zero (S := S1x1) _ hz11]
  simp only [View.readAt_eq_ld, harg1.read_unread, harg2.read_unread, harg3.read_unread, harg4.read_unread, harg5.read_unread,
    harg6.read_unread, harg7.read_unread, View.ld_unit_zero (S := S128x256) hz11, View.ld_unit_zero (S := S8192x256) hz11,
    View.ld_unit_zero (S := S1x8192) hz11, View.ld_unit_zero (S := S128x1) hz11, View.ld_unit_zero (S := S1x1) hz11]

/-- At the last point the output window ends at the scaling's payload of the accumulator just updated. -/
theorem out_C_eq (hc0 : ¬cond1_0 i) (hc1 : cond1_1 i) (xs0 : Vec F S1x1 .f32) :
    out_C c i arg1 harg1 arg2 harg2 arg3 harg3 arg4 harg4 arg5 harg5 arg6 harg6 arg7 harg7 hc0 hc1 x0 x1 x2 x3 x4 xs0
      = k1_pay2 (k1_pay1 (k1_pay5 x0 x1 x3 x2) (k1_pay6 x0 x1 x3 x2 x4) xs0) := by
  unfold out_C
  rw [View.read_writes_eq_canon _ _ _ (cover_C c i arg1 harg1 arg2 harg2 arg3 harg3 arg4 harg4 arg5 harg5 arg6 harg6 arg7 harg7 hc0 hc1 x0 x1 x2 x3 x4 xs0)]
  unfold kernelRun_C
  dsimp only
  sl_unfold_words
  rw [View.canon_unit_zero hz11]
  simp only [View.readCov_unit_zero (S := S1x1) _ hz11, View.readAt_eq_ld, harg1.read_unread, harg2.read_unread, harg3.read_unread, harg4.read_unread, harg5.read_unread,
    harg6.read_unread, harg7.read_unread, View.ld_unit_zero (S := S128x256) hz11, View.ld_unit_zero (S := S8192x256) hz11,
    View.ld_unit_zero (S := S1x8192) hz11, View.ld_unit_zero (S := S128x1) hz11, View.ld_unit_zero (S := S1x1) hz11]

end Pieces

/-! ## The blocks the windows read -/

/-- The windows' block indices over the grid: the inputs' and the targets' blocks move with the point along the rows, every
    other window's block is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

/-- The blocks the body loads at point `t`, each at its literal type. -/
abbrev xblk (c : Dev nD) (t : Fin cfg1.N) : Vec F S128x256 .f32 := iblk V c 0 t
abbrev gblk (c : Dev nD) (t : Fin cfg1.N) : Vec F S8192x256 .f32 := iblk V c 1 t
abbrev mblk (c : Dev nD) (t : Fin cfg1.N) : Vec F S1x8192 .f32 := iblk V c 2 t
abbrev dblk (c : Dev nD) (t : Fin cfg1.N) : Vec F S1x8192 .f32 := iblk V c 3 t
abbrev tblk (c : Dev nD) (t : Fin cfg1.N) : Vec F S128x1 .i32 := iblk V c 4 t

/-- Row `r` of the inputs' block at point `t` is row `128 t + r` of the inputs. -/
theorem xblk_apply (c : Dev nD) (t : Fin cfg1.N) (r : Fin 128) (d : Fin 256) (b : Fin 1024) (hb : b.val = 128 * t.val + r.val) :
    xblk V c t (ix2 r d) = (V c main_arg0 : S1024x256.Idx → Elt F .f32) (ix2 b d) := by
  obtain ⟨e0, e1, -⟩ := idx_facts t
  unfold xblk iblk
  rw [View.read_apply]
  show V c main_arg0 (((cfg1.win 0).blk t).view.emb (ix2 r d)) = V c main_arg0 (ix2 b d)
  refine congrArg (V c main_arg0) (funext fun a => Fin.ext ?_)
  match a with
  | ⟨0, _⟩ => show win1_0.index t (0 : Fin 2) * 128 + 1 * r.val = b.val; omega
  | ⟨1, _⟩ => show win1_0.index t (1 : Fin 2) * 256 + 1 * d.val = d.val; omega

/-- The group sums' block at any point is the whole array. -/
theorem gblk_apply (c : Dev nD) (t : Fin cfg1.N) (k : Fin 8192) (d : Fin 256) :
    gblk V c t (ix2 k d) = (V c main_v1 : S8192x256.Idx → Elt F .f32) (ix2 k d) := by
  obtain ⟨-, -, e0, e1, -⟩ := idx_facts t
  unfold gblk iblk
  rw [View.read_apply]
  show V c main_v1 (((cfg1.win 1).blk t).view.emb (ix2 k d)) = V c main_v1 (ix2 k d)
  refine congrArg (V c main_v1) (funext fun a => Fin.ext ?_)
  match a with
  | ⟨0, _⟩ => show win1_1.index t (0 : Fin 2) * 8192 + 1 * k.val = k.val; omega
  | ⟨1, _⟩ => show win1_1.index t (1 : Fin 2) * 256 + 1 * d.val = d.val; omega

/-- The mask's block at any point is the whole row. -/
theorem mblk_apply (c : Dev nD) (t : Fin cfg1.N) (k : Fin 8192) :
    mblk V c t (ix2 0 k) = (V c main_v16 : S1x8192.Idx → Elt F .f32) (ix2 0 k) := by
  obtain ⟨-, -, -, -, e0, e1, -⟩ := idx_facts t
  unfold mblk iblk
  rw [View.read_apply]
  show V c main_v16 (((cfg1.win 2).blk t).view.emb (ix2 0 k)) = V c main_v16 (ix2 0 k)
  refine congrArg (V c main_v16) (funext fun a => Fin.ext ?_)
  match a with
  | ⟨0, _⟩ => show win1_2.index t (0 : Fin 2) * 1 + 1 * 0 = 0; omega
  | ⟨1, _⟩ => show win1_2.index t (1 : Fin 2) * 8192 + 1 * k.val = k.val; omega

/-- The inverse denominators' block at any point is the whole row. -/
theorem dblk_apply (c : Dev nD) (t : Fin cfg1.N) (k : Fin 8192) :
    dblk V c t (ix2 0 k) = (V c main_v15 : S1x8192.Idx → Elt F .f32) (ix2 0 k) := by
  obtain ⟨-, -, -, -, -, -, e0, e1, -⟩ := idx_facts t
  unfold dblk iblk
  rw [View.read_apply]
  show V c main_v15 (((cfg1.win 3).blk t).view.emb (ix2 0 k)) = V c main_v15 (ix2 0 k)
  refine congrArg (V c main_v15) (funext fun a => Fin.ext ?_)
  match a with
  | ⟨0, _⟩ => show win1_3.index t (0 : Fin 2) * 1 + 1 * 0 = 0; omega
  | ⟨1, _⟩ => show win1_3.index t (1 : Fin 2) * 8192 + 1 * k.val = k.val; omega

/-- Row `r` of the targets' block at point `t` is row `128 t + r` of the targets' column. -/
theorem tblk_apply (c : Dev nD) (t : Fin cfg1.N) (r : Fin 128) (b : Fin 1024) (hb : b.val = 128 * t.val + r.val) :
    tblk V c t (ix2 r 0) = (V c main_v24 : S1024x1.Idx → Elt F .i32) (ix2 b 0) := by
  obtain ⟨-, -, -, -, -, -, -, -, e0, e1, -⟩ := idx_facts t
  unfold tblk iblk
  rw [View.read_apply]
  show V c main_v24 (((cfg1.win 4).blk t).view.emb (ix2 r 0)) = V c main_v24 (ix2 b 0)
  refine congrArg (V c main_v24) (funext fun a => Fin.ext ?_)
  match a with
  | ⟨0, _⟩ => show win1_4.index t (0 : Fin 2) * 128 + 1 * r.val = b.val; omega
  | ⟨1, _⟩ => show win1_4.index t (1 : Fin 2) * 1 + 1 * 0 = 0; omega

/-! ## At the ideal instance: a block's row against the specification -/

section AtIdeal

variable (W : (c : Dev nD) → (b : Ref sig .tc) → Buf (Elt Ideal) ((c : Thread nD τ).loc b)) (c : Dev nD)
  (gs : Fin 8192 → Fin 256 → EReal) (den mask : Fin 8192 → EReal) (tgt : Fin 1024 → BitVec 32)

/-- The masked exponential of row `r` of block `i` is the specification's at batch row `128 i + r`. -/
theorem blockExp_eq
    (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (t : Fin cfg1.N) (i : Fin 8) (hi : i.val = t.val) (r : Fin 128) (k : Fin 8192) :
    blockExp (xblk W c t) (gblk W c t) (dblk W c t) (mblk W c t) r k
      = Cert.Spec.expK (W c main_arg0 : S1024x256.Idx → EReal) gs den mask (Cert.Spec.batchRow i r) k := by
  have hx : ∀ d : Fin 256, xblk W c t (ix2 r d) = (W c main_arg0 : S1024x256.Idx → EReal) (ix2 (Cert.Spec.batchRow i r) d) :=
    fun d => xblk_apply W c t r d (Cert.Spec.batchRow i r) (by show 128 * i.val + r.val = _; rw [hi])
  have hg : ∀ d : Fin 256, gblk W c t (ix2 k d) = gs k d := fun d => (gblk_apply W c t k d).trans (hgs k d)
  have hd : dblk W c t (ix2 0 k) = Ideal.div Cert.Spec.one (den k) := (dblk_apply W c t k).trans (hinv k)
  have hm : mblk W c t (ix2 0 k) = mask k := (mblk_apply W c t k).trans (hmask k)
  unfold blockExp Cert.Spec.expK Cert.Spec.simK Cert.Spec.nrmK Cert.Spec.cnorm
  rw [hd, hm]
  simp only [hx, hg]

/-- The log-probability of row `r` of block `i` is the specification's at batch row `128 i + r`. -/
theorem blockLogp_eq
    (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b)
    (t : Fin cfg1.N) (i : Fin 8) (hi : i.val = t.val) (r : Fin 128) :
    blockLogp (xblk W c t) (gblk W c t) (dblk W c t) (mblk W c t) (tblk W c t) r
      = Cert.Spec.logpK (W c main_arg0 : S1024x256.Idx → EReal) gs den mask tgt (Cert.Spec.batchRow i r) := by
  have ht : tblk W c t (ix2 r 0) = tgt (Cert.Spec.batchRow i r) :=
    (tblk_apply W c t r (Cert.Spec.batchRow i r) (by show 128 * i.val + r.val = _; rw [hi])).trans (htgt _)
  unfold blockLogp Cert.Spec.logpK
  rw [ht]
  simp only [blockExp_eq W c gs den mask hgs hmask hinv t i hi r]

/-! ## The accumulator after each point, and the output -/

/-- Block `i`'s term of the loss: zero minus the block's sum of log-probabilities; nothing past the eighth block. -/
def part (x : S1024x256.Idx → EReal) (gs : Fin 8192 → Fin 256 → EReal) (den mask : Fin 8192 → EReal) (tgt : Fin 1024 → BitVec 32)
    (i : ℕ) : EReal :=
  if h : i < 8 then Cert.Spec.zero - ∑ r : Fin 128, Cert.Spec.logpK x gs den mask tgt (Cert.Spec.batchRow ⟨i, h⟩ r) else 0

/-- The specification's loss is the sum of the eight blocks' terms, times the reciprocal batch size. -/
theorem lossK_eq (x : S1024x256.Idx → EReal) (gs : Fin 8192 → Fin 256 → EReal) (den mask : Fin 8192 → EReal) (tgt : Fin 1024 → BitVec 32) :
    Cert.Spec.lossK x gs den mask tgt = (∑ i ∈ Finset.range 8, part x gs den mask tgt i) * Cert.Spec.r1024 := by
  unfold Cert.Spec.lossK
  rw [← Fin.sum_univ_eq_sum_range (fun i => part x gs den mask tgt i) 8]
  refine congrArg (· * Cert.Spec.r1024) (Finset.sum_congr rfl fun i _ => ?_)
  unfold part
  rw [dif_pos i.isLt]

/-- The update at point `t`, read at the accumulator's one index: what was there plus block `t`'s term. -/
theorem upd_eq (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b)
    (t : Fin cfg1.N) (prev : Vec Ideal S1x1 .f32) :
    k1_pay1 (F := Ideal) (k1_pay5 (xblk W c t) (gblk W c t) (dblk W c t) (mblk W c t))
        (k1_pay6 (xblk W c t) (gblk W c t) (dblk W c t) (mblk W c t) (tblk W c t)) prev (ix2 0 0)
      = prev (ix2 0 0) + part (W c main_arg0 : S1024x256.Idx → EReal) gs den mask tgt t.val := by
  have hN : t.val < 8 := lt_of_lt_of_eq t.isLt N_1
  rw [pay1_apply]
  unfold part
  rw [dif_pos hN]
  refine congrArg (fun z => prev (ix2 0 0) + (Cert.Spec.zero - z)) (Finset.sum_congr rfl fun r _ => ?_)
  exact blockLogp_eq W c gs den mask tgt hgs hmask hinv htgt t ⟨t.val, hN⟩ rfl r

/-- After the first point the accumulator holds the first block's term: the reset's zero word plus it. -/
theorem acc_first (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b)
    (t : Fin cfg1.N) (h0 : t.val = 0) :
    ((outsAt W c t.val t.isLt).2 : S1x1.Idx → EReal) (ix2 0 0) = part (W c main_arg0 : S1024x256.Idx → EReal) gs den mask tgt t.val := by
  have h1 : ¬t.val = 7 := by omega
  rw [outsAt_A W c t h0 h1]
  dsimp only
  refine (congrFun (sout_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (xblk W c t) (gblk W c t) (mblk W c t) (dblk W c t) (tblk W c t) (cond1_0_of t h0) (not_cond1_1_of t h1)) (ix2 0 0)).trans ?_
  rw [upd_eq W c gs den mask tgt hgs hmask hinv htgt t, pay3_apply]
  unfold Cert.Spec.zero
  rw [Ideal.ofBits_zero_f32, zero_add]

/-- After a later point it holds what the point before left plus this block's term. -/
theorem acc_next (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b)
    (t : Fin cfg1.N) (h0 : ¬t.val = 0) :
    ((outsAt W c t.val t.isLt).2 : S1x1.Idx → EReal) (ix2 0 0)
      = ((outsAt W c (t.val - 1) (Nat.lt_of_le_of_lt (Nat.sub_le _ _) t.isLt)).2 : S1x1.Idx → EReal) (ix2 0 0) + part (W c main_arg0 : S1024x256.Idx → EReal) gs den mask tgt t.val := by
  by_cases h1 : t.val = 7
  · rw [outsAt_C W c t h0 h1]
    dsimp only
    refine (congrFun (sout_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (xblk W c t) (gblk W c t) (mblk W c t) (dblk W c t) (tblk W c t) (not_cond1_0_of t h0) (cond1_1_of t h1) (outsAt W c (t.val - 1) (Nat.lt_of_le_of_lt (Nat.sub_le _ _) t.isLt)).2) (ix2 0 0)).trans ?_
    exact upd_eq W c gs den mask tgt hgs hmask hinv htgt t _
  · rw [outsAt_B W c t h0 h1]
    dsimp only
    refine (congrFun (sout_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (xblk W c t) (gblk W c t) (mblk W c t) (dblk W c t) (tblk W c t) (not_cond1_0_of t h0) (not_cond1_1_of t h1) (outsAt W c (t.val - 1) (Nat.lt_of_le_of_lt (Nat.sub_le _ _) t.isLt)).2) (ix2 0 0)).trans ?_
    exact upd_eq W c gs den mask tgt hgs hmask hinv htgt t _

/-- So after point `n` the accumulator holds the sum of the terms of the blocks up to `n`: by induction on the point. -/
theorem acc_eq (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b) :
    ∀ (n : ℕ) (hn : n < cfg1.N), ((outsAt W c n hn).2 : S1x1.Idx → EReal) (ix2 0 0)
      = ∑ i ∈ Finset.range (n + 1), part (W c main_arg0 : S1024x256.Idx → EReal) gs den mask tgt i
  | 0, hn => by
    rw [Finset.sum_range_one]
    exact acc_first W c gs den mask tgt hgs hmask hinv htgt ⟨0, hn⟩ rfl
  | n + 1, hn => by
    rw [Finset.sum_range_succ, ← acc_eq hgs hmask hinv htgt n (Nat.lt_of_succ_lt hn)]
    exact acc_next W c gs den mask tgt hgs hmask hinv htgt ⟨n + 1, hn⟩ (Nat.succ_ne_zero n)

/-- At the last point the output window's staging buffer ends at the loss. -/
theorem out_last (hgs : ∀ (k : Fin 8192) (d : Fin 256), (W c main_v1 : S8192x256.Idx → EReal) (ix2 k d) = gs k d)
    (hmask : ∀ k : Fin 8192, (W c main_v16 : S1x8192.Idx → EReal) (ix2 0 k) = mask k)
    (hinv : ∀ k : Fin 8192, (W c main_v15 : S1x8192.Idx → EReal) (ix2 0 k) = Ideal.div Cert.Spec.one (den k))
    (htgt : ∀ b : Fin 1024, (W c main_v24 : S1024x1.Idx → BitVec 32) (ix2 b 0) = tgt b)
    (t : Fin cfg1.N) (h7 : t.val = 7) :
    ((outsAt W c t.val t.isLt).1 : S1x1.Idx → EReal) (ix2 0 0)
      = Cert.Spec.lossK (W c main_arg0 : S1024x256.Idx → EReal) gs den mask tgt := by
  have h0 : ¬t.val = 0 := by omega
  have hacc := acc_eq W c gs den mask tgt hgs hmask hinv htgt t.val t.isLt
  rw [outsAt_C W c t h0 h7] at hacc ⊢
  dsimp only at hacc ⊢
  refine (congrFun (out_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (xblk W c t) (gblk W c t) (mblk W c t) (dblk W c t) (tblk W c t) (not_cond1_0_of t h0) (cond1_1_of t h7) (outsAt W c (t.val - 1) (Nat.lt_of_le_of_lt (Nat.sub_le _ _) t.isLt)).2) (ix2 0 0)).trans ?_
  rw [pay2_apply, lossK_eq]
  refine congrArg (· * Cert.Spec.r1024) ?_
  refine (congrFun (sout_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (xblk W c t) (gblk W c t) (mblk W c t) (dblk W c t) (tblk W c t) (not_cond1_0_of t h0) (cond1_1_of t h7) (outsAt W c (t.val - 1) (Nat.lt_of_le_of_lt (Nat.sub_le _ _) t.isLt)).2) (ix2 0 0)).symm.trans ?_
  rw [hacc, h7]

end AtIdeal

/-! ## The output array after the region -/

/-- What the last point left in the output window, as the contents of the 1x1 output array. -/
abbrev result (c : Dev nD) : Buf (Elt F) ((c : Thread nD τ).loc main_v25) :=
  (outsAt V c t1_7.val t1_7.isLt).1

/-- The one write-back, at the last point, writes it: the window's one block, read through zero offsets, is the array. -/
theorem flushed_eq (c : Dev nD) (t : Fin cfg1.N) (hf : (cfg1.win 5).flush t = true) :
    (dat V c).flushed 5 t = ((cfg1.win 5).blk t).view.read (Elt F) (result V c) := by
  have hN : cfg1.N = 8 := N_1
  have h7 : t.val = 7 := by have := (flush1_5 t).mp hf; have := t.isLt; omega
  obtain rfl : t = t1_7 := Fin.ext h7
  show (cfg1.win 5).cut (grid1.coords t1_7) ((dat V c).after 5 t1_7) = _
  rw [after_out]
  have hz' : (fun a => win1_5.index t1_7 a * main_v25.ty.shape.size a) = fun _ => 0 := funext fun a => by fin_cases a <;> decide
  exact (Memref.read_access_unit_zero (Elt F) main_v25 hz' (fun a => by rw [congrFun hz' a]; simp) (result V c)).symm

/-- So the output array ends holding what the last point left in the window: that point's block covers it. -/
theorem final (c : Dev nD) : (dat V c).arrAt 5 cfg1.N = result V c :=
  (dat V c).arrAt_eq_of_cover 5 (result V c) (flushed_eq V c) fun i =>
    ⟨t1_7, (flush1_5 t1_7).mpr rfl, by
      show i ∈ ((View.whole main_v25).slice (win1_5.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_5.index t1_7 0 * win1_5.size 0 ≤ (i 0 : Nat) ∧ (i 0 : Nat) < win1_5.index t1_7 0 * win1_5.size 0 + win1_5.xsize (grid1.coords t1_7) 0
                  rw [show win1_5.index t1_7 0 * win1_5.size 0 = 0 from by decide +kernel, show win1_5.xsize (grid1.coords t1_7) 0 = 1 from by decide +kernel]; omega
      | ⟨1, _⟩ => show win1_5.index t1_7 1 * win1_5.size 1 ≤ (i 1 : Nat) ∧ (i 1 : Nat) < win1_5.index t1_7 1 * win1_5.size 1 + win1_5.xsize (grid1.coords t1_7) 1
                  rw [show win1_5.index t1_7 1 * win1_5.size 1 = 0 from by decide +kernel, show win1_5.xsize (grid1.coords t1_7) 1 = 1 from by decide +kernel]; omega⟩

/-- THE VALUE of the region at the ideal instance: after the region the 1x1 output array holds the specification's loss of the
    inputs, the group sums, the denominators, the mask and the targets the region found in its arrays. -/
theorem arrAt_out (V : (c : Dev nD) → (b : Ref sig .tc) → Buf (Elt Ideal) ((c : Thread nD τ).loc b)) (c : Dev nD)
    (gs : Fin 8192 → Fin 256 → EReal) (den mask : Fin 8192 → EReal) (tgt : Fin 1024 → BitVec 32)
    (hgs : ∀ (k : Fin 8192) (d : Fin 256), (V c main_v1 : S8192x256.Idx → EReal) (ix2 k d) = gs k d)
    (hmask : ∀ k : Fin 8192, (V c main_v16 : S1x8192.Idx → EReal) (ix2 0 k) = mask k)
    (hinv : ∀ k : Fin 8192, (V c main_v15 : S1x8192.Idx → EReal) (ix2 0 k) = Ideal.div Cert.Spec.one (den k))
    (htgt : ∀ b : Fin 1024, (V c main_v24 : S1024x1.Idx → BitVec 32) (ix2 b 0) = tgt b) :
    ((Region1.dat (F := Ideal) V c).arrAt 5 cfg1.N : S1x1.Idx → EReal) (ix2 0 0)
      = Cert.Spec.lossK (V c main_arg0 : S1024x256.Idx → EReal) gs den mask tgt := by
  rw [final V c]
  exact out_last V c gs den mask tgt hgs hmask hinv htgt t1_7 rfl

end Cert.KernelIdeal.Value1

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.KI.Glue.lean ====
/-
  The host side of the idealized kernel program, and the precondition read back.

  Between its two launches the program computes, from the labels alone, the per-cluster counts (a scatter-add of ones),
  the indicator of a non-empty cluster, the denominator (the count, or 1 for an empty cluster) and its reciprocal, and
  from the labels and the target positions the target cluster of each input row (a gather). The reference computes the
  same three quantities by the same operations, so each is read here as the reference's own stage, element by element.
  Then the facts about those stages that the algebra needs: the indicator is 0 or 1, the denominator is a nonzero
  real, a target is one of the labels and so lies in the labels' range. Last, the printed precondition — every input
  entry finite, every label in [0, 8192) — is read back into those statements about the launch memory.
-/
import proofs.«414420_j57999238365647_3_alg».proof.Proof.Gen.KernelIdeal.Launch
import proofs.«414420_j57999238365647_3_alg».proof.Proof.Gen.KernelIdeal.Regions
import proofs.«414420_j57999238365647_3_alg».proof.Pre_finite_inputs
import proofs.«414420_j57999238365647_3_alg».proof.Proof.Gen.Pre_finite_inputs
import proofs.«414420_j57999238365647_3_alg».proof.Proof.RefRead
import proofs.«414420_j57999238365647_3_alg».proof.Proof.Spec
import proofs.«414420_j57999238365647_3_alg».proof.Proof.LibReal
import proofs.«414420_j57999238365647_3_alg».proof.Defs
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Glue

open Cert.KernelIdeal Cert.KernelIdeal.Gen Idealize.ShloMosaic Idealize.ShloMosaic.ValueIdx

/-! ## The host stretches, read at an element -/

/-- Before the first launch the labels are laid out as a column: row `s` of the column is label `s`. -/
theorem labels_col (W : Valuation τ sig (Elt Ideal)) (s : Fin 131072) :
    (StableHlo.after (hostOps0 (F := Ideal)) W (Proc.devRef .tc main_v0) : S131072x1.Idx → BitVec 32) (ix2 s 0)
      = (W (Proc.devRef .tc main_arg3) : S131072.Idx → BitVec 32) (ix1 s) := by
  have e : (StableHlo.after (hostOps0 (F := Ideal)) W (Proc.devRef .tc main_v0) : S131072x1.Idx → BitVec 32)
      = shapeCast S131072x1 (W (Proc.devRef .tc main_arg3) : S131072.Idx → BitVec 32) shapeCasts_S131072_S131072x1 := by
    show StableHlo.after hostOps0 W (Proc.devRef .tc main_v0) = _
    after_results; rfl
  rw [e]
  refine shapeCast_apply (s := S131072) (t := S131072x1) _ _ _ _ ?_
  rw [Shape.rowMajor_val_two, Shape.rowMajor_val_one]
  show s.val = s.val * 1 + 0
  omega

/-- Between the launches the indicator of a non-empty cluster is laid out as a row; it is the reference's indicator. -/
theorem mask_row (W : Valuation τ sig (Elt Ideal)) (k : Fin 8192) :
    (StableHlo.after (hostOps1 (F := Ideal)) W (Proc.devRef .tc main_v16) : S1x8192.Idx → EReal) (ix2 0 k)
      = Cert.ReferenceIdeal.ReadP.val_main_v24 (F := Ideal) (W (Proc.devRef .tc main_arg3)) (ix1 k) := by
  have e : (StableHlo.after (hostOps1 (F := Ideal)) W (Proc.devRef .tc main_v16) : S1x8192.Idx → EReal)
      = shapeCast S1x8192 (Cert.ReferenceIdeal.ReadP.val_main_v24 (F := Ideal) (W (Proc.devRef .tc main_arg3)) : S8192.Idx → EReal)
          shapeCasts_S8192_S1x8192 := by
    show StableHlo.after hostOps1 W (Proc.devRef .tc main_v16) = _
    after_results_simp; rfl
  rw [e]
  refine shapeCast_apply (s := S8192) (t := S1x8192) _ _ _ _ ?_
  rw [Shape.rowMajor_val_two, Shape.rowMajor_val_one]
  show k.val = 0 * 8192 + k.val
  omega

/-- The row of reciprocal denominators: one over the reference's denominator. -/
theorem inv_row (W : Valuation τ sig (Elt Ideal)) (k : Fin 8192) :
    (StableHlo.after (hostOps1 (F := Ideal)) W (Proc.devRef .tc main_v15) : S1x8192.Idx → EReal) (ix2 0 k)
      = Ideal.div Cert.Spec.one (Cert.ReferenceIdeal.ReadP.val_main_v28 (F := Ideal) (W (Proc.devRef .tc main_arg3)) (ix1 k)) := by
  have e : (StableHlo.after (hostOps1 (F := Ideal)) W (Proc.devRef .tc main_v15) : S1x8192.Idx → EReal)
      = shapeCast S1x8192 (Host.divf (broadcastInDim S8192 ![] bcast_S_S8192 (constant (F := Ideal) S_ .f32 0x3F800000#32))
          (Cert.ReferenceIdeal.ReadP.val_main_v28 (F := Ideal) (W (Proc.devRef .tc main_arg3))) : S8192.Idx → EReal)
          shapeCasts_S8192_S1x8192 := by
    show StableHlo.after hostOps1 W (Proc.devRef .tc main_v15) = _
    after_results_simp; rfl
  rw [e]
  refine (shapeCast_apply (s := S8192) (t := S1x8192) _ _ _ (ix1 k) ?_).trans ?_
  · rw [Shape.rowMajor_val_two, Shape.rowMajor_val_one]
    show k.val = 0 * 8192 + k.val
    omega
  · rw [hostDivf_apply, broadcastInDim_scalar_apply, constant_apply]
    unfold Cert.Spec.one
    rfl

/-- The column of targets: the reference's target of each input row. -/
theorem tgt_col (W : Valuation τ sig (Elt Ideal)) (b : Fin 1024) :
    (StableHlo.after (hostOps1 (F := Ideal)) W (Proc.devRef .tc main_v24) : S1024x1.Idx → BitVec 32) (ix2 b 0)
      = Cert.ReferenceIdeal.ReadP.val_main_v52 (F := Ideal) (W (Proc.devRef .tc main_arg2)) (W (Proc.devRef .tc main_arg3)) (ix1 b) := by
  have e : (StableHlo.after (hostOps1 (F := Ideal)) W (Proc.devRef .tc main_v24) : S1024x1.Idx → BitVec 32)
      = shapeCast S1024x1 (Cert.ReferenceIdeal.ReadP.val_main_v52 (F := Ideal) (W (Proc.devRef .tc main_arg2)) (W (Proc.devRef .tc main_arg3)) : S1024.Idx → BitVec 32)
          shapeCasts_S1024_S1024x1 := by
    show StableHlo.after hostOps1 W (Proc.devRef .tc main_v24) = _
    after_results_simp; rfl
  rw [e]
  refine shapeCast_apply (s := S1024) (t := S1024x1) _ _ _ _ ?_
  rw [Shape.rowMajor_val_two, Shape.rowMajor_val_one]
  show b.val = b.val * 1 + 0
  omega

/-- After the second launch its one-by-one result is laid out as a scalar. -/
theorem result_scalar (W : Valuation τ sig (Elt Ideal)) :
    (StableHlo.after (hostOps2 (F := Ideal)) W (Proc.devRef .tc main_v26) : S_.Idx → EReal) ix0
      = (W (Proc.devRef .tc main_v25) : S1x1.Idx → EReal) (ix2 0 0) := by
  have e : (StableHlo.after (hostOps2 (F := Ideal)) W (Proc.devRef .tc main_v26) : S_.Idx → EReal)
      = shapeCast S_ (W (Proc.devRef .tc main_v25) : S1x1.Idx → EReal) shapeCasts_S1x1_S_ := by
    show StableHlo.after hostOps2 W (Proc.devRef .tc main_v26) = _
    after_results; rfl
  rw [e]
  refine shapeCast_apply (s := S1x1) (t := S_) _ _ _ _ ?_
  rw [Shape.rowMajor_val_two]
  have h0 : ((S_ : Shape).rowMajor ix0).val < 1 := (S_.rowMajor ix0).isLt
  show (0 : Nat) * 1 + 0 = _
  omega

/-! ## Facts about the reference's three stages -/

/-- The indicator of a non-empty cluster is a converted one-bit word: 0 or 1. -/
theorem mask_01 (x3 : (⟨Cert.ReferenceIdeal.S131072, .i32⟩ : BufTy).Contents (Elt Ideal)) (k : Fin 8192) :
    Cert.ReferenceIdeal.ReadP.val_main_v24 (F := Ideal) x3 (ix1 k) = 0
      ∨ Cert.ReferenceIdeal.ReadP.val_main_v24 (F := Ideal) x3 (ix1 k) = 1 := by
  rw [Cert.ReferenceIdeal.ReadP.val_main_v24_apply]
  generalize Cert.ReferenceIdeal.ReadP.val_main_v23 (F := Ideal) x3 (ix1 k) = b
  rcases BitVec.eq_zero_or_eq_one b with rfl | rfl
  · left
    show (((0#1 : BitVec 1).toNat : ℝ) : EReal) = 0
    simp
  · right
    show (((1#1 : BitVec 1).toNat : ℝ) : EReal) = 1
    simp

/-- The count of a cluster — zero plus a one for every bank row the scatter sends to it — is a natural number. -/
theorem count_nat (x3 : (⟨Cert.ReferenceIdeal.S131072, .i32⟩ : BufTy).Contents (Elt Ideal)) (k : Fin 8192) :
    ∃ n : ℕ, Cert.ReferenceIdeal.ReadP.val_main_v21 (F := Ideal) x3 (ix1 k) = ((n : ℝ) : EReal) := by
  classical
  have h19 : Cert.ReferenceIdeal.ReadP.val_main_v19 (F := Ideal) (ix1 k) = 0 := by
    rw [Cert.ReferenceIdeal.ReadP.val_main_v19_apply, Cert.ReferenceIdeal.ReadP.val_main_cst_4_apply]
    exact Ideal.ofBits_zero_f32
  have h18 : ∀ j, Cert.ReferenceIdeal.ReadP.val_main_v18 (F := Ideal) j = ((1 : ℝ) : EReal) := fun j => by
    rw [Cert.ReferenceIdeal.ReadP.val_main_v18_apply, Cert.ReferenceIdeal.ReadP.val_main_cst_3_apply, EReal.coe_one]
    exact Ideal.ofBits_one_f32
  unfold Cert.ReferenceIdeal.ReadP.val_main_v21
  simp only [Host.scatterAdd, Ideal.hostScatterAdd_def, Ideal.hostScatterAdd]
  rw [h19, zero_add]
  simp only [h18]
  rw [← Cert.LibReal.coe_sum]
  simp only [Finset.sum_const, nsmul_eq_mul, mul_one]
  exact ⟨_, rfl⟩

/-- The denominator — the count of a non-empty cluster, 1 for an empty one — is a nonzero real. -/
theorem den_real (x3 : (⟨Cert.ReferenceIdeal.S131072, .i32⟩ : BufTy).Contents (Elt Ideal)) (k : Fin 8192) :
    ∃ r : ℝ, r ≠ 0 ∧ Cert.ReferenceIdeal.ReadP.val_main_v28 (F := Ideal) x3 (ix1 k) = (r : EReal) := by
  obtain ⟨n, hn⟩ := count_nat x3 k
  have h22 : Cert.ReferenceIdeal.ReadP.val_main_v22 (F := Ideal) (ix1 k) = 0 := by
    rw [Cert.ReferenceIdeal.ReadP.val_main_v22_apply, Cert.ReferenceIdeal.ReadP.val_main_cst_5_apply]
    exact Ideal.ofBits_zero_f32
  have h26 : Cert.ReferenceIdeal.ReadP.val_main_v26 (F := Ideal) (ix1 k) = ((1 : ℝ) : EReal) := by
    rw [Cert.ReferenceIdeal.ReadP.val_main_v26_apply, Cert.ReferenceIdeal.ReadP.val_main_cst_6_apply, EReal.coe_one]
    exact Ideal.ofBits_one_f32
  rw [Cert.ReferenceIdeal.ReadP.val_main_v28_apply, Cert.ReferenceIdeal.ReadP.val_main_v25_apply,
    Cert.ReferenceIdeal.ReadP.val_main_v27_apply, Cert.ReferenceIdeal.ReadP.val_main_v24_apply,
    Cert.ReferenceIdeal.ReadP.val_main_v23_apply, hn, h22, h26]
  rcases Nat.eq_zero_or_pos n with rfl | hpos
  · refine ⟨1, one_ne_zero, ?_⟩
    show ((((Ideal.cmp .ogt (((0 : ℕ) : ℝ) : EReal) 0).toNat : ℝ) : EReal)) * (((0 : ℕ) : ℝ) : EReal)
        + (((1 : ℝ) : EReal) - (((Ideal.cmp .ogt (((0 : ℕ) : ℝ) : EReal) 0).toNat : ℝ) : EReal)) = ((1 : ℝ) : EReal)
    have hc : Ideal.cmp .ogt (((0 : ℕ) : ℝ) : EReal) 0 = 0#1 := by simp [Ideal.cmp]
    rw [hc]
    simp
  · refine ⟨n, by exact_mod_cast hpos.ne', ?_⟩
    show ((((Ideal.cmp .ogt ((n : ℝ) : EReal) 0).toNat : ℝ) : EReal)) * ((n : ℝ) : EReal)
        + (((1 : ℝ) : EReal) - (((Ideal.cmp .ogt ((n : ℝ) : EReal) 0).toNat : ℝ) : EReal)) = ((n : ℝ) : EReal)
    have hc : Ideal.cmp .ogt ((n : ℝ) : EReal) 0 = 1#1 := by
      have : (0 : EReal) < ((n : ℝ) : EReal) := by exact_mod_cast hpos
      simp [Ideal.cmp, this, hpos]
    rw [hc, ← EReal.coe_mul, ← EReal.coe_sub, ← EReal.coe_add]
    simp

/-- A target is one of the labels (the gather reads the label array at some position), so it lies where they lie. -/
theorem tgt_range (x2 : (⟨Cert.ReferenceIdeal.S1024, .i32⟩ : BufTy).Contents (Elt Ideal))
    (x3 : (⟨Cert.ReferenceIdeal.S131072, .i32⟩ : BufTy).Contents (Elt Ideal))
    (hlab : ∀ s : Fin 131072, (x3 (ix1 s)).toNat < 8192) (b : Fin 1024) :
    (Cert.ReferenceIdeal.ReadP.val_main_v52 (F := Ideal) x2 x3 (ix1 b)).toNat < 8192 := by
  have key : ∀ i : Cert.ReferenceIdeal.S131072.Idx, (x3 i).toNat < 8192 := fun i => by
    rw [eq_ix1 i]; exact hlab _
  exact key _

/-! ## The precondition read back -/

/-- A word that is at least 0 and below 8192, read signed, is below 8192 read unsigned. -/
theorem toNat_lt_of_signed (x : BitVec 32) (h0 : (0#32 : BitVec 32).toInt ≤ x.toInt) (h1 : x.toInt < (8192#32 : BitVec 32).toInt) :
    x.toNat < 8192 := by
  have e0 : (0#32 : BitVec 32).toInt = 0 := by decide
  have e1 : (8192#32 : BitVec 32).toInt = 8192 := by decide
  rw [e0] at h0
  rw [e1] at h1
  have hx := BitVec.toInt_eq_toNat_cond x
  have hl := x.isLt
  split at hx <;> omega

/-- The precondition, read back at a core: every entry of the batch and of the bank is a real, and every label is
    below 8192 (a word that is at least 0 and below 8192 read signed). -/
theorem pre_read (m : (ℓ : Loc nD τ sig) → Buf (Elt Ideal) ℓ)
    (h : Cert.Pre_KernelIdeal (hPre_finite_inputs := Cert.Pre_finite_inputs.Gen.facts) m) (c : Dev nD) :
    (∀ i, ∃ r : ℝ, (m ((c.tc : Thread nD τ).loc main_arg0) : S1024x256.Idx → EReal) i = (r : EReal))
      ∧ (∀ i, ∃ r : ℝ, (m ((c.tc : Thread nD τ).loc main_arg1) : S131072x256.Idx → EReal) i = (r : EReal))
      ∧ (∀ s : Fin 131072, ((m ((c.tc : Thread nD τ).loc main_arg3) : S131072.Idx → BitVec 32) (ix1 s)).toNat < 8192) := by
  have h0 := congrFun (h c) ix0
  dsimp only [Cert.Pre_finite_inputs.fn] at h0
  obtain ⟨h01, h3⟩ := IntOp.andi_eq_one.1 h0
  obtain ⟨h1, h2⟩ := IntOp.andi_eq_one.1 h01
  refine ⟨fun i => Cert.LibReal.isReal_of_all _ _ _ _ h1 i, fun i => Cert.LibReal.isReal_of_all _ _ _ _ h2 i, fun s => ?_⟩
  have hs := Host.reduce_andi_all _ _ _ _ ix0 h3 (ix1 s)
  obtain ⟨hge, hlt⟩ := IntOp.andi_eq_one.1 hs
  have hge' := IntOp.cmpi_sge.1 hge
  have hlt' := IntOp.cmpi_slt.1 hlt
  rw [broadcastInDim_scalar_apply] at hge' hlt'
  exact toNat_lt_of_signed _ hge' hlt'

end Cert.KernelIdeal.Glue

end
-- ==== Proof.KI.Result.lean ====
/-
  The idealized kernel program's result as the specification's formula: the result buffer at the end of @main is the
  second region's 1x1 output reshaped; that output is the specification's loss of the batch, of the group sums the
  first region left, and of the mask, inverse denominators and targets the host stretch between the regions computed
  — the latter three the very stages the reference computes from the labels and the indexes.
-/
import proofs.«414420_j57999238365647_3_alg».proof.Proof.KI.Launch
import proofs.«414420_j57999238365647_3_alg».proof.Proof.KI.Value0
import proofs.«414420_j57999238365647_3_alg».proof.Proof.KI.Value1
import proofs.«414420_j57999238365647_3_alg».proof.Proof.KI.Glue

noncomputable section

namespace Cert.KernelIdeal.Result

open Cert.KernelIdeal Cert.KernelIdeal.Gen Cert.KernelIdeal.Launch
open Idealize.ShloMosaic Idealize.ShloMosaic.TcCoe Idealize.SL.Sem Idealize.ShloMosaic.ValueIdx

variable (m : (ℓ : Loc nD τ sig) → Buf (Elt Ideal) ℓ)

/-- The labels, the indexes, the batch and the bank reach every segment as launched. -/
theorem W2_arg2 (c : Dev nD) : W2 m c (Proc.devRef .tc main_arg2) = m ((c : Thread nD τ).loc main_arg2) :=
  (W2_of_ne m c main_arg2 (by decide)).trans <| (W1_of m c main_arg2 (by decide)).trans rfl
theorem W2_arg3 (c : Dev nD) : W2 m c (Proc.devRef .tc main_arg3) = m ((c : Thread nD τ).loc main_arg3) :=
  (W2_of_ne m c main_arg3 (by decide)).trans <| (W1_of m c main_arg3 (by decide)).trans rfl
theorem V3_arg0 (c : Dev nD) : Launch.V3 m c main_arg0 = m ((c : Thread nD τ).loc main_arg0) :=
  (W3_of m c main_arg0 (by decide)).trans <| (W2_of_ne m c main_arg0 (by decide)).trans <| (W1_of m c main_arg0 (by decide)).trans rfl
theorem V1_arg1 (c : Dev nD) : Launch.V1 m c main_arg1 = m ((c : Thread nD τ).loc main_arg1) :=
  (W1_of m c main_arg1 (by decide)).trans rfl

/-- The first region's output array, as the second region finds it: the group sums of the bank by label. -/
theorem V3_v1 (c : Dev nD) :
    (Launch.V3 m c main_v1 : S8192x256.Idx → EReal)
      = fun j => Cert.Spec.gsK (m ((c : Thread nD τ).loc main_arg1) : S131072x256.Idx → EReal)
          (m ((c : Thread nD τ).loc main_arg3) : S131072.Idx → BitVec 32) (j 0) (j 1) := by
  have h1 : Launch.V3 m c main_v1 = (Region0.dat (Launch.V1 m) c).arrAt 2 cfg0.N :=
    (W3_of m c main_v1 (by decide)).trans (W2_arr m c 2)
  rw [h1, Value0.arrAt_out (Launch.V1 m) c (m ((c : Thread nD τ).loc main_arg3) : S131072.Idx → BitVec 32)
    (fun s => Glue.labels_col (W0 m c) s), V1_arg1]

/-- THE RESULT of the idealized kernel program, as the specification's formula of the launch contents. -/
theorem result_eq (c : Dev nD) :
    (W5 m c main_v26 : S_.Idx → EReal) ix0
      = Cert.Spec.lossK (m ((c : Thread nD τ).loc main_arg0) : S1024x256.Idx → EReal)
          (Cert.Spec.gsK (m ((c : Thread nD τ).loc main_arg1) : S131072x256.Idx → EReal) (m ((c : Thread nD τ).loc main_arg3) : S131072.Idx → BitVec 32))
          (fun k => Cert.ReferenceIdeal.ReadP.val_main_v28 (F := Ideal) (m ((c : Thread nD τ).loc main_arg3)) (ix1 k))
          (fun k => Cert.ReferenceIdeal.ReadP.val_main_v24 (F := Ideal) (m ((c : Thread nD τ).loc main_arg3)) (ix1 k))
          (fun b => Cert.ReferenceIdeal.ReadP.val_main_v52 (F := Ideal) (m ((c : Thread nD τ).loc main_arg2)) (m ((c : Thread nD τ).loc main_arg3)) (ix1 b)) := by
  have h5 : (W5 m c main_v26 : S_.Idx → EReal) ix0 = (W4 m c (Proc.devRef .tc main_v25) : S1x1.Idx → EReal) (ix2 0 0) :=
    Glue.result_scalar (W4 m c)
  have h4 : W4 m c (Proc.devRef .tc main_v25) = (Region1.dat (Launch.V3 m) c).arrAt 5 cfg1.N := W4_arr m c 5
  rw [h5, h4]
  have := Value1.arrAt_out (Launch.V3 m) c
    (Cert.Spec.gsK (m ((c : Thread nD τ).loc main_arg1) : S131072x256.Idx → EReal) (m ((c : Thread nD τ).loc main_arg3) : S131072.Idx → BitVec 32))
    (fun k => Cert.ReferenceIdeal.ReadP.val_main_v28 (F := Ideal) (m ((c : Thread nD τ).loc main_arg3)) (ix1 k))
    (fun k => Cert.ReferenceIdeal.ReadP.val_main_v24 (F := Ideal) (m ((c : Thread nD τ).loc main_arg3)) (ix1 k))
    (fun b => Cert.ReferenceIdeal.ReadP.val_main_v52 (F := Ideal) (m ((c : Thread nD τ).loc main_arg2)) (m ((c : Thread nD τ).loc main_arg3)) (ix1 b))
    (fun k d => congrFun (V3_v1 m c) (ix2 k d))
    (fun k => by rw [← W2_arg3 m c]; exact Glue.mask_row (W2 m c) k)
    (fun k => by rw [← W2_arg3 m c]; exact Glue.inv_row (W2 m c) k)
    (fun b => by rw [← W2_arg2 m c, ← W2_arg3 m c]; exact Glue.tgt_col (W2 m c) b)
  rw [this, V3_arg0]

end Cert.KernelIdeal.Result

end
-- ==== Proof.RefValue.lean ====
/-
  The reference program's result is the specification's reference loss.

  Stage by stage: a row of the batch or of the bank divided by its clamped Euclidean norm; the logit of a batch row
  against a bank row, the inner product of the two normalised rows over the temperature; the scatter-add that sums,
  for each cluster, the logits of the bank rows carrying that cluster's label; the division by the cluster's
  denominator; the masked exponential, its guarded row sum and the logarithm of the guarded quotient; the read of each
  row's log-probability at the column its target names; and minus the mean over the batch.
-/
import proofs.«414420_j57999238365647_3_alg».proof.Proof.RefRead
import proofs.«414420_j57999238365647_3_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.WordArith
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## Rows over their clamped norms -/

/-- The batch's clamped norm of row b, as the program computes it. -/
theorem v2_apply (x0 : (⟨S1024x256, .f32⟩ : BufTy).Contents (Elt Ideal)) (b : Fin 1024) :
    val_main_v2 (F := Ideal) x0 (ix2 b (0 : Fin 1)) = Cert.Spec.cnorm x0 b := by
  have e1 : idx_main_call0_v2 (ix2 b (0 : Fin 1)) = ix1 b := funext fun a => Fin.ext (by match a with | ⟨0, _⟩ => rfl)
  have e2 : ∀ k : Fin 256, idx_main_call0_v1 (ix1 b) k = ix2 b k :=
    fun k => funext fun a => Fin.ext (by match a with | ⟨0, _⟩ => rfl | ⟨1, _⟩ => rfl)
  rw [val_main_v2_apply, val_main_v0_apply, val_main_call0_v2_apply, e1, val_main_call0_v1_apply, val_main_v1_apply,
    val_main_cst_apply, val_main_call0_cst_apply]
  simp only [e2, val_main_call0_v0_apply, Ideal.ofBits_def, Ideal.mulf_def, Ideal.maximumf_def, Ideal.hostUnary_sqrt_def,
    Ideal.ofBits_zero_f32, zero_add]
  rfl

/-- A batch entry over its row's clamped norm. -/
theorem v4_apply (x0 : (⟨S1024x256, .f32⟩ : BufTy).Contents (Elt Ideal)) (b : Fin 1024) (d : Fin 256) :
    val_main_v4 (F := Ideal) x0 (ix2 b d) = Cert.Spec.nrmR x0 b d := by
  have e1 : idx_main_v3 (ix2 b d) = ix2 b (0 : Fin 1) :=
    funext fun a => Fin.ext (by match a with | ⟨0, _⟩ => rfl | ⟨1, _⟩ => rfl)
  rw [val_main_v4_apply, val_main_v3_apply, e1, v2_apply]
  rfl

/-- The bank's clamped norm of row s, as the program computes it. -/
theorem v7_apply (x1 : (⟨S131072x256, .f32⟩ : BufTy).Contents (Elt Ideal)) (s : Fin 131072) :
    val_main_v7 (F := Ideal) x1 (ix2 s (0 : Fin 1)) = Cert.Spec.cnorm x1 s := by
  have e1 : idx_main_call1_v2 (ix2 s (0 : Fin 1)) = ix1 s := funext fun a => Fin.ext (by match a with | ⟨0, _⟩ => rfl)
  have e2 : ∀ k : Fin 256, idx_main_call1_v1 (ix1 s) k = ix2 s k :=
    fun k => funext fun a => Fin.ext (by match a with | ⟨0, _⟩ => rfl | ⟨1, _⟩ => rfl)
  rw [val_main_v7_apply, val_main_v5_apply, val_main_call1_v2_apply, e1, val_main_call1_v1_apply, val_main_v6_apply,
    val_main_cst_0_apply, val_main_call1_cst_apply]
  simp only [e2, val_main_call1_v0_apply, Ideal.ofBits_def, Ideal.mulf_def, Ideal.maximumf_def, Ideal.hostUnary_sqrt_def,
    Ideal.ofBits_zero_f32, zero_add]
  rfl

/-- A bank entry over its row's clamped norm. -/
theorem v9_apply (x1 : (⟨S131072x256, .f32⟩ : BufTy).Contents (Elt Ideal)) (s : Fin 131072) (d : Fin 256) :
    val_main_v9 (F := Ideal) x1 (ix2 s d) = Cert.Spec.nrmR x1 s d := by
  have e1 : idx_main_v8 (ix2 s d) = ix2 s (0 : Fin 1) :=
    funext fun a => Fin.ext (by match a with | ⟨0, _⟩ => rfl | ⟨1, _⟩ => rfl)
  rw [val_main_v9_apply, val_main_v8_apply, e1, v7_apply]
  rfl

/-! ## The logits -/

/-- The logit of batch row b against bank row s: the inner product of the normalised rows over the temperature. -/
theorem v13_apply (x0 : (⟨S1024x256, .f32⟩ : BufTy).Contents (Elt Ideal)) (x1 : (⟨S131072x256, .f32⟩ : BufTy).Contents (Elt Ideal))
    (b : Fin 1024) (s : Fin 131072) :
    val_main_v13 (F := Ideal) x0 x1 (ix2 b s) = Cert.Spec.logitR x0 x1 b s := by
  have el : ∀ k : Fin 256, lidx_main_v11 (ix2 b s) k = ix2 b k :=
    fun k => funext fun a => Fin.ext (by match a with | ⟨0, _⟩ => rfl | ⟨1, _⟩ => rfl)
  have er : ∀ k : Fin 256, idx_main_v10 (ridx_main_v11 (ix2 b s) k) = ix2 s k :=
    fun k => funext fun a => Fin.ext (by match a with | ⟨0, _⟩ => rfl | ⟨1, _⟩ => rfl)
  rw [val_main_v13_apply, val_main_v11_apply, val_main_v12_apply, val_main_cst_1_apply]
  simp only [val_main_v10_apply, el, er, v4_apply, v9_apply, Ideal.ofBits_def, Ideal.hostDivf_def]
  rfl

/-- The transposed logits: bank row first. -/
theorem v14_apply (x0 : (⟨S1024x256, .f32⟩ : BufTy).Contents (Elt Ideal)) (x1 : (⟨S131072x256, .f32⟩ : BufTy).Contents (Elt Ideal))
    (s : Fin 131072) (b : Fin 1024) :
    val_main_v14 (F := Ideal) x0 x1 (ix2 s b) = Cert.Spec.logitR x0 x1 b s := by
  have e1 : idx_main_v14 (ix2 s b) = ix2 b s :=
    funext fun a => Fin.ext (by match a with | ⟨0, _⟩ => rfl | ⟨1, _⟩ => rfl)
  rw [val_main_v14_apply, e1, v13_apply]

/-! ## The scatter-add: sums of logits by cluster

The program scatters row s of the transposed logits (1024 entries, one per batch row) onto row (label of s) of an
8192 x 1024 array of zeros and adds colliding rows. Update entry (s, b') lands on result entry (c, b) exactly when the
label of s, read as a signed integer, is c, and b' = b; a label outside [0, 8192) lands nowhere. -/

/-- The start of update (s, b') on the cluster axis: the label of s, read signed. -/
theorem scatter_start0 (idx : IVec S131072x1 32) (s : Fin 131072) (b' : Fin 1024) :
    scatter_S8192x1024_S131072x1_S131072x1024_1_0_0_1.start (ix2 s b') idx 0 = (idx (ix2 s (0 : Fin 1))).toInt := by
  unfold ScatterDims.start
  rw [dif_pos (show (0 : Fin S8192x1024.rank) ∈ scatter_S8192x1024_S131072x1_S131072x1024_1_0_0_1.scatterDimsToOperandDims by decide)]
  refine congrArg (fun i => (idx i).toInt) (funext fun a => Fin.ext ?_)
  match a with
  | ⟨0, _⟩ => rfl
  | ⟨1, _⟩ => rfl

/-- No start on the batch axis. -/
theorem scatter_start1 (idx : IVec S131072x1 32) (j : S131072x1024.Idx) :
    scatter_S8192x1024_S131072x1_S131072x1024_1_0_0_1.start j idx 1 = 0 := by
  unfold ScatterDims.start
  rw [dif_neg (show ¬(1 : Fin S8192x1024.rank) ∈ scatter_S8192x1024_S131072x1_S131072x1024_1_0_0_1.scatterDimsToOperandDims by decide)]

/-- No window coordinate on the cluster axis (an inserted axis). -/
theorem scatter_window0 (j : S131072x1024.Idx) :
    scatter_S8192x1024_S131072x1_S131072x1024_1_0_0_1.window j 0 = 0 := by
  unfold ScatterDims.window
  rw [dif_neg (show ¬(0 : Fin S8192x1024.rank) ∈ scatter_S8192x1024_S131072x1_S131072x1024_1_0_0_1.sKept by decide)]

/-- The window coordinate on the batch axis is the update's batch coordinate. -/
theorem scatter_window1 (s : Fin 131072) (b' : Fin 1024) :
    scatter_S8192x1024_S131072x1_S131072x1024_1_0_0_1.window (ix2 s b') 1 = b'.val := by
  unfold ScatterDims.window
  rw [dif_pos (show (1 : Fin S8192x1024.rank) ∈ scatter_S8192x1024_S131072x1_S131072x1024_1_0_0_1.sKept by decide)]
  rfl

/-- Where an update lands: entry (s, b') of the updates is added to entry (c, b) of the result exactly when the label
    of s, read signed, is c, and b' = b. -/
theorem scatter_lands (idx : IVec S131072x1 32) (s : Fin 131072) (b' : Fin 1024) (c : Fin 8192) (b : Fin 1024) :
    scatter_S8192x1024_S131072x1_S131072x1024_1_0_0_1.resultIdx? (ix2 s b') idx = some (ix2 c b)
      ↔ ((idx (ix2 s (0 : Fin 1))).toInt = (c.val : Int) ∧ b' = b) := by
  have h0 : scatter_S8192x1024_S131072x1_S131072x1024_1_0_0_1.start (ix2 s b') idx 0
      + (scatter_S8192x1024_S131072x1_S131072x1024_1_0_0_1.window (ix2 s b') 0 : Int) = (idx (ix2 s (0 : Fin 1))).toInt := by
    rw [scatter_start0, scatter_window0]; simp
  have h1 : scatter_S8192x1024_S131072x1_S131072x1024_1_0_0_1.start (ix2 s b') idx 1
      + (scatter_S8192x1024_S131072x1_S131072x1024_1_0_0_1.window (ix2 s b') 1 : Int) = (b'.val : Int) := by
    rw [scatter_start1, scatter_window1]; simp
  have hc : c.val < 8192 := c.isLt
  have hb' : b'.val < 1024 := b'.isLt
  unfold ScatterDims.resultIdx?
  split
  · rename_i h
    constructor
    · intro e
      have e' := Option.some.inj e
      have e0 : (scatter_S8192x1024_S131072x1_S131072x1024_1_0_0_1.start (ix2 s b') idx 0
          + (scatter_S8192x1024_S131072x1_S131072x1024_1_0_0_1.window (ix2 s b') 0 : Int)).toNat = c.val :=
        congrArg (fun i : S8192x1024.Idx => (i 0).val) e'
      have e1 : (scatter_S8192x1024_S131072x1_S131072x1024_1_0_0_1.start (ix2 s b') idx 1
          + (scatter_S8192x1024_S131072x1_S131072x1024_1_0_0_1.window (ix2 s b') 1 : Int)).toNat = b.val :=
        congrArg (fun i : S8192x1024.Idx => (i 1).val) e'
      have p0 := (h 0).1
      rw [h0] at e0 p0
      rw [h1] at e1
      exact ⟨by omega, Fin.ext (by omega)⟩
    · rintro ⟨hl, rfl⟩
      refine congrArg some (funext fun a => Fin.ext ?_)
      match a with
      | ⟨0, _⟩ =>
        show (scatter_S8192x1024_S131072x1_S131072x1024_1_0_0_1.start (ix2 s b') idx 0
          + (scatter_S8192x1024_S131072x1_S131072x1024_1_0_0_1.window (ix2 s b') 0 : Int)).toNat = c.val
        rw [h0, hl]; simp
      | ⟨1, _⟩ =>
        show (scatter_S8192x1024_S131072x1_S131072x1024_1_0_0_1.start (ix2 s b') idx 1
          + (scatter_S8192x1024_S131072x1_S131072x1024_1_0_0_1.window (ix2 s b') 1 : Int)).toNat = b'.val
        rw [h1]; simp
  · rename_i h
    constructor
    · intro e; exact absurd e (by simp)
    · rintro ⟨hl, rfl⟩
      exfalso
      apply h
      intro a
      match a with
      | ⟨0, _⟩ =>
        show 0 ≤ scatter_S8192x1024_S131072x1_S131072x1024_1_0_0_1.start (ix2 s b') idx 0
            + (scatter_S8192x1024_S131072x1_S131072x1024_1_0_0_1.window (ix2 s b') 0 : Int)
          ∧ scatter_S8192x1024_S131072x1_S131072x1024_1_0_0_1.start (ix2 s b') idx 0
            + (scatter_S8192x1024_S131072x1_S131072x1024_1_0_0_1.window (ix2 s b') 0 : Int) < ((8192 : Nat) : Int)
        rw [h0, hl]; omega
      | ⟨1, _⟩ =>
        show 0 ≤ scatter_S8192x1024_S131072x1_S131072x1024_1_0_0_1.start (ix2 s b') idx 1
            + (scatter_S8192x1024_S131072x1_S131072x1024_1_0_0_1.window (ix2 s b') 1 : Int)
          ∧ scatter_S8192x1024_S131072x1_S131072x1024_1_0_0_1.start (ix2 s b') idx 1
            + (scatter_S8192x1024_S131072x1_S131072x1024_1_0_0_1.window (ix2 s b') 1 : Int) < ((1024 : Nat) : Int)
        rw [h1]; omega

/-- A 32-bit word read signed is a number below 2^31 exactly when it is that number's word. -/
theorem toInt_eq_iff (w : BitVec 32) (c : Nat) (hc : c < 2 ^ 31) : w.toInt = (c : Int) ↔ w = BitVec.ofNat 32 c := by
  constructor
  · intro h
    apply BitVec.eq_of_toInt_eq
    rw [h, WordArith.toInt_ofNat_small c hc]
  · intro h
    rw [h, WordArith.toInt_ofNat_small c hc]

/-- The scatter-add read at entry (c, b): the operand's entry plus the updates' entries (s, b) over the rows s whose
    label is the word of c. -/
theorem scatterAdd_apply (x : FVec Ideal S8192x1024 .f32) (idx : IVec S131072x1 32) (upd : FVec Ideal S131072x1024 .f32)
    (c : Fin 8192) (b : Fin 1024) :
    Host.scatterAdd (F := Ideal) scatter_S8192x1024_S131072x1_S131072x1024_1_0_0_1 x idx upd (ix2 c b)
      = x (ix2 c b) + ∑ s : Fin 131072, (if idx (ix2 s (0 : Fin 1)) = BitVec.ofNat 32 c.val then upd (ix2 s b) else 0) := by
  show x (ix2 c b) + ∑ j ∈ Finset.univ.filter (fun j =>
      scatter_S8192x1024_S131072x1_S131072x1024_1_0_0_1.resultIdx? j idx = some (ix2 c b)), upd j = _
  refine congrArg (x (ix2 c b) + ·) ?_
  rw [Finset.sum_filter, sum_idx2]
  refine Finset.sum_congr rfl fun s _ => ?_
  have hc : c.val < 2 ^ 31 := lt_trans c.isLt (by norm_num)
  simp only [scatter_lands, toInt_eq_iff _ _ hc]
  by_cases hP : idx (ix2 s (0 : Fin 1)) = BitVec.ofNat 32 c.val
  · simp only [hP, true_and]
    rw [Finset.sum_ite_eq' Finset.univ b (fun b' => upd (ix2 s b')), if_pos (Finset.mem_univ b), if_pos trivial]
  · simp only [hP, false_and, if_false, Finset.sum_const_zero]

/-- The sum, over the bank rows labelled c, of batch row b's logits. -/
theorem v17_apply (x0 : (⟨S1024x256, .f32⟩ : BufTy).Contents (Elt Ideal)) (x1 : (⟨S131072x256, .f32⟩ : BufTy).Contents (Elt Ideal))
    (x3 : (⟨S131072, .i32⟩ : BufTy).Contents (Elt Ideal)) (c : Fin 8192) (b : Fin 1024) :
    val_main_v17 (F := Ideal) x0 x1 x3 (ix2 c b)
      = ∑ s : Fin 131072, (if x3 (ix1 s) = BitVec.ofNat 32 c.val then Cert.Spec.logitR x0 x1 b s else 0) := by
  have e16 : ∀ s : Fin 131072, idx_main_v16 (ix2 s (0 : Fin 1)) = ix1 s :=
    fun s => funext fun a => Fin.ext (by match a with | ⟨0, _⟩ => rfl)
  unfold val_main_v17
  rw [scatterAdd_apply, val_main_v15_apply, val_main_cst_2_apply]
  simp only [val_main_v16_apply, e16, v14_apply, Ideal.ofBits_def, Ideal.ofBits_zero_f32, zero_add]

/-! ## Similarities, masked exponentials, log-probabilities

The denominators and the mask are functions of the labels alone; they enter as parameters, by their values. -/

section Stages

variable (x0 : (⟨S1024x256, .f32⟩ : BufTy).Contents (Elt Ideal)) (x1 : (⟨S131072x256, .f32⟩ : BufTy).Contents (Elt Ideal))
  (x3 : (⟨S131072, .i32⟩ : BufTy).Contents (Elt Ideal))

/-- The per-cluster denominator, as the program computes it. -/
abbrev den (k : Fin 8192) : EReal := val_main_v28 (F := Ideal) x3 (ix1 k)
/-- The per-cluster mask, as the program computes it. -/
abbrev msk (k : Fin 8192) : EReal := val_main_v24 (F := Ideal) x3 (ix1 k)

/-- The similarity of batch row b to cluster c: the summed logits over the denominator. -/
theorem v31_apply (c : Fin 8192) (b : Fin 1024) :
    val_main_v31 (F := Ideal) x0 x1 x3 (ix2 c b) = Cert.Spec.simR x0 x1 x3 (den x3) b c := by
  have e30 : idx_main_v29 (idx_main_v30 (ix2 c b)) = ix1 c :=
    funext fun a => Fin.ext (by match a with | ⟨0, _⟩ => rfl)
  rw [val_main_v31_apply, v17_apply, val_main_v30_apply, val_main_v29_apply, e30, Ideal.hostDivf_def]
  unfold Cert.Spec.simR
  rfl

/-- The masked exponential of the similarity. -/
theorem v36_apply (b : Fin 1024) (c : Fin 8192) :
    val_main_v36 (F := Ideal) x0 x1 x3 (ix2 b c) = Cert.Spec.expR x0 x1 x3 (den x3) (msk x3) b c := by
  have e32 : idx_main_v32 (ix2 b c) = ix2 c b :=
    funext fun a => Fin.ext (by match a with | ⟨0, _⟩ => rfl | ⟨1, _⟩ => rfl)
  have e35 : idx_main_v34 (idx_main_v35 (ix2 b c)) = ix1 c :=
    funext fun a => Fin.ext (by match a with | ⟨0, _⟩ => rfl)
  rw [val_main_v36_apply, val_main_v33_apply, val_main_v32_apply, e32, v31_apply, val_main_v35_apply, val_main_v34_apply, e35,
    Ideal.mulf_def, Ideal.hostUnary_exp_def]
  unfold Cert.Spec.expR
  rfl

/-- The guarded row sum of the masked exponentials. -/
theorem v40_apply (b : Fin 1024) :
    val_main_v40 (F := Ideal) x0 x1 x3 (ix2 b (0 : Fin 1))
      = (∑ c : Fin 8192, Cert.Spec.expR x0 x1 x3 (den x3) (msk x3) b c) + Cert.Spec.e6 := by
  have e38 : idx_main_v38 (ix2 b (0 : Fin 1)) = ix1 b :=
    funext fun a => Fin.ext (by match a with | ⟨0, _⟩ => rfl)
  have e37 : ∀ k : Fin 8192, idx_main_v37 (ix1 b) k = ix2 b k :=
    fun k => funext fun a => Fin.ext (by match a with | ⟨0, _⟩ => rfl | ⟨1, _⟩ => rfl)
  rw [val_main_v40_apply, val_main_v38_apply, e38, val_main_v37_apply, val_main_v39_apply, val_main_cst_8_apply,
    val_main_cst_7_apply]
  simp only [e37, v36_apply, Ideal.ofBits_def, Ideal.addf_def, Ideal.ofBits_zero_f32, zero_add]
  rfl

/-- The log-probability of batch row b at cluster c. -/
theorem v45_apply (b : Fin 1024) (c : Fin 8192) :
    val_main_v45 (F := Ideal) x0 x1 x3 (ix2 b c) = Cert.Spec.logpR x0 x1 x3 (den x3) (msk x3) b c := by
  have e41 : idx_main_v41 (ix2 b c) = ix2 b (0 : Fin 1) :=
    funext fun a => Fin.ext (by match a with | ⟨0, _⟩ => rfl | ⟨1, _⟩ => rfl)
  rw [val_main_v45_apply, val_main_v44_apply, val_main_v42_apply, v36_apply, val_main_v41_apply, e41, v40_apply,
    val_main_v43_apply, val_main_cst_9_apply, Ideal.hostUnary_log_def, Ideal.addf_def, Ideal.hostDivf_def, Ideal.ofBits_def]
  unfold Cert.Spec.logpR
  rfl

end Stages

/-! ## The read at the target's column

Each row's log-probability is read at the column its target word names. A target word below 8192 is not negative, so
the wrap of negative indices leaves it alone, the range test passes, and the clamp of the gather's start index is the
identity: the entry read is column (target) of the row, and the fill for out-of-range targets is never selected. -/

/-- A word below 8192 is not below zero, read signed. -/
theorem slt_zero (w : BitVec 32) (hw : w.toNat < 8192) : IntOp.cmpi .slt w 0#32 = 0#1 :=
  eq_zero_of_ne_one fun h1 => by
    have := (StableHlo.Predicate.slt_iff_toNat (a := w) (b := 0#32) (by omega) (by decide)).1 h1
    simp at this

/-- A word below 8192 is at least zero, read signed. -/
theorem sge_zero (w : BitVec 32) (hw : w.toNat < 8192) : IntOp.cmpi .sge w 0#32 = 1#1 :=
  (StableHlo.Predicate.sge_iff_toNat (a := w) (b := 0#32) (by omega) (by decide)).2 (by simp)

/-- A word below 8192 is at most 8191, read signed. -/
theorem sle_8191 (w : BitVec 32) (hw : w.toNat < 8192) : IntOp.cmpi .sle w 8191#32 = 1#1 :=
  (StableHlo.Predicate.sle_iff_toNat (a := w) (b := 8191#32) (by omega) (by decide)).2
    (by rw [show (8191#32 : BitVec 32).toNat = 8191 from by decide]; omega)

/-- The gather's clamp of a start index below 8192 into [0, 8191] is the identity. -/
theorem clamp_col (w : BitVec 32) (hw : w.toNat < 8192) : min w.toInt.toNat 8191 = w.toNat := by
  rw [StableHlo.Predicate.toInt_eq_toNat_of_lt (a := w) (by omega)]
  simp only [Int.toNat_natCast]
  omega

/-- An and-fold from 1 of one-bit words that are all 1 is 1. -/
theorem fold_andi_one {ι : Type*} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons_of_mem hi))]
    rfl

/-- The operand entry the gather reads for row b: row b, at the clamped start index the row's index word names. -/
theorem gather_operandIdx (idx : IVec S1024x1x1 32) (b : Fin 1024) (col : Fin 8192)
    (hcol : min (idx (ix3 b (0 : Fin 1) (0 : Fin 1))).toInt.toNat 8191 = col.val) :
    gather_S1024x8192_S1024x1x1_S1024x1_n_1_0_0_1_2_11.operandIdx (ix2 b (0 : Fin 1)) idx = ix2 b col := by
  funext a
  refine Fin.ext ?_
  match a with
  | ⟨0, _⟩ =>
    show gather_S1024x8192_S1024x1x1_S1024x1_n_1_0_0_1_2_11.start (ix2 b (0 : Fin 1)) idx 0
        + gather_S1024x8192_S1024x1x1_S1024x1_n_1_0_0_1_2_11.batchCoord (ix2 b (0 : Fin 1)) 0
        + gather_S1024x8192_S1024x1x1_S1024x1_n_1_0_0_1_2_11.offCoord (ix2 b (0 : Fin 1)) 0 = b.val
    rw [GatherDims.start_batching _ _ _ _
        (show (0 : Fin S1024x8192.rank) ∈ gather_S1024x8192_S1024x1x1_S1024x1_n_1_0_0_1_2_11.operandBatchingDims by decide),
      GatherDims.offCoord_eq_zero _ _ _
        (show ¬(0 : Fin S1024x8192.rank) ∈ gather_S1024x8192_S1024x1x1_S1024x1_n_1_0_0_1_2_11.sKept by decide)]
    unfold GatherDims.batchCoord
    rw [dif_pos (show (0 : Fin S1024x8192.rank) ∈ gather_S1024x8192_S1024x1x1_S1024x1_n_1_0_0_1_2_11.operandBatchingDims by decide),
      Nat.zero_add, Nat.add_zero]
    rfl
  | ⟨1, _⟩ =>
    show gather_S1024x8192_S1024x1x1_S1024x1_n_1_0_0_1_2_11.start (ix2 b (0 : Fin 1)) idx 1
        + gather_S1024x8192_S1024x1x1_S1024x1_n_1_0_0_1_2_11.batchCoord (ix2 b (0 : Fin 1)) 1
        + gather_S1024x8192_S1024x1x1_S1024x1_n_1_0_0_1_2_11.offCoord (ix2 b (0 : Fin 1)) 1 = col.val
    rw [GatherDims.batchCoord_eq_zero _ _ _
        (show ¬(1 : Fin S1024x8192.rank) ∈ gather_S1024x8192_S1024x1x1_S1024x1_n_1_0_0_1_2_11.operandBatchingDims by decide),
      GatherDims.offCoord_eq_zero _ _ _
        (show ¬(1 : Fin S1024x8192.rank) ∈ gather_S1024x8192_S1024x1x1_S1024x1_n_1_0_0_1_2_11.sKept by decide),
      ← hcol]
    unfold GatherDims.start
    rw [dif_pos (show (1 : Fin S1024x8192.rank) ∈ gather_S1024x8192_S1024x1x1_S1024x1_n_1_0_0_1_2_11.startIndexMap by decide)]
    refine congrArg (fun i => min (idx i).toInt.toNat 8191) (funext fun a => Fin.ext ?_)
    match a with
    | ⟨0, _⟩ => rfl
    | ⟨1, _⟩ => rfl
    | ⟨2, _⟩ => rfl

section Take

variable (x0 : (⟨S1024x256, .f32⟩ : BufTy).Contents (Elt Ideal)) (x1 : (⟨S131072x256, .f32⟩ : BufTy).Contents (Elt Ideal))
  (x2 : (⟨S1024, .i32⟩ : BufTy).Contents (Elt Ideal)) (x3 : (⟨S131072, .i32⟩ : BufTy).Contents (Elt Ideal))

/-- The target word of batch row b, as the program computes it. -/
abbrev tgt (b : Fin 1024) : BitVec 32 := val_main_v52 (F := Ideal) x2 x3 (ix1 b)

/-- The targets as a column. -/
theorem v53_apply (b : Fin 1024) : val_main_v53 (F := Ideal) x2 x3 (ix2 b (0 : Fin 1)) = tgt x2 x3 b := by
  have e : idx_main_v53 (ix2 b (0 : Fin 1)) = ix1 b := funext fun a => Fin.ext (by match a with | ⟨0, _⟩ => rfl)
  rw [val_main_v53_apply, e]

variable (hrange : ∀ b : Fin 1024, (tgt x2 x3 b).toNat < 8192)
include hrange

/-- The wrap of negative indices leaves a target in range alone. -/
theorem call2_v4_apply (b : Fin 1024) : val_main_call2_v4 (F := Ideal) x2 x3 (ix2 b (0 : Fin 1)) = tgt x2 x3 b := by
  rw [val_main_call2_v4_apply, val_main_call2_v1_apply, v53_apply, val_main_call2_v0_apply, val_main_call2_c_apply,
    slt_zero _ (hrange b), select_zero]

/-- The index words of the gather: the targets, as a 1024 x 1 x 1 array. -/
theorem call2_v5_apply (b : Fin 1024) :
    val_main_call2_v5 (F := Ideal) x2 x3 (ix3 b (0 : Fin 1) (0 : Fin 1)) = tgt x2 x3 b := by
  have e : idx_main_call2_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  rw [val_main_call2_v5_apply, e, call2_v4_apply x2 x3 hrange]

/-- Every target passes the range test. -/
theorem call2_v11_apply (i : S1024x1x1.Idx) : val_main_call2_v11 (F := Ideal) x2 x3 i = 1#1 := by
  obtain ⟨b, z1, z2, rfl⟩ : ∃ (b : Fin 1024) (z1 z2 : Fin 1), i = ix3 b z1 z2 := ⟨i 0, i 1, i 2, eq_ix3 i⟩
  obtain rfl : z1 = 0 := Subsingleton.elim _ _
  obtain rfl : z2 = 0 := Subsingleton.elim _ _
  rw [val_main_call2_v11_apply, val_main_call2_v7_apply, val_main_call2_v10_apply, call2_v5_apply x2 x3 hrange,
    val_main_call2_v6_apply, val_main_call2_c_2_apply, val_main_call2_v9_apply, val_main_call2_v8_apply,
    val_main_call2_c_1_apply, sge_zero _ (hrange b), sle_8191 _ (hrange b)]
  rfl

/-- The and-reduce of the range test over its unit axis is 1. -/
theorem call2_v12_apply (j : S1024x1.Idx) : val_main_call2_v12 (F := Ideal) x2 x3 j = 1#1 := by
  unfold val_main_call2_v12
  rw [Host.reduce_eq_fold, val_main_call2_c_3_apply]
  exact fold_andi_one _ _ (fun i _ => call2_v11_apply x2 x3 hrange i)

/-- The gather reads row b's log-probability at the column its target names. -/
theorem call2_v13_apply (b : Fin 1024) :
    val_main_call2_v13 (F := Ideal) x0 x1 x2 x3 (ix2 b (0 : Fin 1))
      = Cert.Spec.logpR x0 x1 x3 (den x3) (msk x3) b ⟨(tgt x2 x3 b).toNat, hrange b⟩ := by
  unfold val_main_call2_v13
  show val_main_v45 (F := Ideal) x0 x1 x3 (gather_S1024x8192_S1024x1x1_S1024x1_n_1_0_0_1_2_11.operandIdx (ix2 b (0 : Fin 1))
    (val_main_call2_v5 (F := Ideal) x2 x3)) = _
  rw [gather_operandIdx (val_main_call2_v5 (F := Ideal) x2 x3) b ⟨(tgt x2 x3 b).toNat, hrange b⟩
    (by rw [call2_v5_apply x2 x3 hrange]; exact clamp_col _ (hrange b)), v45_apply]

/-- The selected entry: row b's log-probability at its target (the range test is 1, so the fill is not chosen). -/
theorem v54_apply (b : Fin 1024) :
    val_main_v54 (F := Ideal) x0 x1 x2 x3 (ix2 b (0 : Fin 1))
      = Cert.Spec.logpR x0 x1 x3 (den x3) (msk x3) b ⟨(tgt x2 x3 b).toNat, hrange b⟩ := by
  rw [val_main_v54_apply, call2_v12_apply x2 x3 hrange, select_one, call2_v13_apply x0 x1 x2 x3 hrange]

end Take

/-! ## Minus the mean -/

/-- The reference program's result is the specification's reference loss, at the denominators, the mask and the
    targets the program computes, when every target word is below 8192. -/
theorem result_eq (x0 : (⟨S1024x256, .f32⟩ : BufTy).Contents (Elt Ideal)) (x1 : (⟨S131072x256, .f32⟩ : BufTy).Contents (Elt Ideal))
    (x2 : (⟨S1024, .i32⟩ : BufTy).Contents (Elt Ideal)) (x3 : (⟨S131072, .i32⟩ : BufTy).Contents (Elt Ideal))
    (hrange : ∀ b : Fin 1024, (val_main_v52 (F := Ideal) x2 x3 (ix1 b)).toNat < 8192) :
    val_main_v57 (F := Ideal) x0 x1 x2 x3 ix0
      = Cert.Spec.lossR x0 x1 x3 (fun k => val_main_v28 (F := Ideal) x3 (ix1 k)) (fun k => val_main_v24 (F := Ideal) x3 (ix1 k))
          (fun b => val_main_v52 (F := Ideal) x2 x3 (ix1 b)) := by
  show _ = Cert.Spec.lossR x0 x1 x3 (den x3) (msk x3) (tgt x2 x3)
  rw [val_main_v57_apply, val_main_v56_apply, val_main_v55_apply, val_main_cst_11_apply, val_main_cst_12_apply, sum_idx2]
  simp only [Fin.sum_univ_one, v54_apply x0 x1 x2 x3 hrange, Ideal.hostNegf_def, Ideal.negf_def, Ideal.hostDivf_def,
    Ideal.ofBits_def, Ideal.ofBits_zero_f32, zero_add]
  unfold Cert.Spec.lossR
  refine congrArg (fun t => -(Ideal.div t Cert.Spec.c1024)) (Finset.sum_congr rfl fun b _ => ?_)
  exact congrArg (Cert.Spec.logpR x0 x1 x3 (den x3) (msk x3) b) (Fin.ext (Nat.mod_eq_of_lt (hrange b)).symm)

end Cert.ReferenceIdeal.RefValue

end
-- ==== Proof.Algebra.lean ====
/-
  The algebra of the claim, free of any program: over the extended reals, when every input entry is a real, every
  denominator a nonzero real, every mask entry 0 or 1 and every target word below 8192, the kernel's formula is the
  reference's formula.

  The clamped norm of a row of reals is a positive real, so multiplying by its reciprocal and dividing by it give the
  same real. The kernel's sum over blocks and rows of a block is the sum over all bank rows; exchanging it with the
  sum over columns, and 268435456/13421773 being one over the temperature's word, the two similarities are one real.
  So the masked exponentials agree and are reals that are not negative; the guarded row sum is a positive real; the
  kernel's selected column is the reference's target column; the log-probabilities are one real; and the eight block
  sums of their negatives, times 1/1024, are minus their mean.
-/
import proofs.«414420_j57999238365647_3_alg».proof.Proof.Spec
import proofs.«414420_j57999238365647_3_alg».proof.Proof.LibReal
import Idealize.ShloMosaic.PureOps.Ideal
import Idealize.ShloMosaic.PureOps.Ideal.Laws
import Mathlib.Tactic.NormNum
import Mathlib.Tactic.Ring
import Mathlib.Tactic.FieldSimp
import Mathlib.Tactic.Choose
import Mathlib.Tactic.Linarith
import Mathlib.Data.EReal.Basic
import Mathlib.Algebra.BigOperators.Fin
import Mathlib.Analysis.SpecialFunctions.Log.Basic

noncomputable section
open scoped BigOperators
namespace Cert.Algebra
open Idealize.ShloMosaic Idealize.ShloMosaic.ValueIdx Cert.Spec

/-! ## The literal words as reals -/

theorem one_eq : one = ((1 : ℝ) : EReal) := by
  simp [one, Ideal.ofBits, Ideal.ieee]
  rw [← EReal.coe_mul]; norm_num

theorem zero_eq : zero = ((0 : ℝ) : EReal) := by
  simp [zero]

theorem c1024_eq : c1024 = ((1024 : ℝ) : EReal) := by
  simp [c1024, Ideal.ofBits, Ideal.ieee]
  rw [← EReal.coe_mul]; norm_num

theorem r1024_eq : r1024 = ((1 / 1024 : ℝ) : EReal) := by
  simp [r1024, Ideal.ofBits, Ideal.ieee]
  rw [← EReal.coe_mul]; norm_num

theorem temp_eq : temp = ((13421773 / 268435456 : ℝ) : EReal) := by
  simp [temp, Ideal.ofBits, Ideal.ieee]
  rw [← EReal.coe_mul]; norm_num

theorem e12_eq : ∃ r : ℝ, 0 < r ∧ e12 = (r : EReal) := by
  simp [e12, Ideal.ofBits, Ideal.ieee]
  exact ⟨_, by norm_num, (EReal.coe_mul _ _).symm⟩

theorem e6_eq : ∃ r : ℝ, 0 < r ∧ e6 = (r : EReal) := by
  simp [e6, Ideal.ofBits, Ideal.ieee]
  exact ⟨_, by norm_num, (EReal.coe_mul _ _).symm⟩

/-! ## Sums over blocks, and the one selected column -/

/-- The rows of the bank, block by block, are all its rows. -/
theorem sum_bankRow {α : Type*} [AddCommMonoid α] (F : Fin 131072 → α) :
    ∑ t : Fin 128, ∑ s' : Fin 1024, F (bankRow t s') = ∑ s : Fin 131072, F s := by
  rw [← Fintype.sum_prod_type']
  refine Fintype.sum_bijective (fun p : Fin 128 × Fin 1024 => bankRow p.1 p.2) ⟨?_, ?_⟩ _ _ (fun _ => rfl)
  · rintro ⟨t, s⟩ ⟨t', s'⟩ h
    have h' : 1024 * t.val + s.val = 1024 * t'.val + s'.val := congrArg Fin.val h
    have ht : t = t' := Fin.ext (by omega)
    have hs : s = s' := Fin.ext (by omega)
    rw [ht, hs]
  · intro s
    refine ⟨(⟨s.val / 1024, by omega⟩, ⟨s.val % 1024, Nat.mod_lt _ (by norm_num)⟩), Fin.ext ?_⟩
    show 1024 * (s.val / 1024) + s.val % 1024 = s.val
    omega

/-- The rows of the batch, block by block, are all its rows. -/
theorem sum_batchRow {α : Type*} [AddCommMonoid α] (F : Fin 1024 → α) :
    ∑ i : Fin 8, ∑ r : Fin 128, F (batchRow i r) = ∑ b : Fin 1024, F b := by
  rw [← Fintype.sum_prod_type']
  refine Fintype.sum_bijective (fun p : Fin 8 × Fin 128 => batchRow p.1 p.2) ⟨?_, ?_⟩ _ _ (fun _ => rfl)
  · rintro ⟨t, s⟩ ⟨t', s'⟩ h
    have h' : 128 * t.val + s.val = 128 * t'.val + s'.val := congrArg Fin.val h
    have ht : t = t' := Fin.ext (by omega)
    have hs : s = s' := Fin.ext (by omega)
    rw [ht, hs]
  · intro s
    refine ⟨(⟨s.val / 128, by omega⟩, ⟨s.val % 128, Nat.mod_lt _ (by norm_num)⟩), Fin.ext ?_⟩
    show 128 * (s.val / 128) + s.val % 128 = s.val
    omega

/-- A sum that keeps the one column whose number is the word `w` (a word below 8192) is that column's term. -/
theorem sum_select {α : Type*} [AddCommMonoid α] (w : BitVec 32) (hw : w.toNat < 8192) (E : Fin 8192 → α) :
    ∑ c : Fin 8192, (if w = BitVec.ofNat 32 c.val then E c else 0)
      = E ⟨w.toNat % 8192, Nat.mod_lt _ (by norm_num)⟩ := by
  have key : ∀ c : Fin 8192, (w = BitVec.ofNat 32 c.val) ↔ (c = ⟨w.toNat % 8192, Nat.mod_lt _ (by norm_num)⟩) := by
    intro c
    constructor
    · intro h
      apply Fin.ext
      have h1 : w.toNat = c.val % 2 ^ 32 := by rw [h, BitVec.toNat_ofNat]
      have h2 : c.val < 8192 := c.isLt
      show c.val = w.toNat % 8192
      omega
    · intro h
      have h1 : c.val = w.toNat := by
        have := congrArg Fin.val h
        simp only at this
        omega
      rw [h1, BitVec.ofNat_toNat, BitVec.setWidth_eq]
  simp only [key]
  rw [Finset.sum_ite_eq' Finset.univ]
  simp

/-! ## Rows of reals: the clamped norm and the normalised entry -/

/-- The cast of the larger of two reals. -/
theorem coe_max (a b : ℝ) : ((max a b : ℝ) : EReal) = max (a : EReal) (b : EReal) :=
  EReal.coe_strictMono.monotone.map_max

/-- A conditional between casts is the cast of the conditional. -/
theorem ite_coe (p : Prop) [Decidable p] (a : ℝ) :
    (if p then (a : EReal) else 0) = ((if p then a else 0 : ℝ) : EReal) := by
  split_ifs <;> simp

/-- The clamped norm of a row of reals is a positive real. -/
theorem cnorm_real {n : Nat} (v : (⟨2, ![n, 256]⟩ : Shape).Idx → EReal) (hv : ∀ i, ∃ r : ℝ, v i = (r : EReal))
    (r : Fin n) : ∃ q : ℝ, 0 < q ∧ cnorm v r = (q : EReal) := by
  choose vr hvr using hv
  obtain ⟨e, he, hee⟩ := e12_eq
  refine ⟨max (Real.sqrt (∑ d : Fin 256, vr (ix2 r d) * vr (ix2 r d))) e, lt_max_of_lt_right he, ?_⟩
  unfold cnorm
  simp only [hvr, ← EReal.coe_mul, ← Cert.LibReal.coe_sum]
  rw [Ideal.sqrt_coe, if_neg (not_lt.mpr (Finset.sum_nonneg (fun d _ => mul_self_nonneg _))), hee, coe_max]

/-- On a row of reals the two normalisations agree, and give a real. -/
theorem nrm_real {n : Nat} (v : (⟨2, ![n, 256]⟩ : Shape).Idx → EReal) (hv : ∀ i, ∃ r : ℝ, v i = (r : EReal))
    (r : Fin n) (d : Fin 256) : ∃ q : ℝ, nrmK v r d = (q : EReal) ∧ nrmR v r d = (q : EReal) := by
  obtain ⟨q, hq, hc⟩ := cnorm_real v hv r
  obtain ⟨a, ha⟩ := hv (ix2 r d)
  refine ⟨a * (1 / q), ?_, ?_⟩
  · unfold nrmK
    rw [hc, ha, one_eq, Ideal.div_coe (ne_of_gt hq), ← EReal.coe_mul, ← EReal.coe_mul, one_mul]
  · unfold nrmR
    rw [hc, ha, Ideal.div_coe (ne_of_gt hq), ← EReal.coe_mul]

/-! ## The similarity -/

/-- Both similarities, for one input row and one cluster, over normalised rows of reals: the kernel's inner products
    with the cluster's summed rows, scaled by the reciprocal temperature and the reciprocal denominator, and the
    reference's inner products divided by the temperature, summed over the cluster and divided by the denominator,
    are one real. -/
theorem sim_core (a : Fin 256 → ℝ) (g : Fin 131072 → Fin 256 → ℝ) (p : Fin 131072 → Prop) [DecidablePred p]
    (D : ℝ) (hD : D ≠ 0) :
    ∃ q : ℝ,
      ((∑ d : Fin 256, (a d : EReal) * (∑ t : Fin 128, ∑ s' : Fin 1024,
          (if p (bankRow t s') then (g (bankRow t s') d : EReal) else 0))) * invTemp) * Ideal.div one (D : EReal)
        = (q : EReal)
      ∧ Ideal.div (∑ s : Fin 131072,
          (if p s then Ideal.div (∑ d : Fin 256, (a d : EReal) * (g s d : EReal)) temp else 0)) (D : EReal)
        = (q : EReal) := by
  refine ⟨(∑ s : Fin 131072,
    (if p s then (∑ d : Fin 256, a d * g s d) * (1 / (13421773 / 268435456)) else 0)) * (1 / D), ?_, ?_⟩
  · have h1 : ∀ d : Fin 256, (∑ t : Fin 128, ∑ s' : Fin 1024,
        (if p (bankRow t s') then (g (bankRow t s') d : EReal) else 0))
        = ((∑ s : Fin 131072, (if p s then g s d else 0) : ℝ) : EReal) := by
      intro d
      refine (sum_bankRow (fun s => if p s then (g s d : EReal) else 0)).trans ?_
      simp only [ite_coe, ← Cert.LibReal.coe_sum]
    simp only [h1]
    rw [one_eq, Ideal.div_coe hD, ← EReal.coe_mul, one_mul, invTemp]
    simp only [← EReal.coe_mul, ← Cert.LibReal.coe_sum]
    apply congrArg
    have h2 : ∑ d : Fin 256, a d * ∑ s : Fin 131072, (if p s then g s d else 0)
        = ∑ s : Fin 131072, if p s then ∑ d : Fin 256, a d * g s d else 0 := by
      simp only [Finset.mul_sum]
      rw [Finset.sum_comm]
      refine Finset.sum_congr rfl (fun s _ => ?_)
      split_ifs <;> simp
    have h3 : ∑ s : Fin 131072, (if p s then (∑ d : Fin 256, a d * g s d) * (1 / (13421773 / 268435456)) else 0)
        = (∑ s : Fin 131072, if p s then ∑ d : Fin 256, a d * g s d else 0) * (268435456 / 13421773) := by
      rw [Finset.sum_mul]
      refine Finset.sum_congr rfl (fun s _ => ?_)
      split_ifs
      · rw [one_div_div]
      · simp
    rw [h2, h3]
  · rw [Ideal.div_coe hD]
    have h4 : ∀ s : Fin 131072, Ideal.div (((∑ d : Fin 256, a d * g s d : ℝ)) : EReal) temp
        = (((∑ d : Fin 256, a d * g s d) * (1 / (13421773 / 268435456)) : ℝ) : EReal) := by
      intro s
      rw [temp_eq, Ideal.div_coe (by norm_num), ← EReal.coe_mul]
    simp only [← EReal.coe_mul, ← Cert.LibReal.coe_sum]
    simp only [h4, ite_coe, ← Cert.LibReal.coe_sum, ← EReal.coe_mul]

/-! ## The two programs' formulas on real inputs -/

section Main

variable (x : (⟨2, ![1024, 256]⟩ : Shape).Idx → EReal) (f : (⟨2, ![131072, 256]⟩ : Shape).Idx → EReal)
  (lab : (⟨1, ![131072]⟩ : Shape).Idx → BitVec 32) (den mask : Fin 8192 → EReal) (tgt : Fin 1024 → BitVec 32)
  (hx : ∀ i, ∃ r : ℝ, x i = (r : EReal)) (hf : ∀ i, ∃ r : ℝ, f i = (r : EReal))
  (hden : ∀ k, ∃ r : ℝ, r ≠ 0 ∧ den k = (r : EReal))
  (hmask : ∀ k, mask k = 0 ∨ mask k = 1)
  (htgt : ∀ b, (tgt b).toNat < 8192)

include hx hf hden in
/-- The kernel's similarity over its own group sums is the reference's, a real. -/
theorem sim_eq (b : Fin 1024) (c : Fin 8192) :
    ∃ q : ℝ, simK x (gsK f lab) den b c = (q : EReal) ∧ simR x f lab den b c = (q : EReal) := by
  choose a haK haR using fun d => nrm_real x hx b d
  choose g hgK hgR using fun s d => nrm_real f hf s d
  obtain ⟨D, hD, hDe⟩ := hden c
  obtain ⟨q, h1, h2⟩ := sim_core a g (fun s => lab (ix1 s) = BitVec.ofNat 32 c.val) D hD
  refine ⟨q, ?_, ?_⟩
  · unfold simK gsK
    simp only [haK, hgK, hDe]
    exact h1
  · unfold simR logitR
    simp only [haR, hgR, hDe]
    exact h2

include hx hf hden hmask in
/-- The masked exponentials agree: a real that is not negative. -/
theorem exp_eq (b : Fin 1024) (c : Fin 8192) :
    ∃ q : ℝ, 0 ≤ q ∧ expK x (gsK f lab) den mask b c = (q : EReal) ∧ expR x f lab den mask b c = (q : EReal) := by
  obtain ⟨s, hsK, hsR⟩ := sim_eq x f lab den hx hf hden b c
  unfold expK expR
  rw [hsK, hsR, Ideal.exp_coe]
  rcases hmask c with hm | hm <;> rw [hm]
  · exact ⟨0, le_refl _, by simp, by simp⟩
  · exact ⟨Real.exp s, (Real.exp_pos s).le, by simp, by simp⟩

include hx hf hden hmask htgt in
/-- The log-probabilities agree, the kernel's selected column being the reference's target column: a real. -/
theorem logp_eq (b : Fin 1024) :
    ∃ q : ℝ, logpK x (gsK f lab) den mask tgt b = (q : EReal)
      ∧ logpR x f lab den mask b ⟨(tgt b).toNat % 8192, Nat.mod_lt _ (by norm_num)⟩ = (q : EReal) := by
  choose E hE0 hEK hER using fun c => exp_eq x f lab den mask hx hf hden hmask b c
  obtain ⟨e, he, hee⟩ := e6_eq
  have hS : 0 ≤ ∑ c : Fin 8192, E c := Finset.sum_nonneg (fun c _ => hE0 c)
  have hSe : (∑ c : Fin 8192, E c) + e ≠ 0 := ne_of_gt (by linarith)
  have harg : ∀ c0 : Fin 8192, 0 < E c0 * (1 / ((∑ c : Fin 8192, E c) + e)) + e := by
    intro c0
    have h1 : 0 ≤ 1 / ((∑ c : Fin 8192, E c) + e) := by
      apply div_nonneg zero_le_one; linarith
    have h2 : 0 ≤ E c0 * (1 / ((∑ c : Fin 8192, E c) + e)) := mul_nonneg (hE0 c0) h1
    linarith
  refine ⟨Real.log (E ⟨(tgt b).toNat % 8192, Nat.mod_lt _ (by norm_num)⟩
    * (1 / ((∑ c : Fin 8192, E c) + e)) + e), ?_, ?_⟩
  · unfold logpK
    rw [sum_select (tgt b) (htgt b) (fun c => expK x (gsK f lab) den mask b c)]
    simp only [hEK, hee, ← Cert.LibReal.coe_sum, ← EReal.coe_add]
    rw [Ideal.div_coe hSe, ← EReal.coe_mul, ← EReal.coe_add, Ideal.log_coe, if_neg (not_le.mpr (harg _))]
  · unfold logpR
    simp only [hER, hee, ← Cert.LibReal.coe_sum, ← EReal.coe_add]
    rw [Ideal.div_coe hSe, ← EReal.coe_mul, ← EReal.coe_add, Ideal.log_coe, if_neg (not_le.mpr (harg _))]

include hx hf hden hmask htgt in
/-- The two losses: the block sums of negated log-probabilities scaled by the reciprocal batch size are minus the
    mean of the log-probabilities. -/
theorem loss_eq :
    Cert.Spec.lossK x (Cert.Spec.gsK f lab) den mask tgt = Cert.Spec.lossR x f lab den mask tgt := by
  choose L hLK hLR using fun b => logp_eq x f lab den mask tgt hx hf hden hmask htgt b
  unfold lossK lossR
  simp only [hLK, hLR]
  rw [zero_eq, r1024_eq, c1024_eq, Ideal.div_coe (by norm_num)]
  simp only [← Cert.LibReal.coe_sum, ← EReal.coe_sub, ← EReal.coe_mul, ← EReal.coe_neg]
  apply congrArg
  rw [← sum_batchRow L]
  simp only [zero_sub, Finset.sum_neg_distrib]
  ring

end Main

/-- The kernel's formula is the reference's formula when every input entry is a real. -/
theorem lossK_eq_lossR (x : (⟨2, ![1024, 256]⟩ : Shape).Idx → EReal) (f : (⟨2, ![131072, 256]⟩ : Shape).Idx → EReal)
    (lab : (⟨1, ![131072]⟩ : Shape).Idx → BitVec 32) (den mask : Fin 8192 → EReal) (tgt : Fin 1024 → BitVec 32)
    (hx : ∀ i, ∃ r : ℝ, x i = (r : EReal)) (hf : ∀ i, ∃ r : ℝ, f i = (r : EReal))
    (hden : ∀ k, ∃ r : ℝ, r ≠ 0 ∧ den k = (r : EReal))
    (hmask : ∀ k, mask k = 0 ∨ mask k = 1)
    (htgt : ∀ b, (tgt b).toNat < 8192) :
    Cert.Spec.lossK x (Cert.Spec.gsK f lab) den mask tgt = Cert.Spec.lossR x f lab den mask tgt :=
  loss_eq x f lab den mask tgt hx hf hden hmask htgt

end Cert.Algebra
end
-- ==== Proof.lean ====
/-
  The certificate of the hybrid-memory loss kernel against its reference.

  The kernel normalises the memory bank row by row and sums the normalised rows by cluster label in a first launch
  (a one-hot matrix product per block of 1024 rows, accumulated over the 128 blocks), computes the clusters' sizes,
  the non-empty mask, the reciprocal denominators and each input row's target cluster on the host, and in a second
  launch takes the inner products of the normalised inputs with the group sums, scales them by the reciprocal
  temperature and the reciprocal denominator, exponentiates under the mask, and accumulates minus the logarithm of the
  target's guarded probability over the eight blocks of the batch, scaled by 1/1024 at the end. The reference takes
  all inner products of normalised rows first, divides by the temperature, sums by cluster, divides by the
  denominator, and takes minus the mean of the target's guarded log-probability.

  Over the extended reals the two agree when every input entry is a real and every label is a cluster number below
  8192: normalising by multiplying with the reciprocal of the clamped norm is dividing by it; the sum by cluster
  commutes with the inner product, with the scaling by the temperature's exact reciprocal (the kernel's constant 20 is
  NAMED that reciprocal) and with the division by the denominator; selecting the target's column by comparing with the
  column numbers is reading that column; and the blockwise accumulation times 1/1024 is the mean.

  The frames of the two kernel programs are the launches of their five segments (a host stretch, a region, a host
  stretch, a region, a host stretch); the reference's frame and value are its run read back.
-/
import proofs.«414420_j57999238365647_3_alg».proof.Defs
import proofs.«414420_j57999238365647_3_alg».proof.Proof.Gen.Kernel
import proofs.«414420_j57999238365647_3_alg».proof.Proof.Gen.KernelIdeal
import proofs.«414420_j57999238365647_3_alg».proof.Proof.Gen.ReferenceIdeal
import proofs.«414420_j57999238365647_3_alg».proof.Proof.Gen.Pre_finite_inputs
import proofs.«414420_j57999238365647_3_alg».proof.Proof.K.Launch
import proofs.«414420_j57999238365647_3_alg».proof.Proof.KI.Launch
import proofs.«414420_j57999238365647_3_alg».proof.Proof.KI.Result
import proofs.«414420_j57999238365647_3_alg».proof.Proof.RefRead
import proofs.«414420_j57999238365647_3_alg».proof.Proof.KI.Glue
import proofs.«414420_j57999238365647_3_alg».proof.Proof.RefValue
import proofs.«414420_j57999238365647_3_alg».proof.Proof.Algebra
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Launch.frame m ρ
/-- The idealized kernel program runs and leaves its arguments as launched. -/
theorem frame_ki : Cert.frame_KernelIdeal := fun m ρ _ => Cert.KernelIdeal.Launch.frame m ρ
/-- The reference runs and leaves its arguments as launched: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the ideal pass: the kernel's constant 20 is the name of one over the temperature's word. -/
theorem preserves : Cert.preserves_Kernel_KernelIdeal :=
  IdealRules.named_const.statement Cert.KernelIdeal.κ "inv_temp" .f32 0x41A00000#32 ((268435456 / 13421773 : ℝ) : EReal) rfl

/-- From memories agreeing on the arguments both idealized programs run, and end with the same loss: the kernel's is
    the specification's kernel formula of the launch contents, the reference's the specification's reference formula,
    and the two formulas agree on real inputs with labels below 8192. -/
theorem algebraic : Cert.algebraic_KernelIdeal_ReferenceIdeal := by
  intro m ρ m' ρ' hpre hagree
  refine ⟨fun c => Cert.KernelIdeal.Launch.W5 m c Cert.KernelIdeal.main_v26, Cert.KernelIdeal.Launch.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hf, hlab⟩ := Cert.KernelIdeal.Glue.pre_read m hpre c
  rw [Cert.ReferenceIdeal.ReadP.val_main_v57_eq, (hagree c).1, (hagree c).2.1, (hagree c).2.2.1, (hagree c).2.2.2]
  funext i
  rw [eq_ix0 i]
  have htgt := Cert.KernelIdeal.Glue.tgt_range (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) hlab
  refine (Cert.ReferenceIdeal.RefValue.result_eq _ _ _ _ htgt).trans ?_
  refine (Cert.Algebra.lossK_eq_lossR _ _ _ _ _ _ hx hf (fun k => Cert.KernelIdeal.Glue.den_real _ k) (fun k => Cert.KernelIdeal.Glue.mask_01 _ k) htgt).symm.trans ?_
  exact (Cert.KernelIdeal.Result.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
